-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S3x64 : Shape := ⟨2, ![3, 64]⟩
abbrev S1x64 : Shape := ⟨2, ![1, 64]⟩
abbrev S_ : Shape := ⟨0, ![]⟩
abbrev S100000x64 : Shape := ⟨2, ![100000, 64]⟩
abbrev S1000000x1 : Shape := ⟨2, ![1000000, 1]⟩

class Facts : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1000000x64 : S_.BroadcastsInDim S1000000x64 (![] : Fin 0 → Fin S1000000x64.rank)
  bcast_S_S1000000x3 : S_.BroadcastsInDim S1000000x3 (![] : Fin 0 → Fin S1000000x3.rank)
  reducesTo_S1000000x3_S_d0_1 : S1000000x3.ReducesTo [0, 1] S_
  h_S_ : 0 < S_.numel
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  reducesTo_S1000000_S_d0 : S1000000.ReducesTo [0] S_
  dot_S1000000x3_S3x64_S1000000x64_1_0_0_1_n_n_wf : DotDims.WF S1000000x3 S3x64 S1000000x64 [1] [0] [0] [1] [] []
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]

variable [Facts]

def dot_S1000000x3_S3x64_S1000000x64_1_0_0_1_n_n : DotDims S1000000x3 S3x64 S1000000x64 where
  lhsContracting := [1]
  rhsContracting := [0]
  lhsNonContracting := [0]
  rhsNonContracting := [1]
  lhsBatch := []
  rhsBatch := []
  wf := dot_S1000000x3_S3x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def fn_part4 {F : FTy → Type} [FloatOps F] (main_v16 : FVec F S1000000x64 .f32) (main_v65 : IVec S_ 1) (main_v67 : IVec S1000000 1) (main_v69 : IVec S1000000 1) : IVec S_ 1 :=
  let main_v70 : IVec S1000000 1 := andi main_v67 main_v69
  let main_c_24 : IVec S_ 1 := constantI S_ 1 1#1
  let main_v71 : IVec S_ 1 := (fun x v => Host.reduce IntOp.andi x v reducesTo_S1000000_S_d0 h_S_) main_v70 main_c_24
  let main_v72 : IVec S_ 1 := andi main_v65 main_v71
  let main_cst_25 : FVec F S_ .f32 := constant S_ .f32 0x00000000#32
  let main_v73 : FVec F S1000000x64 .f32 := broadcastInDim S1000000x64 ![] bcast_S_S1000000x64 main_cst_25
  let main_v74 : IVec S1000000x64 1 := cmpf .une main_v16 main_v73
  let main_c_26 : IVec S_ 1 := constantI S_ 1 1#1
  let main_v75 : IVec S_ 1 := (fun x v => Host.reduce IntOp.andi x v reducesTo_S1000000x64_S_d0_1 h_S_) main_v74 main_c_26
  let main_v76 : IVec S_ 1 := andi main_v72 main_v75
  main_v76

def fn_part3 {F : FTy → Type} [FloatOps F] (main_arg2 : IVec S1000000 32) (main_arg9 : FVec F S64 .f32) (main_arg10 : FVec F S64 .f32) (main_v16 : FVec F S1000000x64 .f32) (main_v50 : IVec S_ 1) (main_v51 : FVec F S64 .f32) (main_v52 : FVec F S64 .f32) : IVec S_ 1 :=
  let main_v53 : IVec S64 1 := cmpf .olt main_v51 main_v52
  let main_c_17 : IVec S_ 1 := constantI S_ 1 1#1
  let main_v54 : IVec S_ 1 := (fun x v => Host.reduce IntOp.andi x v reducesTo_S64_S_d0 h_S_) main_v53 main_c_17
  let main_v55 : IVec S_ 1 := andi main_v50 main_v54
  let main_v56 : FVec F S64 .f32 := Host.absf main_arg9
  let main_cst_18 : FVec F S_ .f32 := constant S_ .f32 0x7F800000#32
  let main_v57 : FVec F S64 .f32 := broadcastInDim S64 ![] bcast_S_S64 main_cst_18
  let main_v58 : IVec S64 1 := cmpf .olt main_v56 main_v57
  let main_c_19 : IVec S_ 1 := constantI S_ 1 1#1
  let main_v59 : IVec S_ 1 := (fun x v => Host.reduce IntOp.andi x v reducesTo_S64_S_d0 h_S_) main_v58 main_c_19
  let main_v60 : IVec S_ 1 := andi main_v55 main_v59
  let main_v61 : FVec F S64 .f32 := Host.absf main_arg10
  let main_cst_20 : FVec F S_ .f32 := constant S_ .f32 0x7F800000#32
  let main_v62 : FVec F S64 .f32 := broadcastInDim S64 ![] bcast_S_S64 main_cst_20
  let main_v63 : IVec S64 1 := cmpf .olt main_v61 main_v62
  let main_c_21 : IVec S_ 1 := constantI S_ 1 1#1
  let main_v64 : IVec S_ 1 := (fun x v => Host.reduce IntOp.andi x v reducesTo_S64_S_d0 h_S_) main_v63 main_c_21
  let main_v65 : IVec S_ 1 := andi main_v60 main_v64
  let main_c_22 : IVec S_ 32 := constantI S_ 32 0#32
  let main_v66 : IVec S1000000 32 := broadcastInDim S1000000 ![] bcast_S_S1000000 main_c_22
  let main_v67 : IVec S1000000 1 := cmpi .sge main_arg2 main_v66
  let main_c_23 : IVec S_ 32 := constantI S_ 32 100000#32
  let main_v68 : IVec S1000000 32 := broadcastInDim S1000000 ![] bcast_S_S1000000 main_c_23
  let main_v69 : IVec S1000000 1 := cmpi .slt main_arg2 main_v68
  fn_part4 (F := F) main_v16 main_v65 main_v67 main_v69

def fn_part2 {F : FTy → Type} [FloatOps F] (main_arg2 : IVec S1000000 32) (main_arg5 : FVec F S64 .f32) (main_arg6 : FVec F S64 .f32) (main_arg7 : FVec F S3x64 .f32) (main_arg8 : FVec F S64 .f32) (main_arg9 : FVec F S64 .f32) (main_arg10 : FVec F S64 .f32) (main_v16 : FVec F S1000000x64 .f32) (main_v35 : IVec S_ 1) : IVec S_ 1 :=
  let main_v36 : FVec F S64 .f32 := Host.absf main_arg5
  let main_cst_10 : FVec F S_ .f32 := constant S_ .f32 0x7F800000#32
  let main_v37 : FVec F S64 .f32 := broadcastInDim S64 ![] bcast_S_S64 main_cst_10
  let main_v38 : IVec S64 1 := cmpf .olt main_v36 main_v37
  let main_c_11 : IVec S_ 1 := constantI S_ 1 1#1
  let main_v39 : IVec S_ 1 := (fun x v => Host.reduce IntOp.andi x v reducesTo_S64_S_d0 h_S_) main_v38 main_c_11
  let main_v40 : IVec S_ 1 := andi main_v35 main_v39
  let main_v41 : FVec F S64 .f32 := Host.absf main_arg6
  let main_cst_12 : FVec F S_ .f32 := constant S_ .f32 0x7F800000#32
  let main_v42 : FVec F S64 .f32 := broadcastInDim S64 ![] bcast_S_S64 main_cst_12
  let main_v43 : IVec S64 1 := cmpf .olt main_v41 main_v42
  let main_c_13 : IVec S_ 1 := constantI S_ 1 1#1
  let main_v44 : IVec S_ 1 := (fun x v => Host.reduce IntOp.andi x v reducesTo_S64_S_d0 h_S_) main_v43 main_c_13
  let main_v45 : IVec S_ 1 := andi main_v40 main_v44
  let main_v46 : FVec F S3x64 .f32 := Host.absf main_arg7
  let main_cst_14 : FVec F S_ .f32 := constant S_ .f32 0x7F800000#32
  let main_v47 : FVec F S3x64 .f32 := broadcastInDim S3x64 ![] bcast_S_S3x64 main_cst_14
  let main_v48 : IVec S3x64 1 := cmpf .olt main_v46 main_v47
  let main_c_15 : IVec S_ 1 := constantI S_ 1 1#1
  let main_v49 : IVec S_ 1 := (fun x v => Host.reduce IntOp.andi x v reducesTo_S3x64_S_d0_1 h_S_) main_v48 main_c_15
  let main_v50 : IVec S_ 1 := andi main_v45 main_v49
  let main_v51 : FVec F S64 .f32 := Host.absf main_arg8
  let main_cst_16 : FVec F S_ .f32 := constant S_ .f32 0x7F800000#32
  let main_v52 : FVec F S64 .f32 := broadcastInDim S64 ![] bcast_S_S64 main_cst_16
  fn_part3 (F := F) main_arg2 main_arg9 main_arg10 main_v16 main_v50 main_v51 main_v52

def fn_part1 {F : FTy → Type} [FloatOps F] (main_arg1 : FVec F S1000000x64 .f32) (main_arg2 : IVec S1000000 32) (main_arg3 : FVec F S64x64 .f32) (main_arg4 : FVec F S64 .f32) (main_arg5 : FVec F S64 .f32) (main_arg6 : FVec F S64 .f32) (main_arg7 : FVec F S3x64 .f32) (main_arg8 : FVec F S64 .f32) (main_arg9 : FVec F S64 .f32) (main_arg10 : FVec F S64 .f32) (main_v16 : FVec F S1000000x64 .f32) (main_v17 : FVec F S1000000x3 .f32) (main_v18 : FVec F S1000000x3 .f32) : IVec S_ 1 :=
  let main_v19 : IVec S1000000x3 1 := cmpf .olt main_v17 main_v18
  let main_c_3 : IVec S_ 1 := constantI S_ 1 1#1
  let main_v20 : IVec S_ 1 := (fun x v => Host.reduce IntOp.andi x v reducesTo_S1000000x3_S_d0_1 h_S_) main_v19 main_c_3
  let main_v21 : FVec F S1000000x64 .f32 := Host.absf main_arg1
  let main_cst_4 : FVec F S_ .f32 := constant S_ .f32 0x7F800000#32
  let main_v22 : FVec F S1000000x64 .f32 := broadcastInDim S1000000x64 ![] bcast_S_S1000000x64 main_cst_4
  let main_v23 : IVec S1000000x64 1 := cmpf .olt main_v21 main_v22
  let main_c_5 : IVec S_ 1 := constantI S_ 1 1#1
  let main_v24 : IVec S_ 1 := (fun x v => Host.reduce IntOp.andi x v reducesTo_S1000000x64_S_d0_1 h_S_) main_v23 main_c_5
  let main_v25 : IVec S_ 1 := andi main_v20 main_v24
  let main_v26 : FVec F S64x64 .f32 := Host.absf main_arg3
  let main_cst_6 : FVec F S_ .f32 := constant S_ .f32 0x7F800000#32
  let main_v27 : FVec F S64x64 .f32 := broadcastInDim S64x64 ![] bcast_S_S64x64 main_cst_6
  let main_v28 : IVec S64x64 1 := cmpf .olt main_v26 main_v27
  let main_c_7 : IVec S_ 1 := constantI S_ 1 1#1
  let main_v29 : IVec S_ 1 := (fun x v => Host.reduce IntOp.andi x v reducesTo_S64x64_S_d0_1 h_S_) main_v28 main_c_7
  let main_v30 : IVec S_ 1 := andi main_v25 main_v29
  let main_v31 : FVec F S64 .f32 := Host.absf main_arg4
  let main_cst_8 : FVec F S_ .f32 := constant S_ .f32 0x7F800000#32
  let main_v32 : FVec F S64 .f32 := broadcastInDim S64 ![] bcast_S_S64 main_cst_8
  let main_v33 : IVec S64 1 := cmpf .olt main_v31 main_v32
  let main_c_9 : IVec S_ 1 := constantI S_ 1 1#1
  let main_v34 : IVec S_ 1 := (fun x v => Host.reduce IntOp.andi x v reducesTo_S64_S_d0 h_S_) main_v33 main_c_9
  let main_v35 : IVec S_ 1 := andi main_v30 main_v34
  fn_part2 (F := F) main_arg2 main_arg5 main_arg6 main_arg7 main_arg8 main_arg9 main_arg10 main_v16 main_v35

def fn {F : FTy → Type} [FloatOps F] (main_arg0 : FVec F S1000000x3 .f32) (main_arg1 : FVec F S1000000x64 .f32) (main_arg2 : IVec S1000000 32) (main_arg3 : FVec F S64x64 .f32) (main_arg4 : FVec F S64 .f32) (main_arg5 : FVec F S64 .f32) (main_arg6 : FVec F S64 .f32) (main_arg7 : FVec F S3x64 .f32) (main_arg8 : FVec F S64 .f32) (main_arg9 : FVec F S64 .f32) (main_arg10 : FVec F S64 .f32) : IVec S_ 1 :=
  let main_v0 : FVec F S1000000x3 .f32 := Host.floor main_arg0
  let main_v1 : FVec F S1000000x64 .f32 := (fun l r => Host.dotGeneral dot_S1000000x3_S3x64_S1000000x64_1_0_0_1_n_n none l r) main_v0 main_arg7
  let main_v2 : FVec F S1x64 .f32 := broadcastInDim S1x64 ![1] bcast_S64_S1x64_1 main_arg8
  let main_v3 : FVec F S1000000x64 .f32 := broadcastInDim S1000000x64 ![0, 1] bcast_S1x64_S1000000x64_0_1 main_v2
  let main_v4 : FVec F S1000000x64 .f32 := addf main_v1 main_v3
  let main_cst : FVec F S_ .f32 := constant S_ .f32 0x00000000#32
  let main_v5 : FVec F S100000x64 .f32 := broadcastInDim S100000x64 ![] bcast_S_S100000x64 main_cst
  let main_v6 : IVec S1000000x1 32 := broadcastInDim S1000000x1 ![0] bcast_S1000000_S1000000x1_0 main_arg2
  let main_v7 : FVec F S100000x64 .f32 := (fun x i u => Host.scatterAdd scatter_S100000x64_S1000000x1_S1000000x64_1_0_0_1 x i u) main_v5 main_v6 main_v4
  let main_c : IVec S_ 32 := constantI S_ 32 0#32
  let main_v8 : IVec S1000000 32 := broadcastInDim S1000000 ![] bcast_S_S1000000 main_c
  let main_v9 : IVec S1000000 1 := cmpi .slt main_arg2 main_v8
  let main_c_0 : IVec S_ 32 := constantI S_ 32 100000#32
  let main_v10 : IVec S1000000 32 := broadcastInDim S1000000 ![] bcast_S_S1000000 main_c_0
  let main_v11 : IVec S1000000 32 := addi main_arg2 main_v10
  let main_v12 : IVec S1000000 32 := select main_v9 main_v11 main_arg2
  let main_v13 : IVec S1000000x1 32 := broadcastInDim S1000000x1 ![0] bcast_S1000000_S1000000x1_0 main_v12
  let main_v14 : FVec F S1000000x64 .f32 := (fun x i => Host.gather gather_S100000x64_S1000000x1_S1000000x64_1_0_n_n_0_1_164 x i) main_v7 main_v13
  let main_cst_1 : FVec F S_ .f32 := constant S_ .f32 0x38D1B717#32
  let main_v15 : FVec F S1000000x64 .f32 := broadcastInDim S1000000x64 ![] bcast_S_S1000000x64 main_cst_1
  let main_v16 : FVec F S1000000x64 .f32 := addf main_v14 main_v15
  let main_v17 : FVec F S1000000x3 .f32 := Host.absf main_arg0
  let main_cst_2 : FVec F S_ .f32 := constant S_ .f32 0x7F800000#32
  let main_v18 : FVec F S1000000x3 .f32 := broadcastInDim S1000000x3 ![] bcast_S_S1000000x3 main_cst_2
  fn_part1 (F := F) main_arg1 main_arg2 main_arg3 main_arg4 main_arg5 main_arg6 main_arg7 main_arg8 main_arg9 main_arg10 main_v16 main_v17 main_v18
-- ==== Kernel.lean ====
abbrev S1000000x3 : Shape := ⟨2, ![1000000, 3]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S3x64 : Shape := ⟨2, ![3, 64]⟩
abbrev S1x64 : Shape := ⟨2, ![1, 64]⟩
abbrev S10000x64 : Shape := ⟨2, ![10000, 64]⟩
abbrev S10000x3 : Shape := ⟨2, ![10000, 3]⟩
abbrev S10000x1 : Shape := ⟨2, ![10000, 1]⟩
abbrev S_ : Shape := ⟨0, ![]⟩
abbrev S100000x64 : Shape := ⟨2, ![100000, 64]⟩
abbrev S1000000x1 : Shape := ⟨2, ![1000000, 1]⟩
abbrev S1 : Shape := ⟨1, ![1]⟩
abbrev S1x1 : Shape := ⟨2, ![1, 1]⟩

abbrev nBuf : Space → Nat
  | .hbm => 117
  | .vmem => 42
  | .smem => 0
  | _ => 0

abbrev bufTy : (tb : Table) → Fin (tcTables nBuf tb) → BufTy
  | .hbm, ⟨0, _⟩ => ⟨S1000000x3, .f32⟩
  | .hbm, ⟨1, _⟩ => ⟨S1000000x64, .f32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S3x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1000000x64, .f32⟩
  | .hbm, ⟨14, _⟩ => ⟨S1x64, .f32⟩
  | .hbm, ⟨15, _⟩ => ⟨S1x64, .f32⟩
  | .hbm, ⟨16, _⟩ => ⟨S_, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1, .i32⟩
  | .hbm, ⟨56, _⟩ => ⟨S_, .i32⟩
  | .hbm, ⟨57, _⟩ => ⟨S1000000x1, .i32⟩
  | .hbm, ⟨58, _⟩ => ⟨S1000000x1, .i1⟩
  | .hbm, ⟨59, _⟩ => ⟨S1x1, .i32⟩
  | .hbm, ⟨60, _⟩ => ⟨S1000000x1, .i32⟩
  | .hbm, ⟨61, _⟩ => ⟨S1000000x1, .i1⟩
  | .hbm, ⟨62, _⟩ => ⟨S1000000x1, .i1⟩
  | .hbm, ⟨63, _⟩ => ⟨S_, .i1⟩
  | .hbm, ⟨64, _⟩ => ⟨S1000000, .i1⟩
  | .hbm, ⟨65, _⟩ => ⟨S1000000x64, .f32⟩
  | .hbm, ⟨66, _⟩ => ⟨S1000000x64, .i1⟩
  | .hbm, ⟨67, _⟩ => ⟨S_, .f32⟩
  | .hbm, ⟨68, _⟩ => ⟨S1000000x64, .f32⟩
  | .hbm, ⟨69, _⟩ => ⟨S1000000x64, .f32⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1, .i32⟩
  | .hbm, ⟨79, _⟩ => ⟨S_, .i32⟩
  | .hbm, ⟨80, _⟩ => ⟨S1000000x1, .i32⟩
  | .hbm, ⟨81, _⟩ => ⟨S1000000x1, .i1⟩
  | .hbm, ⟨82, _⟩ => ⟨S1x1, .i32⟩
  | .hbm, ⟨83, _⟩ => ⟨S1000000x1, .i32⟩
  | .hbm, ⟨84, _⟩ => ⟨S1000000x1, .i1⟩
  | .hbm, ⟨85, _⟩ => ⟨S1000000x1, .i1⟩
  | .hbm, ⟨86, _⟩ => ⟨S_, .i1⟩
  | .hbm, ⟨87, _⟩ => ⟨S1000000, .i1⟩
  | .hbm, ⟨88, _⟩ => ⟨S1000000x64, .f32⟩
  | .hbm, ⟨89, _⟩ => ⟨S1000000x64, .i1⟩
  | .hbm, ⟨90, _⟩ => ⟨S_, .f32⟩
  | .hbm, ⟨91, _⟩ => ⟨S1000000x64, .f32⟩
  | .hbm, ⟨92, _⟩ => ⟨S1000000x64, .f32⟩
  | .hbm, ⟨93, _⟩ => ⟨S1000000x64, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S_, .f32⟩
  | .hbm, ⟨105, _⟩ => ⟨S1x64, .f32⟩
  | .hbm, ⟨106, _⟩ => ⟨S1x64, .f32⟩
  | .hbm, ⟨107, _⟩ => ⟨S_, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x64, .f32⟩
  | .hbm, ⟨114, _⟩ => ⟨S1x64, .f32⟩
  | .hbm, ⟨115, _⟩ => ⟨S1x64, .f32⟩
  | .hbm, ⟨116, _⟩ => ⟨S1000000x64, .f32⟩
  | .local _ .vmem, ⟨0, _⟩ => ⟨S10000x64, .f32⟩
  | .local _ .vmem, ⟨1, _⟩ => ⟨S10000x64, .f32⟩
  | .local _ .vmem, ⟨2, _⟩ => ⟨S10000x3, .f32⟩
  | .local _ .vmem, ⟨3, _⟩ => ⟨S10000x3, .f32⟩
  | .local _ .vmem, ⟨4, _⟩ => ⟨S64x64, .f32⟩
  | .local _ .vmem, ⟨5, _⟩ => ⟨S1x64, .f32⟩
  | .local _ .vmem, ⟨6, _⟩ => ⟨S3x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v27 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v28 : Ref sig .tc := ⟨.hbm, 92, rfl⟩
abbrev main_v29_0 : Ref sig .tc := ⟨.hbm, 93, rfl⟩
abbrev main_v29_1 : Ref sig .tc := ⟨.hbm, 94, rfl⟩
abbrev main_v29_2 : Ref sig .tc := ⟨.hbm, 95, rfl⟩
abbrev main_cst_5 : Ref sig .tc := ⟨.hbm, 96, rfl⟩
abbrev main_v30 : Ref sig .tc := ⟨.hbm, 97, rfl⟩
abbrev main_v31 : Ref sig .tc := ⟨.hbm, 98, rfl⟩
abbrev main_cst_6 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_cst_7 : Ref sig .tc := ⟨.hbm, 104, rfl⟩
abbrev main_v36 : Ref sig .tc := ⟨.hbm, 105, rfl⟩
abbrev main_v37 : Ref sig .tc := ⟨.hbm, 106, rfl⟩
abbrev main_cst_8 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  inb_S10000x3_S10000x3_0_0 : ∀ a, (![0, 0] : Fin 2 → Nat) a + S10000x3.size a ≤ S10000x3.size a
  h_S10000x3 : 0 < S10000x3.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  shapeCasts_S1x64_S1x64 : S1x64.ShapeCasts S1x64
  broadcasts_S1x64_S10000x64 : S1x64.Broadcasts S10000x64
  inb_S3x64_S3x64_0_0 : ∀ a, (![0, 0] : Fin 2 → Nat) a + S3x64.size a ≤ S3x64.size a
  h_S3x64 : 0 < S3x64.numel
  slices_S10000x3_o0_0_S10000x1 : S10000x3.Slices ![0, 0] S10000x1
  slices_S10000x3_o0_1_S10000x1 : S10000x3.Slices ![0, 1] S10000x1
  slices_S10000x3_o0_2_S10000x1 : S10000x3.Slices ![0, 2] S10000x1
  slices_S3x64_o0_0_S1x64 : S3x64.Slices ![0, 0] S1x64
  broadcasts_S10000x1_S10000x64 : S10000x1.Broadcasts S10000x64
  slices_S3x64_o1_0_S1x64 : S3x64.Slices ![1, 0] S1x64
  slices_S3x64_o2_0_S1x64 : S3x64.Slices ![2, 0] S1x64
  reduces_S10000x64_S64 : S10000x64.Reduces [0] S64
  bcast_S_S1x64 : S_.BroadcastsInDim S1x64 (![] : Fin 0 → Fin S1x64.rank)
  shapeCasts_S10000x64_S10000x64 : S10000x64.ShapeCasts S10000x64
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  dot_S10000x64_S64x64_S10000x64_1_0_0_1_n_n_wf : DotDims.WF S10000x64 S64x64 S10000x64 [1] [0] [0] [1] [] []
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1000000x64.size a
  hwx0_0 : ∀ i : grid0.Coords, EltTy.bits .f32 = 32 ∨ (Rect.block (s := S1000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S1000000x3.size a
  hwx0_1 : ∀ i : grid0.Coords, EltTy.bits .f32 = 32 ∨ (Rect.block (s := S1000000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S1000000x64.size a
  hwx0_6 : ∀ i : grid0.Coords, EltTy.bits .f32 = 32 ∨ (Rect.block (s := S1000000x64) S10000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S1000000x64.size a
  hwx1_6 : ∀ i : grid1.Coords, EltTy.bits .f32 = 32 ∨ (Rect.block (s := S1000000x64) S10000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S1000000x64.size a
  hwx1_7 : ∀ i : grid1.Coords, EltTy.bits .f32 = 32 ∨ (Rect.block (s := S1000000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1000000x64.size a
  hwx2_2 : ∀ i : grid2.Coords, EltTy.bits .f32 = 32 ∨ (Rect.block (s := S1000000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S1000000x64.size a
  hwx2_3 : ∀ i : grid2.Coords, EltTy.bits .f32 = 32 ∨ (Rect.block (s := S1000000x64) S10000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1000000x64.size a
  hwx3_0 : ∀ i : grid3.Coords, EltTy.bits .f32 = 32 ∨ (Rect.block (s := S1000000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S1000000x64.size a
  hwx3_1 : ∀ i : grid3.Coords, EltTy.bits .f32 = 32 ∨ (Rect.block (s := S1000000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S1000000x64.size a
  hwx3_4 : ∀ i : grid3.Coords, EltTy.bits .f32 = 32 ∨ (Rect.block (s := S1000000x64) S10000x64.size (cc3_transform_4 i) (hinb3_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S10000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v2_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29_0) S10000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v29_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20_0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1000000x3 : Shape := ⟨2, ![1000000, 3]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S3x64 : Shape := ⟨2, ![3, 64]⟩
abbrev S1x64 : Shape := ⟨2, ![1, 64]⟩
abbrev S_ : Shape := ⟨0, ![]⟩
abbrev S100000x64 : Shape := ⟨2, ![100000, 64]⟩
abbrev S1000000x1 : Shape := ⟨2, ![1000000, 1]⟩

abbrev nBuf : Space → Nat
  | .hbm => 145
  | .vmem => 0
  | .smem => 0
  | _ => 0

abbrev hbmTy0_0 (i : Nat) : BufTy := match i % 128 with
  | 0 => ⟨S1000000x3, .f32⟩
  | 1 => ⟨S1000000x64, .f32⟩
  | 2 => ⟨S1000000, .i32⟩
  | 3 => ⟨S64x64, .f32⟩
  | 4 => ⟨S64, .f32⟩
  | 5 => ⟨S64, .f32⟩
  | 6 => ⟨S64, .f32⟩
  | 7 => ⟨S3x64, .f32⟩
  | 8 => ⟨S64, .f32⟩
  | 9 => ⟨S64, .f32⟩
  | 10 => ⟨S64, .f32⟩
  | 11 => ⟨S1000000x3, .f32⟩
  | 12 => ⟨S1000000x64, .f32⟩
  | 13 => ⟨S1x64, .f32⟩
  | 14 => ⟨S1000000x64, .f32⟩
  | 15 => ⟨S1000000x64, .f32⟩
  | 16 => ⟨S_, .f32⟩
  | 17 => ⟨S64, .f32⟩
  | 18 => ⟨S_, .f32⟩
  | 19 => ⟨S64, .f32⟩
  | 20 => ⟨S64, .f32⟩
  | 21 => ⟨S_, .i32⟩
  | 22 => ⟨S_, .f32⟩
  | 23 => ⟨S64, .f32⟩
  | 24 => ⟨S1x64, .f32⟩
  | 25 => ⟨S_, .f32⟩
  | 26 => ⟨S1x64, .f32⟩
  | 27 => ⟨S1x64, .f32⟩
  | 28 => ⟨S1000000x64, .f32⟩
  | 29 => ⟨S1000000x64, .f32⟩
  | 30 => ⟨S1000000x64, .f32⟩
  | 31 => ⟨S_, .f32⟩
  | 32 => ⟨S_, .f32⟩
  | 33 => ⟨S_, .f32⟩
  | 34 => ⟨S_, .f32⟩
  | 35 => ⟨S64, .f32⟩
  | 36 => ⟨S64, .f32⟩
  | 37 => ⟨S64, .f32⟩
  | 38 => ⟨S_, .f32⟩
  | 39 => ⟨S_, .i1⟩
  | 40 => ⟨S_, .f32⟩
  | 41 => ⟨S_, .f32⟩
  | 42 => ⟨S64, .f32⟩
  | 43 => ⟨S64, .f32⟩
  | 44 => ⟨S1x64, .f32⟩
  | 45 => ⟨S1000000x64, .f32⟩
  | 46 => ⟨S1000000x64, .f32⟩
  | 47 => ⟨S_, .f32⟩
  | 48 => ⟨S64, .f32⟩
  | 49 => ⟨S64, .f32⟩
  | 50 => ⟨S64, .f32⟩
  | 51 => ⟨S1x64, .f32⟩
  | 52 => ⟨S1000000x64, .f32⟩
  | 53 => ⟨S1000000x64, .f32⟩
  | 54 => ⟨S1x64, .f32⟩
  | 55 => ⟨S1000000x64, .f32⟩
  | 56 => ⟨S1000000x64, .f32⟩
  | 57 => ⟨S1x64, .f32⟩
  | 58 => ⟨S1000000x64, .f32⟩
  | 59 => ⟨S1000000x64, .f32⟩
  | 60 => ⟨S1000000x64, .f32⟩
  | 61 => ⟨S1x64, .f32⟩
  | 62 => ⟨S1000000x64, .f32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S_, .f32⟩
  | 70 => ⟨S100000x64, .f32⟩
  | 71 => ⟨S1000000x1, .i32⟩
  | 72 => ⟨S100000x64, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x64, .f32⟩
  | 82 => ⟨S1000000x64, .f32⟩
  | 83 => ⟨S1000000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S_, .f32⟩
  | 94 => ⟨S1000000x64, .f32⟩
  | 95 => ⟨S1000000x64, .f32⟩
  | 96 => ⟨S1000000x64, .f32⟩
  | 97 => ⟨S_, .f32⟩
  | 98 => ⟨S64, .f32⟩
  | 99 => ⟨S_, .f32⟩
  | 100 => ⟨S64, .f32⟩
  | 101 => ⟨S64, .f32⟩
  | 102 => ⟨S_, .i32⟩
  | 103 => ⟨S_, .f32⟩
  | 104 => ⟨S64, .f32⟩
  | 105 => ⟨S1x64, .f32⟩
  | 106 => ⟨S_, .f32⟩
  | 107 => ⟨S1x64, .f32⟩
  | 108 => ⟨S1x64, .f32⟩
  | 109 => ⟨S1000000x64, .f32⟩
  | 110 => ⟨S1000000x64, .f32⟩
  | 111 => ⟨S1000000x64, .f32⟩
  | 112 => ⟨S_, .f32⟩
  | 113 => ⟨S_, .f32⟩
  | 114 => ⟨S_, .f32⟩
  | 115 => ⟨S_, .f32⟩
  | 116 => ⟨S64, .f32⟩
  | 117 => ⟨S64, .f32⟩
  | 118 => ⟨S64, .f32⟩
  | 119 => ⟨S_, .f32⟩
  | 120 => ⟨S_, .i1⟩
  | 121 => ⟨S_, .f32⟩
  | 122 => ⟨S_, .f32⟩
  | 123 => ⟨S64, .f32⟩
  | 124 => ⟨S64, .f32⟩
  | 125 => ⟨S1x64, .f32⟩
  | 126 => ⟨S1000000x64, .f32⟩
  | 127 => ⟨S1000000x64, .f32⟩
  | _ => ⟨S1000000x3, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S1000000x64, .f32⟩
  | 6 => ⟨S1000000x64, .f32⟩
  | 7 => ⟨S1x64, .f32⟩
  | 8 => ⟨S1000000x64, .f32⟩
  | 9 => ⟨S1000000x64, .f32⟩
  | 10 => ⟨S1x64, .f32⟩
  | 11 => ⟨S1000000x64, .f32⟩
  | 12 => ⟨S1000000x64, .f32⟩
  | 13 => ⟨S_, .f32⟩
  | 14 => ⟨S1000000x64, .f32⟩
  | 15 => ⟨S1000000x64, .f32⟩
  | 16 => ⟨S1000000x64, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst_3 : Ref sig .tc := ⟨.hbm, 38, rfl⟩
abbrev main_call0_v12 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_4 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_6 : Ref sig .tc := ⟨.hbm, 84, rfl⟩
abbrev main_v44 : Ref sig .tc := ⟨.hbm, 85, rfl⟩
abbrev main_v45 : Ref sig .tc := ⟨.hbm, 86, rfl⟩
abbrev main_c_7 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_8 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_v54 : Ref sig .tc := ⟨.hbm, 98, rfl⟩
abbrev main_cst_10 : Ref sig .tc := ⟨.hbm, 99, rfl⟩
abbrev main_v55 : Ref sig .tc := ⟨.hbm, 100, rfl⟩
abbrev main_v56 : Ref sig .tc := ⟨.hbm, 101, rfl⟩
abbrev main_c_11 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_cst_1 : Ref sig .tc := ⟨.hbm, 113, rfl⟩
abbrev main_call1_v8 : Ref sig .tc := ⟨.hbm, 114, rfl⟩
abbrev main_call1_cst_2 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_cst_3 : Ref sig .tc := ⟨.hbm, 119, rfl⟩
abbrev main_call1_v12 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_cst_12 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_call2_cst : Ref sig .tc := ⟨.hbm, 141, rfl⟩
abbrev main_call2_v0 : Ref sig .tc := ⟨.hbm, 142, rfl⟩
abbrev main_v73 : Ref sig .tc := ⟨.hbm, 143, rfl⟩
abbrev main_v74 : Ref sig .tc := ⟨.hbm, 144, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S64_d0 : S1000000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1000000x64 : S_.BroadcastsInDim S1000000x64 (![] : Fin 0 → Fin S1000000x64.rank)
  dot_S1000000x64_S64x64_S1000000x64_1_0_0_1_n_n_wf : DotDims.WF S1000000x64 S64x64 S1000000x64 [1] [0] [0] [1] [] []
  dot_S1000000x3_S3x64_S1000000x64_1_0_0_1_n_n_wf : DotDims.WF S1000000x3 S3x64 S1000000x64 [1] [0] [0] [1] [] []
  scatter_S100000x64_S1000000x1_S1000000x64_1_0_0_1_wf : ScatterDims.WF S100000x64 S1000000x1 S1000000x64 [1] [0] [0] 1
  gather_S100000x64_S1000000x1_S1000000x64_1_0_n_n_0_1_164_wf : GatherDims.WF S100000x64 S1000000x1 S1000000x64 [1] [0] [] [0] [] 1 ![1, 64]

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x3_S3x64_S1000000x64_1_0_0_1_n_n : DotDims S1000000x3 S3x64 S1000000x64 where
  lhsContracting := [1]
  rhsContracting := [0]
  lhsNonContracting := [0]
  rhsNonContracting := [1]
  lhsBatch := []
  rhsBatch := []
  wf := dot_S1000000x3_S3x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf

class Facts : Prop extends Facts₀ where

variable [Facts]
-- ==== Proof.RefStages.lean ====
/-
  The reference program's value, stage by stage: each definition is one stretch of the reference's host operations as a
  pure function of its operands — the two linear layers, the training-mode batch normalisation (the column mean, the
  biased column variance of the centred array, the normalised array scaled and shifted), the segment sums (a scatter
  that adds rows into a zero table), the row gathers through the wrapped segment ids, the quotient, and the final
  rectified sum. The composed term is what the reference's result buffer holds after its run.
-/
import proofs.«430596_j44092134261327_3_alg».proof.Proof.Gen.ReferenceIdeal

noncomputable section

namespace Cert.ReferenceIdeal.RefValue

open Cert.ReferenceIdeal Cert.ReferenceIdeal.Gen Idealize.ShloMosaic

variable {F : FTy → Type} [FloatOps F]

/-- A [64] vector laid along every row of a [1000000, 64] array. -/
def rows (v : FVec F S64 .f32) : FVec F S1000000x64 .f32 :=
  broadcastInDim S1000000x64 ![0, 1] bcast_S1x64_S1000000x64_0_1 (broadcastInDim S1x64 ![1] bcast_S64_S1x64_1 v)

/-- The [64] vector every entry of which is the float of the given word. -/
def splat64 (w : BitVec 32) : FVec F S64 .f32 := broadcastInDim S64 ![] bcast_S_S64 (constant S_ .f32 w)

/-- The column sums of a [1000000, 64] array (from zero). -/
def colSum (x : FVec F S1000000x64 .f32) : FVec F S64 .f32 :=
  Host.reduceAdd x (constant S_ .f32 0x00000000#32) reducesTo_S1000000x64_S64_d0 h_S_

/-- The column means: the column sums over 1000000. -/
def colMean (x : FVec F S1000000x64 .f32) : FVec F S64 .f32 := Host.divf (colSum x) (splat64 0x49742400#32)

/-- The column means as the variance computes them again, kept as a [1, 64] row. -/
def meanRow (x : FVec F S1000000x64 .f32) : FVec F S1x64 .f32 :=
  Host.divf (broadcastInDim S1x64 ![1] bcast_S64_S1x64_1 (colSum x)) (broadcastInDim S1x64 ![] bcast_S_S1x64 (constant S_ .f32 0x49742400#32))

/-- The array with its column means taken off. -/
def centred (x : FVec F S1000000x64 .f32) : FVec F S1000000x64 .f32 :=
  subf x (broadcastInDim S1000000x64 ![0, 1] bcast_S1x64_S1000000x64_0_1 (meanRow x))

/-- The variance's divisor: 1000000 less the correction 0, as a float. -/
def count : FVec F S_ .f32 := subf (constant S_ .f32 0x49742400#32) (sitofp .f32 (constantI S_ 32 0#32))

/-- The biased column variances: the column sums of the squared centred array over the divisor, kept where the
    divisor is positive (elsewhere the not-a-number word). -/
def colVar (x : FVec F S1000000x64 .f32) : FVec F S64 .f32 :=
  select (broadcastInDim S64 ![] bcast_S_S64 (cmpf .ogt (count (F := F)) (constant S_ .f32 0x00000000#32)))
    (Host.divf (Host.reduceAdd (mulf (centred x) (centred x)) (constant S_ .f32 0x00000000#32) reducesTo_S1000000x64_S64_d0 h_S_)
      (broadcastInDim S64 ![] bcast_S_S64 (count (F := F))))
    (broadcastInDim S64 ![] bcast_S_S64 (id (constant S_ .f32 0x7FC00000#32)))

/-- Training-mode batch normalisation of the columns: (x - mean) * rsqrt(var + 1e-3) * gamma + beta. -/
def bn (x : FVec F S1000000x64 .f32) (g b : FVec F S64 .f32) : FVec F S1000000x64 .f32 :=
  addf (mulf (mulf (subf x (rows (colMean x))) (rows (Host.rsqrt (addf (colVar x) (splat64 0x3A83126F#32))))) (rows g)) (rows b)

/-- The first linear layer: feat_all · W_pre + b_pre. -/
def raw (a1 : FVec F S1000000x64 .f32) (a3 : FVec F S64x64 .f32) (a4 : FVec F S64 .f32) : FVec F S1000000x64 .f32 :=
  addf (Host.dotGeneral dot_S1000000x64_S64x64_S1000000x64_1_0_0_1_n_n none a1 a3) (rows a4)

/-- The positional layer: floor(points_xyz) · W_pos + b_pos. -/
def posW (a0 : FVec F S1000000x3 .f32) (a7 : FVec F S3x64 .f32) (a8 : FVec F S64 .f32) : FVec F S1000000x64 .f32 :=
  addf (Host.dotGeneral dot_S1000000x3_S3x64_S1000000x64_1_0_0_1_n_n none (Host.floor a0) a7) (rows a8)

/-- The segment sums of the rows of u: row n added into row a2[n] of a zero [100000, 64] table. -/
def segSum (a2 : IVec S1000000 32) (u : FVec F S1000000x64 .f32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 a2) u

/-- The segment ids as gather indices: a negative id taken up by 100000, as a [1000000, 1] column. -/
def wrapIdx (a2 : IVec S1000000 32) : IVec S1000000x1 32 :=
  broadcastInDim S1000000x1 ![0] bcast_S1000000_S1000000x1_0
    (select (cmpi .slt a2 (broadcastInDim S1000000 ![] bcast_S_S1000000 (constantI S_ 32 0#32)))
      (addi a2 (broadcastInDim S1000000 ![] bcast_S_S1000000 (constantI S_ 32 100000#32))) a2)

/-- Row a2[n] of the table, for every n. -/
def rowsAt (tbl : FVec F S100000x64 .f32) (a2 : IVec S1000000 32) : FVec F S1000000x64 .f32 :=
  Host.gather gather_S100000x64_S1000000x1_S1000000x64_1_0_n_n_0_1_164 tbl (wrapIdx a2)

/-- The quotient pos_w * (-fa) / (tw + 1e-4). -/
def outRaw (pw fa tw : FVec F S1000000x64 .f32) : FVec F S1000000x64 .f32 :=
  Host.divf (mulf pw (Host.negf fa)) (addf tw (broadcastInDim S1000000x64 ![] bcast_S_S1000000x64 (constant S_ .f32 0x38D1B717#32)))

/-- The normalised first layer (the residual term). -/
def feat (a1 : FVec F S1000000x64 .f32) (a3 : FVec F S64x64 .f32) (a4 a5 a6 : FVec F S64 .f32) : FVec F S1000000x64 .f32 :=
  bn (raw a1 a3 a4) a5 a6

/-- The quotient of the reference at its arguments. -/
def quot (a0 : FVec F S1000000x3 .f32) (a1 : FVec F S1000000x64 .f32) (a2 : IVec S1000000 32) (a3 : FVec F S64x64 .f32)
    (a4 a5 a6 : FVec F S64 .f32) (a7 : FVec F S3x64 .f32) (a8 : FVec F S64 .f32) : FVec F S1000000x64 .f32 :=
  outRaw (posW a0 a7 a8) (rowsAt (segSum a2 (mulf (posW a0 a7 a8) (feat a1 a3 a4 a5 a6))) a2) (rowsAt (segSum a2 (posW a0 a7 a8)) a2)

/-- The reference's result: relu(bn(quotient)) + feat. -/
def result (a0 : FVec F S1000000x3 .f32) (a1 : FVec F S1000000x64 .f32) (a2 : IVec S1000000 32) (a3 : FVec F S64x64 .f32)
    (a4 a5 a6 : FVec F S64 .f32) (a7 : FVec F S3x64 .f32) (a8 a9 a10 : FVec F S64 .f32) : FVec F S1000000x64 .f32 :=
  addf (maximumf (bn (quot a0 a1 a2 a3 a4 a5 a6 a7 a8) a9 a10)
      (broadcastInDim S1000000x64 ![] bcast_S_S1000000x64 (constant S_ .f32 0x00000000#32)))
    (feat a1 a3 a4 a5 a6)

end Cert.ReferenceIdeal.RefValue

end
-- ==== Proof.RefRun.lean ====
/-
  The reference program's run. The reference is a host-only program: @main is a straight line of tensor operations,
  three of them calls of module-local functions (the biased column variance, twice, which itself calls the select
  helper; and the rectifier). A call executes the callee's body on the operands, each value of the body in a buffer
  of its own, so with the callees' bodies put in the calls' places @main is one line of 134 operations. Run in order
  from any launch contents, every buffer ends at the fold of the operations' results; read at the result buffer
  that fold is the composition of the operations' functions along the data flow, which is the reference's value as
  the stage definitions compose it; read at an argument buffer, which no operation writes, it is the launch contents.
-/
import proofs.«430596_j44092134261327_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 134 operations in program order, each call's callee operations in the call's place over that call's
    record of buffers: the first window's 81 (its 59 own and the 22 of the first variance call: the 19 of the
    variance function and, in place of its call of the select helper, that helper's 3), then the second window's 53
    (its 28 own, the 22 of the second variance call, and the 3 of the rectifier call). -/
abbrev ops : List (HloOp τ sig (Elt F)) :=
  [ StableHlo.unary main_arg0 main_v0 (Host.floor : (⟨S1000000x3, .f32⟩ : BufTy).Contents (Elt F) → (⟨S1000000x3, .f32⟩ : BufTy).Contents (Elt F)),
    StableHlo.binary main_arg1 main_arg3 main_v1 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg4 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S1000000x64 ![0, 1] bcast_S1x64_S1000000x64_0_1 : (⟨S1x64, .f32⟩ : BufTy).Contents (Elt F) → (⟨S1000000x64, .f32⟩ : BufTy).Contents (Elt F)),
    StableHlo.binary main_v1 main_v3 main_v4 (addf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.binary main_v4 main_cst main_v5 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.nullary main_cst_0 (constant S_ .f32 0x49742400#32),
    StableHlo.unary main_cst_0 main_v6 (broadcastInDim S64 ![] bcast_S_S64 : (⟨S_, .f32⟩ : BufTy).Contents (Elt F) → (⟨S64, .f32⟩ : BufTy).Contents (Elt F)),
    StableHlo.binary main_v5 main_v6 main_v7 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v4 : StableHlo.TRef sig ⟨S1000000x64, .f32⟩) main_call0.cst main_call0.v0 (fun x v => Host.reduceAdd x v reducesTo_S1000000x64_S64_d0 h_S_),
    StableHlo.TRef.unary main_call0.v0 main_call0.v1 (broadcastInDim S1x64 ![1] bcast_S64_S1x64_1),
    StableHlo.TRef.nullary main_call0.cst_0 (constant S_ .f32 0x49742400#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S1000000x64 ![0, 1] bcast_S1x64_S1000000x64_0_1),
    StableHlo.TRef.binary (.of main_v4 : StableHlo.TRef sig ⟨S1000000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x49742400#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1000000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v7 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S1000000x64 ![0, 1] bcast_S1x64_S1000000x64_0_1 : (⟨S1x64, .f32⟩ : BufTy).Contents (Elt F) → (⟨S1000000x64, .f32⟩ : BufTy).Contents (Elt F)),
    StableHlo.binary main_v4 main_v10 main_v11 (subf : (⟨S1000000x64, .f32⟩ : BufTy).Contents (Elt F) → (⟨S1000000x64, .f32⟩ : BufTy).Contents (Elt F) → (⟨S1000000x64, .f32⟩ : BufTy).Contents (Elt F)),
    StableHlo.nullary main_cst_1 (constant S_ .f32 0x3A83126F#32),
    StableHlo.unary main_cst_1 main_v12 (broadcastInDim S64 ![] bcast_S_S64 : (⟨S_, .f32⟩ : BufTy).Contents (Elt F) → (⟨S64, .f32⟩ : BufTy).Contents (Elt F)),
    StableHlo.binary main_v8 main_v12 main_v13 (addf : (⟨S64, .f32⟩ : BufTy).Contents (Elt F) → (⟨S64, .f32⟩ : BufTy).Contents (Elt F) → (⟨S64, .f32⟩ : BufTy).Contents (Elt F)),
    StableHlo.unary main_v13 main_v14 (Host.rsqrt : (⟨S64, .f32⟩ : BufTy).Contents (Elt F) → (⟨S64, .f32⟩ : BufTy).Contents (Elt F)),
    StableHlo.unary main_v14 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S1000000x64 ![0, 1] bcast_S1x64_S1000000x64_0_1 : (⟨S1x64, .f32⟩ : BufTy).Contents (Elt F) → (⟨S1000000x64, .f32⟩ : BufTy).Contents (Elt F)),
    StableHlo.binary main_v11 main_v16 main_v17 (mulf : (⟨S1000000x64, .f32⟩ : BufTy).Contents (Elt F) → (⟨S1000000x64, .f32⟩ : BufTy).Contents (Elt F) → (⟨S1000000x64, .f32⟩ : BufTy).Contents (Elt F)),
    StableHlo.unary main_arg5 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S1000000x64 ![0, 1] bcast_S1x64_S1000000x64_0_1 : (⟨S1x64, .f32⟩ : BufTy).Contents (Elt F) → (⟨S1000000x64, .f32⟩ : BufTy).Contents (Elt F)),
    StableHlo.binary main_v17 main_v19 main_v20 (mulf : (⟨S1000000x64, .f32⟩ : BufTy).Contents (Elt F) → (⟨S1000000x64, .f32⟩ : BufTy).Contents (Elt F) → (⟨S1000000x64, .f32⟩ : BufTy).Contents (Elt F)),
    StableHlo.unary main_arg6 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1000000x64 ![0, 1] bcast_S1x64_S1000000x64_0_1 : (⟨S1x64, .f32⟩ : BufTy).Contents (Elt F) → (⟨S1000000x64, .f32⟩ : BufTy).Contents (Elt F)),
    StableHlo.binary main_v20 main_v22 main_v23 (addf : (⟨S1000000x64, .f32⟩ : BufTy).Contents (Elt F) → (⟨S1000000x64, .f32⟩ : BufTy).Contents (Elt F) → (⟨S1000000x64, .f32⟩ : BufTy).Contents (Elt F)),
    StableHlo.binary main_v0 main_arg7 main_v24 ((fun l r => Host.dotGeneral dot_S1000000x3_S3x64_S1000000x64_1_0_0_1_n_n none l r) : (⟨S1000000x3, .f32⟩ : BufTy).Contents (Elt F) → (⟨S3x64, .f32⟩ : BufTy).Contents (Elt F) → (⟨S1000000x64, .f32⟩ : BufTy).Contents (Elt F)),
    StableHlo.unary main_arg8 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S1000000x64 ![0, 1] bcast_S1x64_S1000000x64_0_1 : (⟨S1x64, .f32⟩ : BufTy).Contents (Elt F) → (⟨S1000000x64, .f32⟩ : BufTy).Contents (Elt F)),
    StableHlo.binary main_v24 main_v26 main_v27 (addf : (⟨S1000000x64, .f32⟩ : BufTy).Contents (Elt F) → (⟨S1000000x64, .f32⟩ : BufTy).Contents (Elt F) → (⟨S1000000x64, .f32⟩ : BufTy).Contents (Elt F)),
    StableHlo.binary main_v27 main_v23 main_v28 (mulf : (⟨S1000000x64, .f32⟩ : BufTy).Contents (Elt F) → (⟨S1000000x64, .f32⟩ : BufTy).Contents (Elt F) → (⟨S1000000x64, .f32⟩ : BufTy).Contents (Elt F)),
    StableHlo.nullary main_cst_2 (constant S_ .f32 0x00000000#32),
    StableHlo.unary main_cst_2 main_v29 (broadcastInDim S100000x64 ![] bcast_S_S100000x64 : (⟨S_, .f32⟩ : BufTy).Contents (Elt F) → (⟨S100000x64, .f32⟩ : BufTy).Contents (Elt F)),
    StableHlo.unary main_arg2 main_v30 (broadcastInDim S1000000x1 ![0] bcast_S1000000_S1000000x1_0 : (⟨S1000000, .i32⟩ : BufTy).Contents (Elt F) → (⟨S1000000x1, .i32⟩ : BufTy).Contents (Elt F)),
    StableHlo.ternary main_v29 main_v30 main_v28 main_v31 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_cst_3 (constant S_ .f32 0x00000000#32),
    StableHlo.unary main_cst_3 main_v32 (broadcastInDim S100000x64 ![] bcast_S_S100000x64 : (⟨S_, .f32⟩ : BufTy).Contents (Elt F) → (⟨S100000x64, .f32⟩ : BufTy).Contents (Elt F)),
    StableHlo.unary main_arg2 main_v33 (broadcastInDim S1000000x1 ![0] bcast_S1000000_S1000000x1_0 : (⟨S1000000, .i32⟩ : BufTy).Contents (Elt F) → (⟨S1000000x1, .i32⟩ : BufTy).Contents (Elt F)),
    StableHlo.ternary main_v32 main_v33 main_v27 main_v34 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.nullary main_c_4 (constantI S_ 32 0#32),
    StableHlo.unary main_c_4 main_v35 (broadcastInDim S1000000 ![] bcast_S_S1000000 : (⟨S_, .i32⟩ : BufTy).Contents (Elt F) → (⟨S1000000, .i32⟩ : BufTy).Contents (Elt F)),
    StableHlo.binary main_arg2 main_v35 main_v36 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v37 (broadcastInDim S1000000 ![] bcast_S_S1000000 : (⟨S_, .i32⟩ : BufTy).Contents (Elt F) → (⟨S1000000, .i32⟩ : BufTy).Contents (Elt F)),
    StableHlo.binary main_arg2 main_v37 main_v38 (addi : (⟨S1000000, .i32⟩ : BufTy).Contents (Elt F) → (⟨S1000000, .i32⟩ : BufTy).Contents (Elt F) → (⟨S1000000, .i32⟩ : BufTy).Contents (Elt F)),
    StableHlo.ternary main_v36 main_v38 main_arg2 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v39 main_v40 (broadcastInDim S1000000x1 ![0] bcast_S1000000_S1000000x1_0 : (⟨S1000000, .i32⟩ : BufTy).Contents (Elt F) → (⟨S1000000x1, .i32⟩ : BufTy).Contents (Elt F)),
    StableHlo.binary main_v31 main_v40 main_v41 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v41 main_v42 (Host.negf : (⟨S1000000x64, .f32⟩ : BufTy).Contents (Elt F) → (⟨S1000000x64, .f32⟩ : BufTy).Contents (Elt F)),
    StableHlo.binary main_v27 main_v42 main_v43 (mulf : (⟨S1000000x64, .f32⟩ : BufTy).Contents (Elt F) → (⟨S1000000x64, .f32⟩ : BufTy).Contents (Elt F) → (⟨S1000000x64, .f32⟩ : BufTy).Contents (Elt F)),
    StableHlo.nullary main_c_6 (constantI S_ 32 0#32),
    StableHlo.unary main_c_6 main_v44 (broadcastInDim S1000000 ![] bcast_S_S1000000 : (⟨S_, .i32⟩ : BufTy).Contents (Elt F) → (⟨S1000000, .i32⟩ : BufTy).Contents (Elt F)),
    StableHlo.binary main_arg2 main_v44 main_v45 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v46 (broadcastInDim S1000000 ![] bcast_S_S1000000 : (⟨S_, .i32⟩ : BufTy).Contents (Elt F) → (⟨S1000000, .i32⟩ : BufTy).Contents (Elt F)),
    StableHlo.binary main_arg2 main_v46 main_v47 (addi : (⟨S1000000, .i32⟩ : BufTy).Contents (Elt F) → (⟨S1000000, .i32⟩ : BufTy).Contents (Elt F) → (⟨S1000000, .i32⟩ : BufTy).Contents (Elt F)),
    StableHlo.ternary main_v45 main_v47 main_arg2 main_v48 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v48 main_v49 (broadcastInDim S1000000x1 ![0] bcast_S1000000_S1000000x1_0 : (⟨S1000000, .i32⟩ : BufTy).Contents (Elt F) → (⟨S1000000x1, .i32⟩ : BufTy).Contents (Elt F)),
    StableHlo.binary main_v34 main_v49 main_v50 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_cst_8 (constant S_ .f32 0x38D1B717#32),
    StableHlo.unary main_cst_8 main_v51 (broadcastInDim S1000000x64 ![] bcast_S_S1000000x64 : (⟨S_, .f32⟩ : BufTy).Contents (Elt F) → (⟨S1000000x64, .f32⟩ : BufTy).Contents (Elt F)),
    StableHlo.binary main_v50 main_v51 main_v52 (addf : (⟨S1000000x64, .f32⟩ : BufTy).Contents (Elt F) → (⟨S1000000x64, .f32⟩ : BufTy).Contents (Elt F) → (⟨S1000000x64, .f32⟩ : BufTy).Contents (Elt F)),
    StableHlo.binary main_v43 main_v52 main_v53 (Host.divf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.binary main_v53 main_cst_9 main_v54 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    StableHlo.nullary main_cst_10 (constant S_ .f32 0x49742400#32),
    StableHlo.unary main_cst_10 main_v55 (broadcastInDim S64 ![] bcast_S_S64 : (⟨S_, .f32⟩ : BufTy).Contents (Elt F) → (⟨S64, .f32⟩ : BufTy).Contents (Elt F)),
    StableHlo.binary main_v54 main_v55 main_v56 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call1.cst (constant S_ .f32 0x00000000#32),
    StableHlo.TRef.binary (.of main_v53 : StableHlo.TRef sig ⟨S1000000x64, .f32⟩) main_call1.cst main_call1.v0 (fun x v => Host.reduceAdd x v reducesTo_S1000000x64_S64_d0 h_S_),
    StableHlo.TRef.unary main_call1.v0 main_call1.v1 (broadcastInDim S1x64 ![1] bcast_S64_S1x64_1),
    StableHlo.TRef.nullary main_call1.cst_0 (constant S_ .f32 0x49742400#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S1000000x64 ![0, 1] bcast_S1x64_S1000000x64_0_1),
    StableHlo.TRef.binary (.of main_v53 : StableHlo.TRef sig ⟨S1000000x64, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x49742400#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S1000000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v56 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S1000000x64 ![0, 1] bcast_S1x64_S1000000x64_0_1 : (⟨S1x64, .f32⟩ : BufTy).Contents (Elt F) → (⟨S1000000x64, .f32⟩ : BufTy).Contents (Elt F)),
    StableHlo.binary main_v53 main_v59 main_v60 (subf : (⟨S1000000x64, .f32⟩ : BufTy).Contents (Elt F) → (⟨S1000000x64, .f32⟩ : BufTy).Contents (Elt F) → (⟨S1000000x64, .f32⟩ : BufTy).Contents (Elt F)),
    StableHlo.nullary main_cst_12 (constant S_ .f32 0x3A83126F#32),
    StableHlo.unary main_cst_12 main_v61 (broadcastInDim S64 ![] bcast_S_S64 : (⟨S_, .f32⟩ : BufTy).Contents (Elt F) → (⟨S64, .f32⟩ : BufTy).Contents (Elt F)),
    StableHlo.binary main_v57 main_v61 main_v62 (addf : (⟨S64, .f32⟩ : BufTy).Contents (Elt F) → (⟨S64, .f32⟩ : BufTy).Contents (Elt F) → (⟨S64, .f32⟩ : BufTy).Contents (Elt F)),
    StableHlo.unary main_v62 main_v63 (Host.rsqrt : (⟨S64, .f32⟩ : BufTy).Contents (Elt F) → (⟨S64, .f32⟩ : BufTy).Contents (Elt F)),
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S1000000x64 ![0, 1] bcast_S1x64_S1000000x64_0_1 : (⟨S1x64, .f32⟩ : BufTy).Contents (Elt F) → (⟨S1000000x64, .f32⟩ : BufTy).Contents (Elt F)),
    StableHlo.binary main_v60 main_v65 main_v66 (mulf : (⟨S1000000x64, .f32⟩ : BufTy).Contents (Elt F) → (⟨S1000000x64, .f32⟩ : BufTy).Contents (Elt F) → (⟨S1000000x64, .f32⟩ : BufTy).Contents (Elt F)),
    StableHlo.unary main_arg9 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S1000000x64 ![0, 1] bcast_S1x64_S1000000x64_0_1 : (⟨S1x64, .f32⟩ : BufTy).Contents (Elt F) → (⟨S1000000x64, .f32⟩ : BufTy).Contents (Elt F)),
    StableHlo.binary main_v66 main_v68 main_v69 (mulf : (⟨S1000000x64, .f32⟩ : BufTy).Contents (Elt F) → (⟨S1000000x64, .f32⟩ : BufTy).Contents (Elt F) → (⟨S1000000x64, .f32⟩ : BufTy).Contents (Elt F)),
    StableHlo.unary main_arg10 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S1000000x64 ![0, 1] bcast_S1x64_S1000000x64_0_1 : (⟨S1x64, .f32⟩ : BufTy).Contents (Elt F) → (⟨S1000000x64, .f32⟩ : BufTy).Contents (Elt F)),
    StableHlo.binary main_v69 main_v71 main_v72 (addf : (⟨S1000000x64, .f32⟩ : BufTy).Contents (Elt F) → (⟨S1000000x64, .f32⟩ : BufTy).Contents (Elt F) → (⟨S1000000x64, .f32⟩ : BufTy).Contents (Elt F)),
    StableHlo.TRef.nullary main_call2.cst (constant S_ .f32 0x00000000#32),
    StableHlo.TRef.unary main_call2.cst main_call2.v0 (broadcastInDim S1000000x64 ![] bcast_S_S1000000x64),
    StableHlo.TRef.binary (.of main_v72 : StableHlo.TRef sig ⟨S1000000x64, .f32⟩) main_call2.v0 main_call2.v1 maximumf,
    StableHlo.binary main_v73 main_v23 main_v74 (addf : (⟨S1000000x64, .f32⟩ : BufTy).Contents (Elt F) → (⟨S1000000x64, .f32⟩ : BufTy).Contents (Elt F) → (⟨S1000000x64, .f32⟩ : BufTy).Contents (Elt F)) ]

-- one hundred and thirty-four binds re-associated: the rewrite under the chain recurses once per statement
set_option maxRecDepth 4096 in
/-- @main is that straight line: the two windows and the three functions' definitions unfolded at their calls, both
    sides are one chain of operation steps once sequencing is re-associated and the callees' returns dropped. -/
theorem main_eq (c : Dev nD) : main (F := F) c = seq ops := by
  simp only [main, main_part0, main_part1, fn_var.body, fn_where.body, fn_relu.body, seq, bind_assoc, pure_bind]

/-- The signature scopes no buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., binary_bufs_sub ..⟩

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

-- the fold is read back through 134 operations, the intermediate values shared by several consumers each
set_option maxRecDepth 8192 in
set_option maxHeartbeats 4000000 in
/-- The fold at the result buffer is the reference's value. Each operation's result at its own buffer is its function
    of its operands' contents, and at any other buffer what was there; followed back from the result buffer to the
    arguments this composes the operations' functions along the data flow: the final sum of the rectified normalised
    quotient and the normalised first layer, the two normalisations each over the column mean and the variance
    function's value of their array, the quotient over the two gathered segment sums. That composition is
    `RefValue.result` with its stage definitions unfolded (a callee's typed buffers carry their contents through the
    identity), so the two sides agree by computation. -/
theorem out_eq (V : Valuation τ sig (Elt F)) :
    after ops V (main_v74 : DevRef τ sig)
      = RefValue.result (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig)) := by
  after_results_simp
  rfl

/-! No operation writes an argument buffer: the fold there is the launch contents. -/

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

/-- On every device, for any float values, from any memory with zero counters: every weakly fair execution of
    @main terminates with the result buffer at the reference's value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = RefValue.result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v74).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.LibTileSum.lean ====
/-
  A sum over one million rows, taken tile by tile: one hundred tiles of ten thousand rows each cover the rows
  0 … 999999 exactly once, so summing the tiles' partial sums is summing over all rows (in any commutative monoid:
  the extended reals among them).
-/
import Mathlib.Algebra.BigOperators.Fin
import Mathlib.Logic.Equiv.Fin.Basic

namespace Cert.TileSum

open Finset

/-- The sum over the tiles s < 100 of the sums over the rows r < 10000 of tile s (row 10000 s + r of the array) is
    the sum over all 1000000 rows. The addend past the array's end is never met; it is written 0. -/
theorem sum_tiles {M : Type*} [AddCommMonoid M] (g : Fin 1000000 → M) :
    ∑ s ∈ Finset.range 100, ∑ r : Fin 10000,
        (if h : 10000 * s + r.val < 1000000 then g ⟨10000 * s + r.val, h⟩ else 0)
      = ∑ n : Fin 1000000, g n := by
  rw [Finset.sum_range (fun s => ∑ r : Fin 10000,
        (if h : 10000 * s + r.val < 1000000 then g ⟨10000 * s + r.val, h⟩ else 0))]
  rw [← Fintype.sum_prod_type' (f := fun (s : Fin 100) (r : Fin 10000) =>
        (if h : 10000 * s.val + r.val < 1000000 then g ⟨10000 * s.val + r.val, h⟩ else 0))]
  refine Fintype.sum_equiv (finProdFinEquiv (m := 100) (n := 10000)) _ _ (fun p => ?_)
  obtain ⟨s, r⟩ := p
  have hs := s.isLt
  have hr := r.isLt
  have h : 10000 * s.val + r.val < 1000000 := by omega
  rw [dif_pos h]
  congr 1
  apply Fin.ext
  show 10000 * s.val + r.val = r.val + 10000 * s.val
  omega

end Cert.TileSum
-- ==== Proof.KReg0.lean ====
import proofs.«430596_j44092134261327_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«430596_j44092134261327_3_alg».proof.Proof.LibTileSum

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem

/-! ## What each case of the body leaves in the three output buffers

The body stores the positional term through the whole of output 6. At the first point it stores zeros through outputs 7
and 8, reads them back, and stores the column sums added to them; at a later point it reads the running sums the point
before left and stores the updated ones. Each buffer after the body is the payload of the LAST store through it. -/

section Pieces
variable {F : FTy → Type} [FloatOps F]

theorem hz : (![0, 0] : Fin 2 → Nat) = fun _ => 0 := funext fun a => by fin_cases a <;> rfl

theorem out_A_6 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : cond0_0 i) (x0 : Vec F S10000x64 .f32) (x1 : Vec F S10000x3 .f32) (x2 : Vec F S64x64 .f32) (x3 : Vec F S1x64 .f32) (x4 : Vec F S3x64 .f32) (x5 : Vec F S1x64 .f32) :
    out0_A_6 c i a1 h1 a2 h2 a3 h3 a4 h4 a5 h5 a6 h6 a7 h7 a8 h8 a9 h9 hc x0 x1 x2 x3 x4 x5 = k0_pay6 x1 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

theorem out_B_6 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S10000x64 .f32) (x1 : Vec F S10000x3 .f32) (x2 : Vec F S64x64 .f32) (x3 : Vec F S1x64 .f32) (x4 : Vec F S3x64 .f32) (x5 : Vec F S1x64 .f32) (xo7 : Vec F S1x64 .f32) (xo8 : Vec F S1x64 .f32) :
    out0_B_6 c i a1 h1 a2 h2 a3 h3 a4 h4 a5 h5 a6 h6 a7 h7 a8 h8 a9 h9 hc x0 x1 x2 x3 x4 x5 xo7 xo8 = k0_pay6 x1 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

theorem out_A_7 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : cond0_0 i) (x0 : Vec F S10000x64 .f32) (x1 : Vec F S10000x3 .f32) (x2 : Vec F S64x64 .f32) (x3 : Vec F S1x64 .f32) (x4 : Vec F S3x64 .f32) (x5 : Vec F S1x64 .f32) :
    out0_A_7 c i a1 h1 a2 h2 a3 h3 a4 h4 a5 h5 a6 h6 a7 h7 a8 h8 a9 h9 hc x0 x1 x2 x3 x4 x5 = k0_pay1 (k0_pay5 x0 x2 x3) k0_pay3 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz]
  simp only [View.readCov_unit_zero (S := S1x64) _ hz, View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

theorem out_B_7 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S10000x64 .f32) (x1 : Vec F S10000x3 .f32) (x2 : Vec F S64x64 .f32) (x3 : Vec F S1x64 .f32) (x4 : Vec F S3x64 .f32) (x5 : Vec F S1x64 .f32) (xo7 : Vec F S1x64 .f32) (xo8 : Vec F S1x64 .f32) :
    out0_B_7 c i a1 h1 a2 h2 a3 h3 a4 h4 a5 h5 a6 h6 a7 h7 a8 h8 a9 h9 hc x0 x1 x2 x3 x4 x5 xo7 xo8 = k0_pay1 (k0_pay5 x0 x2 x3) xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

theorem out_A_8 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : cond0_0 i) (x0 : Vec F S10000x64 .f32) (x1 : Vec F S10000x3 .f32) (x2 : Vec F S64x64 .f32) (x3 : Vec F S1x64 .f32) (x4 : Vec F S3x64 .f32) (x5 : Vec F S1x64 .f32) :
    out0_A_8 c i a1 h1 a2 h2 a3 h3 a4 h4 a5 h5 a6 h6 a7 h7 a8 h8 a9 h9 hc x0 x1 x2 x3 x4 x5 = k0_pay2 (k0_pay5 x0 x2 x3) k0_pay4 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz]
  simp only [View.readCov_unit_zero (S := S1x64) _ hz, View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

theorem out_B_8 (c : Dev nD) (i : grid0.Coords) (a1 : Memref sig .tc .vmem S10000x64 .f32) (h1 : a1.IsWhole) (a2 : Memref sig .tc .vmem S10000x3 .f32) (h2 : a2.IsWhole) (a3 : Memref sig .tc .vmem S64x64 .f32) (h3 : a3.IsWhole) (a4 : Memref sig .tc .vmem S1x64 .f32) (h4 : a4.IsWhole) (a5 : Memref sig .tc .vmem S3x64 .f32) (h5 : a5.IsWhole) (a6 : Memref sig .tc .vmem S1x64 .f32) (h6 : a6.IsWhole) (a7 : Memref sig .tc .vmem S10000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S10000x64 .f32) (x1 : Vec F S10000x3 .f32) (x2 : Vec F S64x64 .f32) (x3 : Vec F S1x64 .f32) (x4 : Vec F S3x64 .f32) (x5 : Vec F S1x64 .f32) (xo7 : Vec F S1x64 .f32) (xo8 : Vec F S1x64 .f32) :
    out0_B_8 c i a1 h1 a2 h2 a3 h3 a4 h4 a5 h5 a6 h6 a7 h7 a8 h8 a9 h9 hc x0 x1 x2 x3 x4 x5 xo7 xo8 = k0_pay2 (k0_pay5 x0 x2 x3) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S10000x64) hz, View.ld_unit_zero (S := S10000x3) hz, View.ld_unit_zero (S := S64x64) hz, View.ld_unit_zero (S := S1x64) hz, View.ld_unit_zero (S := S3x64) hz]

end Pieces

/-! ## The payloads at an index, over the extended reals

At the ideal values a change of float format is the identity, a matrix product into a zero accumulator is the finite sum
over the contracted axis, and a lane reduction is the finite sum over the reduced axis. -/

section Payloads

/-- Column `k` of a [10000,3] block, spread along the 64 lanes, read at `(p, q)`: the block at `(p, k)`. -/
theorem bcast_col {α : Type} (v : S10000x3.Idx → α) (off : Fin 2 → Nat) (k : Nat) (hk : k < 3) (hoff : off = ![0, k])
    (hs : S10000x3.Slices off S10000x1) (hb : S10000x1.Broadcasts S10000x64) (p : Fin 10000) (q : Fin 64) :
    broadcastTo S10000x64 (extractStridedSlice S10000x1 off v hs) hb (ix2 p q) = v (ix2 p ⟨k, hk⟩) := by
  subst hoff
  refine (broadcastTo_apply _ hb (ix2 p q) (ix2 p 0) ?_).trans ?_
  · intro a
    match a with
    | ⟨0, _⟩ => rfl
    | ⟨1, _⟩ => rfl
  · refine extractStridedSlice_apply _ v hs (ix2 p 0) (ix2 p ⟨k, hk⟩) ?_
    intro a
    match a with
    | ⟨0, _⟩ => show p.val = 0 + p.val; omega
    | ⟨1, _⟩ => show k = k + 0; omega

/-- Row `k` of a [3,64] block, spread along the 10000 rows, read at `(p, q)`: the block at `(k, q)`. -/
theorem bcast_row {α : Type} (v : S3x64.Idx → α) (off : Fin 2 → Nat) (k : Nat) (hk : k < 3) (hoff : off = ![k, 0])
    (hs : S3x64.Slices off S1x64) (hb : S1x64.Broadcasts S10000x64) (p : Fin 10000) (q : Fin 64) :
    broadcastTo S10000x64 (extractStridedSlice S1x64 off v hs) hb (ix2 p q) = v (ix2 ⟨k, hk⟩ q) := by
  subst hoff
  refine (broadcastTo_apply _ hb (ix2 p q) (ix2 0 q) ?_).trans ?_
  · intro a
    match a with
    | ⟨0, _⟩ => rfl
    | ⟨1, _⟩ => rfl
  · refine extractStridedSlice_apply _ v hs (ix2 0 q) (ix2 ⟨k, hk⟩ q) ?_
    intro a
    match a with
    | ⟨0, _⟩ => show k = k + 0; omega
    | ⟨1, _⟩ => show q.val = 0 + q.val; omega

/-- A [1,64] row spread along the 10000 rows, read at `(p, q)`: the row at `(0, q)`. -/
theorem bcast_bias {α : Type} (v : S1x64.Idx → α) (hc : S1x64.ShapeCasts S1x64) (hb : S1x64.Broadcasts S10000x64)
    (p : Fin 10000) (q : Fin 64) :
    broadcastTo S10000x64 (shapeCast S1x64 v hc) hb (ix2 p q) = v (ix2 0 q) := by
  rw [shapeCast_self]
  refine broadcastTo_apply v hb (ix2 p q) (ix2 0 q) ?_
  intro a
  match a with
  | ⟨0, _⟩ => rfl
  | ⟨1, _⟩ => rfl

/-- The positional term at `(p, q)`: the three floored coordinates of row `p` against the three rows of the weight,
    plus the bias. -/
theorem pay6_apply (x1 : Vec Ideal S10000x3 .f32) (x4 : Vec Ideal S3x64 .f32) (x5 : Vec Ideal S1x64 .f32)
    (p : Fin 10000) (q : Fin 64) :
    k0_pay6 (F := Ideal) x1 x4 x5 (ix2 p q)
      = ((FloatOps.floor (x1 (ix2 p 0)) * x4 (ix2 0 q) + FloatOps.floor (x1 (ix2 p 1)) * x4 (ix2 1 q))
          + FloatOps.floor (x1 (ix2 p 2)) * x4 (ix2 2 q)) + x5 (ix2 0 q) := by
  unfold k0_pay6
  simp only [addf_apply, mulf_apply]
  refine congrArg₂ (· + ·) (congrArg₂ (· + ·) (congrArg₂ (· + ·) (congrArg₂ (· * ·) ?_ ?_) (congrArg₂ (· * ·) ?_ ?_))
    (congrArg₂ (· * ·) ?_ ?_)) ?_
  · exact bcast_col (floor (F := Ideal) (φ := .f32) x1) _ 0 (by decide) rfl _ _ p q
  · exact bcast_row x4 _ 0 (by decide) rfl _ _ p q
  · exact bcast_col (floor (F := Ideal) (φ := .f32) x1) _ 1 (by decide) rfl _ _ p q
  · exact bcast_row x4 _ 1 (by decide) rfl _ _ p q
  · exact bcast_col (floor (F := Ideal) (φ := .f32) x1) _ 2 (by decide) rfl _ _ p q
  · exact bcast_row x4 _ 2 (by decide) rfl _ _ p q
  · exact bcast_bias x5 _ _ p q

/-- The product's left operand is read at `(j 0, k)` and its right operand at `(k, j 1)`. -/
theorem lhs_0 (j : S10000x64.Idx) (k : dot_S10000x64_S64x64_S10000x64_1_0_0_1_n_n.contr.Idx) : ((dot_S10000x64_S64x64_S10000x64_1_0_0_1_n_n.lhsIdx j k) 0).val = (j 0).val := by
  simp [DotDims.lhsIdx, dot_S10000x64_S64x64_S10000x64_1_0_0_1_n_n]; rfl
theorem lhs_1 (j : S10000x64.Idx) (k : dot_S10000x64_S64x64_S10000x64_1_0_0_1_n_n.contr.Idx) :
    ((dot_S10000x64_S64x64_S10000x64_1_0_0_1_n_n.lhsIdx j k) 1).val = (k ⟨0, by decide⟩).val :=
  DotDims.lhsIdx_val_of_single dot_S10000x64_S64x64_S10000x64_1_0_0_1_n_n rfl j k
theorem rhs_0 (j : S10000x64.Idx) (k : dot_S10000x64_S64x64_S10000x64_1_0_0_1_n_n.contr.Idx) :
    ((dot_S10000x64_S64x64_S10000x64_1_0_0_1_n_n.rhsIdx j k) 0).val = (k ⟨0, by decide⟩).val :=
  DotDims.rhsIdx_val_of_single dot_S10000x64_S64x64_S10000x64_1_0_0_1_n_n rfl j k
theorem rhs_1 (j : S10000x64.Idx) (k : dot_S10000x64_S64x64_S10000x64_1_0_0_1_n_n.contr.Idx) : ((dot_S10000x64_S64x64_S10000x64_1_0_0_1_n_n.rhsIdx j k) 1).val = (j 1).val := by
  simp [DotDims.rhsIdx, dot_S10000x64_S64x64_S10000x64_1_0_0_1_n_n]; rfl

end Payloads

section Payloads2

/-- The pre-activation at `(p, q)`: row `p` of the block against column `q` of the weight, plus the bias. -/
theorem pay5_apply (x0 : Vec Ideal S10000x64 .f32) (x2 : Vec Ideal S64x64 .f32) (x3 : Vec Ideal S1x64 .f32)
    (p : Fin 10000) (q : Fin 64) :
    k0_pay5 (F := Ideal) x0 x2 x3 (ix2 p q) = (∑ k : Fin 64, x0 (ix2 p k) * x2 (ix2 k q)) + x3 (ix2 0 q) := by
  unfold k0_pay5
  simp only [addf_apply]
  refine congrArg₂ (· + ·) ?_ (bcast_bias x3 _ _ p q)
  refine (Ideal.matmul_constant_zero_apply dot_S10000x64_S64x64_S10000x64_1_0_0_1_n_n none _ _ (ix2 p q)).trans ?_
  refine (Equiv.sum_comp (contrEquiv1 dot_S10000x64_S64x64_S10000x64_1_0_0_1_n_n 64 rfl rfl).symm _).symm.trans ?_
  refine Finset.sum_congr rfl fun k _ => ?_
  simp only [truncf_apply]
  refine congrArg₂ (· * ·) (congrArg x0 ?_) (congrArg x2 ?_)
  · funext a
    apply Fin.ext
    match a with
    | ⟨0, _⟩ => exact lhs_0 _ _
    | ⟨1, _⟩ => exact (lhs_1 _ _).trans (contrEquiv1_symm_val dot_S10000x64_S64x64_S10000x64_1_0_0_1_n_n 64 rfl rfl k)
  · funext a
    apply Fin.ext
    match a with
    | ⟨0, _⟩ => exact (rhs_0 _ _).trans (contrEquiv1_symm_val dot_S10000x64_S64x64_S10000x64_1_0_0_1_n_n 64 rfl rfl k)
    | ⟨1, _⟩ => exact rhs_1 _ _

/-- The lane reduction over the 10000 rows, at column `q`: the finite sum down the column. -/
theorem colsum_apply (v : FVec Ideal S10000x64 .f32) (h : S10000x64.Reduces [0] S64) (hφ : FKind.Formats .f32)
    (hacc : (0x00000000#32 : BitVec 32) = 0x00000000#32) (q : Fin 64) :
    multiReduction (F := Ideal) .add [0] S64 v 0x00000000#32 h hφ hacc (ix1 q) = ∑ p : Fin 10000, v (ix2 p q) := by
  refine (Ideal.multiReduction_add_single v 0x00000000#32 h hφ hacc (ix1 q)).trans ?_
  refine Finset.sum_congr rfl fun k _ => congrArg v ?_
  funext a
  match a with
  | ⟨0, _⟩ => rfl
  | ⟨1, _⟩ => rfl

/-- A [64] vector recast as a [1,64] row, at `(0, q)`: the vector at `q`. -/
theorem row_of_vec {α : Type} (v : S64.Idx → α) (hc : S64.ShapeCasts S1x64) (q : Fin 64) :
    shapeCast S1x64 v hc (ix2 0 q) = v (ix1 q) := by
  refine shapeCast_apply v hc (ix2 0 q) (ix1 q) ?_
  rw [Shape.rowMajor_val_one, Shape.rowMajor_val_two]
  show q.val = 0 * 64 + q.val
  omega

/-- The running sum's update at column `q`: what was there plus the column sum of the block. -/
theorem pay1_apply (v : FVec Ideal S10000x64 .f32) (acc : Vec Ideal S1x64 .f32) (q : Fin 64) :
    k0_pay1 (F := Ideal) v acc (ix2 0 q) = acc (ix2 0 q) + ∑ p : Fin 10000, v (ix2 p q) := by
  unfold k0_pay1
  simp only [addf_apply]
  refine congrArg₂ (· + ·) (congrFun (shapeCast_self acc _) _) ?_
  refine (row_of_vec _ _ q).trans ?_
  exact colsum_apply v _ _ _ q

/-- The running sum of squares' update at column `q`. -/
theorem pay2_apply (v : FVec Ideal S10000x64 .f32) (acc : Vec Ideal S1x64 .f32) (q : Fin 64) :
    k0_pay2 (F := Ideal) v acc (ix2 0 q) = acc (ix2 0 q) + ∑ p : Fin 10000, v (ix2 p q) * v (ix2 p q) := by
  unfold k0_pay2
  simp only [addf_apply]
  refine congrArg₂ (· + ·) (congrFun (shapeCast_self acc _) _) ?_
  refine (row_of_vec _ _ q).trans ?_
  exact colsum_apply (mulf v v) _ _ _ q

/-- The two resets are the zero row. -/
theorem pay3_apply (j : S1x64.Idx) : k0_pay3 (F := Ideal) j = 0 := Ideal.ofBits_zero_f32
theorem pay4_apply (j : S1x64.Idx) : k0_pay4 (F := Ideal) j = 0 := Ideal.ofBits_zero_f32

end Payloads2

/-! ## The input arrays, and the blocks the windows read off them

Point `t` of the grid reads rows `10000 t … 10000 t + 9999` of the two row-tiled arrays; the four small arrays are
resident (their one block is the whole array at every point). -/

variable (V : (c : Dev nD) → (b : Ref sig .tc) → Buf (Elt Ideal) ((c : Thread nD τ).loc b))

/-- The region's six input arrays as it finds them. -/
abbrev X (c : Dev nD) : Vec Ideal S1000000x64 .f32 := V c main_arg1
abbrev P (c : Dev nD) : Vec Ideal S1000000x3 .f32 := V c main_arg0
abbrev W (c : Dev nD) : Vec Ideal S64x64 .f32 := V c main_arg3
abbrev B (c : Dev nD) : Vec Ideal S1x64 .f32 := V c main_v0
abbrev Wp (c : Dev nD) : Vec Ideal S3x64 .f32 := V c main_arg7
abbrev Bp (c : Dev nD) : Vec Ideal S1x64 .f32 := V c main_v1

theorem arr_refs : Pipeline.arrRef spec0 0 = main_arg1 ∧ Pipeline.arrRef spec0 1 = main_arg0 ∧ Pipeline.arrRef spec0 2 = main_arg3
    ∧ Pipeline.arrRef spec0 3 = main_v0 ∧ Pipeline.arrRef spec0 4 = main_arg7 ∧ Pipeline.arrRef spec0 5 = main_v1
    ∧ Pipeline.arrRef spec0 6 = main_v2_0 ∧ Pipeline.arrRef spec0 7 = main_v2_1 ∧ Pipeline.arrRef spec0 8 = main_v2_2 :=
  ⟨rfl, rfl, rfl, rfl, rfl, rfl, rfl, rfl, rfl⟩

theorem N100 : cfg0.N = 100 := N_0

/-- Row `p` of tile `t`, as a row of the whole array. -/
def rowOf (t : Fin cfg0.N) (p : Fin 10000) : Fin 1000000 :=
  ⟨10000 * t.val + p.val, by have := lt_of_lt_of_eq t.isLt N100; have := p.isLt; omega⟩

/-- The windows' index maps, decided once over the grid: the row-tiled windows are at block `t`, the resident ones at
    block `0`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

abbrev xblk (c : Dev nD) (t : Fin cfg0.N) : Vec Ideal S10000x64 .f32 := iblk0 V c 0 t
abbrev pblk (c : Dev nD) (t : Fin cfg0.N) : Vec Ideal S10000x3 .f32 := iblk0 V c 1 t
abbrev wblk (c : Dev nD) (t : Fin cfg0.N) : Vec Ideal S64x64 .f32 := iblk0 V c 2 t
abbrev bblk (c : Dev nD) (t : Fin cfg0.N) : Vec Ideal S1x64 .f32 := iblk0 V c 3 t
abbrev wpblk (c : Dev nD) (t : Fin cfg0.N) : Vec Ideal S3x64 .f32 := iblk0 V c 4 t
abbrev bpblk (c : Dev nD) (t : Fin cfg0.N) : Vec Ideal S1x64 .f32 := iblk0 V c 5 t

theorem xblk_apply (c : Dev nD) (t : Fin cfg0.N) (p : Fin 10000) (q : Fin 64) :
    xblk V c t (ix2 p q) = X V c (ix2 (rowOf t p) q) := by
  obtain ⟨⟨e0, e1⟩, -⟩ := idx_facts t
  unfold xblk iblk0
  rw [View.read_apply]
  show V c main_arg1 _ = V c main_arg1 _
  congr 1
  funext a
  apply Fin.ext
  match a with
  | ⟨0, _⟩ => show win0_0.index t (0 : Fin 2) * 10000 + 1 * p.val = 10000 * t.val + p.val; rw [e0]; omega
  | ⟨1, _⟩ => show win0_0.index t (1 : Fin 2) * 64 + 1 * q.val = q.val; rw [e1]; omega

theorem pblk_apply (c : Dev nD) (t : Fin cfg0.N) (p : Fin 10000) (q : Fin 3) :
    pblk V c t (ix2 p q) = P V c (ix2 (rowOf t p) q) := by
  obtain ⟨-, ⟨e0, e1⟩, -, -, -, -, -, -, -⟩ := idx_facts t
  unfold pblk iblk0
  rw [View.read_apply]
  show V c main_arg0 _ = V c main_arg0 _
  congr 1
  funext a
  apply Fin.ext
  match a with
  | ⟨0, _⟩ => show win0_1.index t (0 : Fin 2) * 10000 + 1 * p.val = 10000 * t.val + p.val; rw [e0]; omega
  | ⟨1, _⟩ => show win0_1.index t (1 : Fin 2) * 3 + 1 * q.val = q.val; rw [e1]; omega

theorem wblk_apply (c : Dev nD) (t : Fin cfg0.N) (p : Fin 64) (q : Fin 64) :
    wblk V c t (ix2 p q) = W V c (ix2 p q) := by
  obtain ⟨-, -, ⟨e0, e1⟩, -, -, -, -, -, -⟩ := idx_facts t
  unfold wblk iblk0
  rw [View.read_apply]
  show V c main_arg3 _ = V c main_arg3 _
  congr 1
  funext a
  apply Fin.ext
  match a with
  | ⟨0, _⟩ => show win0_2.index t (0 : Fin 2) * 64 + 1 * p.val = p.val; rw [e0]; omega
  | ⟨1, _⟩ => show win0_2.index t (1 : Fin 2) * 64 + 1 * q.val = q.val; rw [e1]; omega

theorem bblk_apply (c : Dev nD) (t : Fin cfg0.N) (p : Fin 1) (q : Fin 64) :
    bblk V c t (ix2 p q) = B V c (ix2 p q) := by
  obtain ⟨-, -, -, ⟨e0, e1⟩, -, -, -, -, -⟩ := idx_facts t
  unfold bblk iblk0
  rw [View.read_apply]
  show V c main_v0 _ = V c main_v0 _
  congr 1
  funext a
  apply Fin.ext
  match a with
  | ⟨0, _⟩ => show win0_3.index t (0 : Fin 2) * 1 + 1 * p.val = p.val; rw [e0]; omega
  | ⟨1, _⟩ => show win0_3.index t (1 : Fin 2) * 64 + 1 * q.val = q.val; rw [e1]; omega

theorem wpblk_apply (c : Dev nD) (t : Fin cfg0.N) (p : Fin 3) (q : Fin 64) :
    wpblk V c t (ix2 p q) = Wp V c (ix2 p q) := by
  obtain ⟨-, -, -, -, ⟨e0, e1⟩, -, -, -, -⟩ := idx_facts t
  unfold wpblk iblk0
  rw [View.read_apply]
  show V c main_arg7 _ = V c main_arg7 _
  congr 1
  funext a
  apply Fin.ext
  match a with
  | ⟨0, _⟩ => show win0_4.index t (0 : Fin 2) * 3 + 1 * p.val = p.val; rw [e0]; omega
  | ⟨1, _⟩ => show win0_4.index t (1 : Fin 2) * 64 + 1 * q.val = q.val; rw [e1]; omega

theorem bpblk_apply (c : Dev nD) (t : Fin cfg0.N) (p : Fin 1) (q : Fin 64) :
    bpblk V c t (ix2 p q) = Bp V c (ix2 p q) := by
  obtain ⟨-, -, -, -, -, ⟨e0, e1⟩, -, -, -⟩ := idx_facts t
  unfold bpblk iblk0
  rw [View.read_apply]
  show V c main_v1 _ = V c main_v1 _
  congr 1
  funext a
  apply Fin.ext
  match a with
  | ⟨0, _⟩ => show win0_5.index t (0 : Fin 2) * 1 + 1 * p.val = p.val; rw [e0]; omega
  | ⟨1, _⟩ => show win0_5.index t (1 : Fin 2) * 64 + 1 * q.val = q.val; rw [e1]; omega

/-! ## Output 6: the positional term, written back at every point -/

/-- The positional term as ONE function of the arrays: row `i 0`'s three floored coordinates against the three rows of
    the weight at column `i 1`, plus the bias there. -/
def posw (c : Dev nD) : Vec Ideal S1000000x64 .f32 := fun i =>
  ((FloatOps.floor (F := Ideal) (φ := .f32) (P V c (ix2 (i 0) 0)) * Wp V c (ix2 0 (i 1)) + FloatOps.floor (F := Ideal) (φ := .f32) (P V c (ix2 (i 0) 1)) * Wp V c (ix2 1 (i 1)))
    + FloatOps.floor (F := Ideal) (φ := .f32) (P V c (ix2 (i 0) 2)) * Wp V c (ix2 2 (i 1))) + Bp V c (ix2 0 (i 1))

/-- After the body at ANY point output 6's buffer holds the positional term of that point's blocks: both cases store it. -/
theorem outs6 (c : Dev nD) (t : Fin cfg0.N) :
    (outsAt0 V c t.val t.isLt).1 = k0_pay6 (F := Ideal) (pblk V c t) (wpblk V c t) (bpblk V c t) := by
  by_cases h0 : t.val % 100 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (pblk V c t) (wblk V c t) (bblk V c t) (wpblk V c t) (bpblk V c t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (pblk V c t) (wblk V c t) (bblk V c t) (wpblk V c t) (bpblk V c t) (outsAt0 V c (t.val - 1) (Nat.lt_of_le_of_lt (Nat.sub_le _ _) t.isLt)).2.1 (outsAt0 V c (t.val - 1) (Nat.lt_of_le_of_lt (Nat.sub_le _ _) t.isLt)).2.2

/-- Block `t` of a [1000000,64] array, read at `(p, q)`: the array at row `10000 t + p`. -/
theorem blk6_read (t : Fin cfg0.N) (G : Vec Ideal S1000000x64 .f32) (p : Fin 10000) (q : Fin 64) :
    (((cfg0.win 6).blk t).view.read (Elt Ideal) G : Vec Ideal S10000x64 .f32) (ix2 p q) = G (ix2 (rowOf t p) q) := by
  obtain ⟨-, -, -, -, -, -, ⟨e0, e1⟩, -⟩ := idx_facts t
  rw [View.read_apply]
  refine congrArg G ?_
  funext a
  apply Fin.ext
  match a with
  | ⟨0, _⟩ => show win0_6.index t (0 : Fin 2) * 10000 + 1 * p.val = 10000 * t.val + p.val; rw [e0]; omega
  | ⟨1, _⟩ => show win0_6.index t (1 : Fin 2) * 64 + 1 * q.val = q.val; rw [e1]; omega

/-- What point `t` writes back through window 6 is block `t` of the positional term. -/
theorem flushed6_eq (c : Dev nD) (t : Fin cfg0.N) :
    (dat0 (F := Ideal) V c).flushed 6 t = ((cfg0.win 6).blk t).view.read (Elt Ideal) (posw V c) := by
  show (cfg0.win 6).cut (grid0.coords t) ((dat0 (F := Ideal) V c).after 6 t) = _
  rw [after0_6, outs6]
  funext j
  obtain ⟨p, q, rfl⟩ : ∃ (p : Fin 10000) (q : Fin 64), j = ix2 p q := ⟨j 0, j 1, eq_ix2 j⟩
  show k0_pay6 (F := Ideal) (pblk V c t) (wpblk V c t) (bpblk V c t) (ix2 p q)
    = (((cfg0.win 6).blk t).view.read (Elt Ideal) (posw V c) : Vec Ideal S10000x64 .f32) (ix2 p q)
  rw [blk6_read, pay6_apply, pblk_apply, pblk_apply, pblk_apply, wpblk_apply, wpblk_apply, wpblk_apply, bpblk_apply]
  rfl

/-- An index of the array is in point `t`'s block of window 6 iff its row is in that tile. -/
theorem mem_blk6 (t : Fin cfg0.N) (i : S1000000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v2_0).slice (win0_6.rect t)).set ↔ _
  rw [View.set_slice_whole, Rect.mem_set_unit]
  exact Iff.rfl

/-- THE ARRAY after the region: the positional term everywhere (tile `i 0 / 10000` covers row `i 0`). -/
theorem arr_posw (c : Dev nD) : (dat0 (F := Ideal) V c).arrAt 6 cfg0.N = posw V c :=
  (dat0 (F := Ideal) V c).arrAt_eq_of_cover 6 (posw V c) (fun t _ => flushed6_eq V c t) fun i => by
    have hi0 : (i 0).val < 1000000 := (i 0).isLt
    have hi1 : (i 1).val < 64 := (i 1).isLt
    have hN := N100
    let t : Fin cfg0.N := ⟨(i 0).val / 10000, by omega⟩
    obtain ⟨-, -, -, -, -, -, ⟨e0, e1⟩, -⟩ := idx_facts t
    refine ⟨t, flush0_6 t, ?_⟩
    rw [mem_blk6]
    intro a
    match a with
    | ⟨0, _⟩ =>
      show win0_6.index t (0 : Fin 2) * 10000 ≤ (i 0).val ∧ (i 0).val < win0_6.index t (0 : Fin 2) * 10000 + 10000
      rw [e0]
      show (i 0).val / 10000 * 10000 ≤ (i 0).val ∧ (i 0).val < (i 0).val / 10000 * 10000 + 10000
      omega
    | ⟨1, _⟩ =>
      show win0_6.index t (1 : Fin 2) * 64 ≤ (i 1).val ∧ (i 1).val < win0_6.index t (1 : Fin 2) * 64 + 64
      rw [e1]
      omega

/-! ## Outputs 7 and 8: the column sums of the pre-activation and of its square, over ALL rows

The two [1,64] accumulators are reset at the first point, added to at every later one, and written back once, after the
last point. What the last point leaves is the fold over the hundred points; unrolled at a column it is zero plus the
hundred tiles' column sums, and the hundred tiles of 10000 rows partition the 1000000 rows. -/

/-- The pre-activation of row `n` at column `j`: row `n` of the features against column `j` of the weight, plus the bias. -/
def raw (c : Dev nD) (n : Fin 1000000) (j : Fin 64) : EReal :=
  (∑ k : Fin 64, X V c (ix2 n k) * W V c (ix2 k j)) + B V c (ix2 0 j)

/-- The pre-activation of point `t`'s block. -/
abbrev rawblk (c : Dev nD) (t : Fin cfg0.N) : FVec Ideal S10000x64 .f32 :=
  k0_pay5 (F := Ideal) (xblk V c t) (wblk V c t) (bblk V c t)

theorem rawblk_apply (c : Dev nD) (t : Fin cfg0.N) (p : Fin 10000) (q : Fin 64) :
    rawblk V c t (ix2 p q) = raw V c (rowOf t p) q := by
  show k0_pay5 (F := Ideal) (xblk V c t) (wblk V c t) (bblk V c t) (ix2 p q) = _
  rw [pay5_apply, bblk_apply]
  refine congrArg (· + B V c (ix2 0 q)) (Finset.sum_congr rfl fun k _ => ?_)
  rw [xblk_apply, wblk_apply]

/-- Tile `s`'s sum of a row-indexed quantity — stated for every natural `s` (zero past the array's rows). -/
abbrev tileSum (g : Fin 1000000 → EReal) (s : Nat) : EReal :=
  ∑ r : Fin 10000, if h : 10000 * s + r.val < 1000000 then g ⟨10000 * s + r.val, h⟩ else 0

/-- A sum down point `t`'s block of a quantity that is `g` of the row is tile `t`'s sum of `g`. -/
theorem tile_colsum (g : Fin 1000000 → EReal) (t : Fin cfg0.N) (f : Fin 10000 → EReal) (hf : ∀ p, f p = g (rowOf t p)) :
    ∑ p : Fin 10000, f p = tileSum g t.val := by
  refine Finset.sum_congr rfl fun p _ => ?_
  have h : 10000 * t.val + p.val < 1000000 := (rowOf t p).isLt
  rw [dif_pos h]
  exact hf p

theorem h99 : 99 < cfg0.N := lt_of_lt_of_eq (by decide) N100.symm

theorem outs_congr (c : Dev nD) (n m : Nat) (hn : n < cfg0.N) (hm : m < cfg0.N) (e : n = m) :
    outsAt0 V c n hn = outsAt0 V c m hm := by subst e; rfl

/-- The two result arrays as functions of the input arrays. -/
def sumArr (c : Dev nD) : Vec Ideal S1x64 .f32 := fun i => ∑ n : Fin 1000000, raw V c n (i 1)
def sumsqArr (c : Dev nD) : Vec Ideal S1x64 .f32 := fun i => ∑ n : Fin 1000000, raw V c n (i 1) * raw V c n (i 1)

/-- After the body at a first point output 7's buffer holds the reset value updated by that point's block; at a later
    point, what the point before left updated by this point's block. -/
theorem outs7_A (c : Dev nD) (t : Fin cfg0.N) (h0 : t.val % 100 = 0) :
    (outsAt0 V c t.val t.isLt).2.1 = k0_pay1 (F := Ideal) (rawblk V c t) (k0_pay3 (F := Ideal)) := by
  rw [outsAt0_A V c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (pblk V c t) (wblk V c t) (bblk V c t) (wpblk V c t) (bpblk V c t)

theorem outs7_B (c : Dev nD) (t : Fin cfg0.N) (h0 : ¬t.val % 100 = 0) :
    (outsAt0 V c t.val t.isLt).2.1 = k0_pay1 (F := Ideal) (rawblk V c t)
      (outsAt0 V c (t.val - 1) (Nat.lt_of_le_of_lt (Nat.sub_le _ _) t.isLt)).2.1 := by
  rw [outsAt0_B V c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (pblk V c t) (wblk V c t) (bblk V c t) (wpblk V c t) (bpblk V c t) (outsAt0 V c (t.val - 1) (Nat.lt_of_le_of_lt (Nat.sub_le _ _) t.isLt)).2.1 (outsAt0 V c (t.val - 1) (Nat.lt_of_le_of_lt (Nat.sub_le _ _) t.isLt)).2.2

/-- After the LAST point output 7's buffer holds, at column `i 1`, the sum over ALL rows of the pre-activation: the fold
    over the hundred points is zero plus the hundred tiles' column sums, and the tiles partition the rows. -/
theorem sum_last (c : Dev nD) (i : S1x64.Idx) :
    (outsAt0 V c 99 h99).2.1 i = ∑ n : Fin 1000000, raw V c n (i 1) := by
  have e := Pipeline.eq_accAt_of_mod (fun n h => (outsAt0 V c n h).2.1)
    100 (fun n h => k0_pay1 (F := Ideal) (rawblk V c ⟨n, h⟩) (k0_pay3 (F := Ideal)))
    (fun n h acc => k0_pay1 (F := Ideal) (rawblk V c ⟨n, h⟩) acc)
    (fun n h e => outs7_A V c ⟨n, h⟩ e) (fun n h e => outs7_B V c ⟨n + 1, h⟩ e) (by decide) 99 h99 h99
  refine (congrFun e i).trans ?_
  refine (Pipeline.accAt_add_apply _ _ (fun _ => (0 : EReal))
    (fun s (j : S1x64.Idx) => tileSum (fun n => raw V c n (j 1)) s) 0 99 ?_ ?_ 99 le_rfl h99 i).trans ?_
  · intro h j
    obtain ⟨z, q, rfl⟩ : ∃ (z : Fin 1) (q : Fin 64), j = ix2 z q := ⟨j 0, j 1, eq_ix2 j⟩
    obtain rfl : z = 0 := Subsingleton.elim _ _
    show k0_pay1 (F := Ideal) (rawblk V c ⟨0, h⟩) (k0_pay3 (F := Ideal)) (ix2 0 q)
      = 0 + tileSum (fun n => raw V c n q) 0
    rw [pay1_apply, pay3_apply]
    exact congrArg (0 + ·) (tile_colsum _ ⟨0, h⟩ _ fun p => by rw [rawblk_apply])
  · intro n h acc j _ _
    obtain ⟨z, q, rfl⟩ : ∃ (z : Fin 1) (q : Fin 64), j = ix2 z q := ⟨j 0, j 1, eq_ix2 j⟩
    obtain rfl : z = 0 := Subsingleton.elim _ _
    show k0_pay1 (F := Ideal) (rawblk V c ⟨n, h⟩) acc (ix2 0 q)
      = acc (ix2 0 q) + tileSum (fun m => raw V c m q) n
    rw [pay1_apply]
    exact congrArg (acc (ix2 0 q) + ·) (tile_colsum _ ⟨n, h⟩ _ fun p => by rw [rawblk_apply])
  · show (0 : EReal) + ∑ s ∈ Finset.range 100, tileSum (fun n => raw V c n (i 1)) (0 + s) = _
    rw [zero_add]
    simp only [Nat.zero_add]
    exact Cert.TileSum.sum_tiles (fun n => raw V c n (i 1))

/-- The whole [1,64] array is window 7's one block. -/
theorem blk7_read (t : Fin cfg0.N) (G : Vec Ideal S1x64 .f32) (z : Fin 1) (q : Fin 64) :
    (((cfg0.win 7).blk t).view.read (Elt Ideal) G : Vec Ideal S1x64 .f32) (ix2 z q) = G (ix2 z q) := by
  obtain ⟨-, -, -, -, -, -, -, ⟨e0, e1⟩, -⟩ := idx_facts t
  rw [View.read_apply]
  refine congrArg G ?_
  funext a
  apply Fin.ext
  match a with
  | ⟨0, _⟩ => show win0_7.index t (0 : Fin 2) * 1 + 1 * z.val = z.val; rw [e0]; omega
  | ⟨1, _⟩ => show win0_7.index t (1 : Fin 2) * 64 + 1 * q.val = q.val; rw [e1]; omega

/-- The one write-back through window 7, after the last point, writes the sum over all rows. -/
theorem flushed7_eq (c : Dev nD) (t : Fin cfg0.N) (hf : (cfg0.win 7).flush t = true) :
    (dat0 (F := Ideal) V c).flushed 7 t = ((cfg0.win 7).blk t).view.read (Elt Ideal) (sumArr V c) := by
  have hN := N100
  have ht : t.val = 99 := by have := (flush0_7 t).mp hf; have := t.isLt; omega
  show (cfg0.win 7).cut (grid0.coords t) ((dat0 (F := Ideal) V c).after 7 t) = _
  rw [after0_7, outs_congr V c t.val 99 t.isLt h99 ht]
  funext j
  obtain ⟨z, q, rfl⟩ : ∃ (z : Fin 1) (q : Fin 64), j = ix2 z q := ⟨j 0, j 1, eq_ix2 j⟩
  show (outsAt0 V c 99 h99).2.1 (ix2 z q)
    = (((cfg0.win 7).blk t).view.read (Elt Ideal) (sumArr V c) : Vec Ideal S1x64 .f32) (ix2 z q)
  rw [blk7_read, sum_last]
  rfl

theorem mem_blk7 (t : Fin cfg0.N) (i : S1x64.Idx) :
    i ∈ ((cfg0.win 7).blk t).view.set ↔ ∀ a : Fin 2, win0_7.index t a * S1x64.size a ≤ (i a).val
      ∧ (i a).val < win0_7.index t a * S1x64.size a + S1x64.size a := by
  show i ∈ ((View.whole main_v2_1).slice (win0_7.rect t)).set ↔ _
  rw [View.set_slice_whole, Rect.mem_set_unit]
  exact Iff.rfl

/-- THE ARRAY after the region: at column `i 1`, the sum of the pre-activation over all rows (the last point's block is the whole array). -/
theorem arr_sum (c : Dev nD) : (dat0 (F := Ideal) V c).arrAt 7 cfg0.N = sumArr V c :=
  (dat0 (F := Ideal) V c).arrAt_eq_of_cover 7 (sumArr V c) (flushed7_eq V c) fun i => by
    have hi0 : (i 0).val < 1 := (i 0).isLt
    have hi1 : (i 1).val < 64 := (i 1).isLt
    obtain ⟨-, -, -, -, -, -, -, ⟨e0, e1⟩, -⟩ := idx_facts ⟨99, h99⟩
    refine ⟨⟨99, h99⟩, (flush0_7 ⟨99, h99⟩).mpr rfl, ?_⟩
    rw [mem_blk7]
    intro a
    match a with
    | ⟨0, _⟩ =>
      show win0_7.index ⟨99, h99⟩ (0 : Fin 2) * 1 ≤ (i 0).val ∧ (i 0).val < win0_7.index ⟨99, h99⟩ (0 : Fin 2) * 1 + 1
      rw [e0]
      omega
    | ⟨1, _⟩ =>
      show win0_7.index ⟨99, h99⟩ (1 : Fin 2) * 64 ≤ (i 1).val ∧ (i 1).val < win0_7.index ⟨99, h99⟩ (1 : Fin 2) * 64 + 64
      rw [e1]
      omega

/-- After the body at a first point output 8's buffer holds the reset value updated by that point's block; at a later
    point, what the point before left updated by this point's block. -/
theorem outs8_A (c : Dev nD) (t : Fin cfg0.N) (h0 : t.val % 100 = 0) :
    (outsAt0 V c t.val t.isLt).2.2 = k0_pay2 (F := Ideal) (rawblk V c t) (k0_pay4 (F := Ideal)) := by
  rw [outsAt0_A V c t h0]
  dsimp only
  exact out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (xblk V c t) (pblk V c t) (wblk V c t) (bblk V c t) (wpblk V c t) (bpblk V c t)

theorem outs8_B (c : Dev nD) (t : Fin cfg0.N) (h0 : ¬t.val % 100 = 0) :
    (outsAt0 V c t.val t.isLt).2.2 = k0_pay2 (F := Ideal) (rawblk V c t)
      (outsAt0 V c (t.val - 1) (Nat.lt_of_le_of_lt (Nat.sub_le _ _) t.isLt)).2.2 := by
  rw [outsAt0_B V c t h0]
  dsimp only
  exact out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (xblk V c t) (pblk V c t) (wblk V c t) (bblk V c t) (wpblk V c t) (bpblk V c t) (outsAt0 V c (t.val - 1) (Nat.lt_of_le_of_lt (Nat.sub_le _ _) t.isLt)).2.1 (outsAt0 V c (t.val - 1) (Nat.lt_of_le_of_lt (Nat.sub_le _ _) t.isLt)).2.2

/-- After the LAST point output 8's buffer holds, at column `i 1`, the sum over ALL rows of the pre-activation's square: the fold
    over the hundred points is zero plus the hundred tiles' column sums, and the tiles partition the rows. -/
theorem sumsq_last (c : Dev nD) (i : S1x64.Idx) :
    (outsAt0 V c 99 h99).2.2 i = ∑ n : Fin 1000000, raw V c n (i 1) * raw V c n (i 1) := by
  have e := Pipeline.eq_accAt_of_mod (fun n h => (outsAt0 V c n h).2.2)
    100 (fun n h => k0_pay2 (F := Ideal) (rawblk V c ⟨n, h⟩) (k0_pay4 (F := Ideal)))
    (fun n h acc => k0_pay2 (F := Ideal) (rawblk V c ⟨n, h⟩) acc)
    (fun n h e => outs8_A V c ⟨n, h⟩ e) (fun n h e => outs8_B V c ⟨n + 1, h⟩ e) (by decide) 99 h99 h99
  refine (congrFun e i).trans ?_
  refine (Pipeline.accAt_add_apply _ _ (fun _ => (0 : EReal))
    (fun s (j : S1x64.Idx) => tileSum (fun n => raw V c n (j 1) * raw V c n (j 1)) s) 0 99 ?_ ?_ 99 le_rfl h99 i).trans ?_
  · intro h j
    obtain ⟨z, q, rfl⟩ : ∃ (z : Fin 1) (q : Fin 64), j = ix2 z q := ⟨j 0, j 1, eq_ix2 j⟩
    obtain rfl : z = 0 := Subsingleton.elim _ _
    show k0_pay2 (F := Ideal) (rawblk V c ⟨0, h⟩) (k0_pay4 (F := Ideal)) (ix2 0 q)
      = 0 + tileSum (fun n => raw V c n q * raw V c n q) 0
    rw [pay2_apply, pay4_apply]
    exact congrArg (0 + ·) (tile_colsum _ ⟨0, h⟩ _ fun p => by rw [rawblk_apply])
  · intro n h acc j _ _
    obtain ⟨z, q, rfl⟩ : ∃ (z : Fin 1) (q : Fin 64), j = ix2 z q := ⟨j 0, j 1, eq_ix2 j⟩
    obtain rfl : z = 0 := Subsingleton.elim _ _
    show k0_pay2 (F := Ideal) (rawblk V c ⟨n, h⟩) acc (ix2 0 q)
      = acc (ix2 0 q) + tileSum (fun m => raw V c m q * raw V c m q) n
    rw [pay2_apply]
    exact congrArg (acc (ix2 0 q) + ·) (tile_colsum _ ⟨n, h⟩ _ fun p => by rw [rawblk_apply])
  · show (0 : EReal) + ∑ s ∈ Finset.range 100, tileSum (fun n => raw V c n (i 1) * raw V c n (i 1)) (0 + s) = _
    rw [zero_add]
    simp only [Nat.zero_add]
    exact Cert.TileSum.sum_tiles (fun n => raw V c n (i 1) * raw V c n (i 1))

/-- The whole [1,64] array is window 8's one block. -/
theorem blk8_read (t : Fin cfg0.N) (G : Vec Ideal S1x64 .f32) (z : Fin 1) (q : Fin 64) :
    (((cfg0.win 8).blk t).view.read (Elt Ideal) G : Vec Ideal S1x64 .f32) (ix2 z q) = G (ix2 z q) := by
  obtain ⟨-, -, -, -, -, -, -, -, ⟨e0, e1⟩⟩ := idx_facts t
  rw [View.read_apply]
  refine congrArg G ?_
  funext a
  apply Fin.ext
  match a with
  | ⟨0, _⟩ => show win0_8.index t (0 : Fin 2) * 1 + 1 * z.val = z.val; rw [e0]; omega
  | ⟨1, _⟩ => show win0_8.index t (1 : Fin 2) * 64 + 1 * q.val = q.val; rw [e1]; omega

/-- The one write-back through window 8, after the last point, writes the sum over all rows. -/
theorem flushed8_eq (c : Dev nD) (t : Fin cfg0.N) (hf : (cfg0.win 8).flush t = true) :
    (dat0 (F := Ideal) V c).flushed 8 t = ((cfg0.win 8).blk t).view.read (Elt Ideal) (sumsqArr V c) := by
  have hN := N100
  have ht : t.val = 99 := by have := (flush0_8 t).mp hf; have := t.isLt; omega
  show (cfg0.win 8).cut (grid0.coords t) ((dat0 (F := Ideal) V c).after 8 t) = _
  rw [after0_8, outs_congr V c t.val 99 t.isLt h99 ht]
  funext j
  obtain ⟨z, q, rfl⟩ : ∃ (z : Fin 1) (q : Fin 64), j = ix2 z q := ⟨j 0, j 1, eq_ix2 j⟩
  show (outsAt0 V c 99 h99).2.2 (ix2 z q)
    = (((cfg0.win 8).blk t).view.read (Elt Ideal) (sumsqArr V c) : Vec Ideal S1x64 .f32) (ix2 z q)
  rw [blk8_read, sumsq_last]
  rfl

theorem mem_blk8 (t : Fin cfg0.N) (i : S1x64.Idx) :
    i ∈ ((cfg0.win 8).blk t).view.set ↔ ∀ a : Fin 2, win0_8.index t a * S1x64.size a ≤ (i a).val
      ∧ (i a).val < win0_8.index t a * S1x64.size a + S1x64.size a := by
  show i ∈ ((View.whole main_v2_2).slice (win0_8.rect t)).set ↔ _
  rw [View.set_slice_whole, Rect.mem_set_unit]
  exact Iff.rfl

/-- THE ARRAY after the region: at column `i 1`, the sum of the pre-activation's square over all rows (the last point's block is the whole array). -/
theorem arr_sumsq (c : Dev nD) : (dat0 (F := Ideal) V c).arrAt 8 cfg0.N = sumsqArr V c :=
  (dat0 (F := Ideal) V c).arrAt_eq_of_cover 8 (sumsqArr V c) (flushed8_eq V c) fun i => by
    have hi0 : (i 0).val < 1 := (i 0).isLt
    have hi1 : (i 1).val < 64 := (i 1).isLt
    obtain ⟨-, -, -, -, -, -, -, -, ⟨e0, e1⟩⟩ := idx_facts ⟨99, h99⟩
    refine ⟨⟨99, h99⟩, (flush0_8 ⟨99, h99⟩).mpr rfl, ?_⟩
    rw [mem_blk8]
    intro a
    match a with
    | ⟨0, _⟩ =>
      show win0_8.index ⟨99, h99⟩ (0 : Fin 2) * 1 ≤ (i 0).val ∧ (i 0).val < win0_8.index ⟨99, h99⟩ (0 : Fin 2) * 1 + 1
      rw [e0]
      omega
    | ⟨1, _⟩ =>
      show win0_8.index ⟨99, h99⟩ (1 : Fin 2) * 64 ≤ (i 1).val ∧ (i 1).val < win0_8.index ⟨99, h99⟩ (1 : Fin 2) * 64 + 64
      rw [e1]
      omega

/-! ## The three result functions, unfolded -/

theorem posw_apply (c : Dev nD) (i : S1000000x64.Idx) : posw V c i
    = ((FloatOps.floor (F := Ideal) (φ := .f32) (P V c (ix2 (i 0) 0)) * Wp V c (ix2 0 (i 1))
        + FloatOps.floor (F := Ideal) (φ := .f32) (P V c (ix2 (i 0) 1)) * Wp V c (ix2 1 (i 1)))
        + FloatOps.floor (F := Ideal) (φ := .f32) (P V c (ix2 (i 0) 2)) * Wp V c (ix2 2 (i 1))) + Bp V c (ix2 0 (i 1)) := rfl

theorem sumArr_apply (c : Dev nD) (i : S1x64.Idx) : sumArr V c i = ∑ n : Fin 1000000, raw V c n (i 1) := rfl

theorem sumsqArr_apply (c : Dev nD) (i : S1x64.Idx) :
    sumsqArr V c i = ∑ n : Fin 1000000, raw V c n (i 1) * raw V c n (i 1) := rfl

end Cert.KernelIdeal.Reg0
-- ==== Proof.KReg1.lean ====
/-
  Region 1 of the program (the second tiled call): what its two output arrays hold after it, index by index.

  Writing X for the feature table [1000000, 64], Pw for the positional weights [1000000, 64], W for the square weight
  [64, 64] and B, Sc, Sh for the bias, scale and shift rows [1, 64], all as the region finds them, the region leaves

      feat (n, j) = ((∑ k, X (n, k) · W (k, j)) + B (0, j)) · Sc (0, j) + Sh (0, j)

  in its first output array and Pw (n, j) · feat (n, j) in its second. The grid has 100 points; point t works on rows
  10000 t … 10000 t + 9999, with the weight and the three rows resident; every point writes its two tiles back, and
  the 100 tiles cover the arrays. On extended reals the changes of float format are the identity and the matrix
  product into a zero accumulator is the finite sum over the contracted axis, so the tile a point stores is the
  restriction of the two functions above to its rows.
-/
import proofs.«430596_j44092134261327_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The matrix product at an index

The body contracts axis 1 of the row tile with axis 0 of the square weight; the product into a zero
accumulator, read at row `p` and column `q`, is the sum over the 64 contracted positions. -/

/-- On the left operand's free axis the index is the output's row. -/
theorem lhs_mm_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl

/-- On the left operand's contracted axis the index is the contraction position. -/
theorem lhs_mm_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

/-- On the right operand's contracted axis the index is the contraction position. -/
theorem rhs_mm_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

/-- On the right operand's free axis the index is the output's column. -/
theorem rhs_mm_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product of a row tile and the weight into a zero accumulator, at row `p` and column `q`. -/
theorem mm_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  refine (Ideal.matmul_constant_zero_apply dot_S10000x64_S64x64_S10000x64_1_0_0_1_n_n none x w (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs_mm_0 _ _
      | ⟨1, _⟩ => exact (lhs_mm_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (rhs_mm_0 _ _).trans hk
      | ⟨1, _⟩ => exact rhs_mm_1 _ _)
  rw [el, er]

/-! ## The body's two payloads at an index -/

/-- The first stored value at row `p`, column `q` of the tile: the product plus the bias row, times the scale
    row, plus the shift row (the format changes are the identity on extended reals; each `[1,64]` row is
    broadcast down the tile). -/
theorem pay1_apply (x0 : Vec Ideal S10000x64 .f32) (x2 : Vec Ideal S64x64 .f32) (x3 x4 x5 : Vec Ideal S1x64 .f32)
    (p : Fin 10000) (q : Fin 64) :
    k1_pay1 (F := Ideal) x0 x2 x3 x4 x5 (ix2 p q)
      = ((∑ k : Fin 64, (x0 (ix2 p k) : EReal) * (x2 (ix2 k q) : EReal)) + (x3 (ix2 (0 : Fin 1) q) : EReal)) * (x4 (ix2 (0 : Fin 1) q) : EReal)
        + (x5 (ix2 (0 : Fin 1) q) : EReal) := by
  unfold k1_pay1
  show (addf (mulf (addf (matmul dot_S10000x64_S64x64_S10000x64_1_0_0_1_n_n none (truncf .bf16 x0 bitsLt_bf16_f32) (truncf .bf16 x2 bitsLt_bf16_f32) (constant (F := Ideal) S10000x64 .f32 0x00000000#32))
      (broadcastTo S10000x64 (shapeCast S1x64 x3 shapeCasts_S1x64_S1x64) broadcasts_S1x64_S10000x64))
      (broadcastTo S10000x64 (shapeCast S1x64 x4 shapeCasts_S1x64_S1x64) broadcasts_S1x64_S10000x64))
      (broadcastTo S10000x64 (shapeCast S1x64 x5 shapeCasts_S1x64_S1x64) broadcasts_S1x64_S10000x64) : FVec Ideal S10000x64 .f32) (ix2 p q) = _
  rw [addf_apply, mulf_apply, addf_apply, mm_apply]
  rw [broadcastTo_1b_ab_apply, broadcastTo_1b_ab_apply, broadcastTo_1b_ab_apply]
  rw [shapeCast_self, shapeCast_self, shapeCast_self]
  rfl

/-- The second stored value: the positional weight times the first. -/
theorem pay2_apply (x0 : Vec Ideal S10000x64 .f32) (x2 : Vec Ideal S64x64 .f32) (x3 x4 x5 : Vec Ideal S1x64 .f32)
    (x1 : Vec Ideal S10000x64 .f32) (p : Fin 10000) (q : Fin 64) :
    k1_pay2 (F := Ideal) x0 x2 x3 x4 x5 x1 (ix2 p q) = (x1 (ix2 p q) : EReal) * k1_pay1 (F := Ideal) x0 x2 x3 x4 x5 (ix2 p q) := by
  unfold k1_pay2
  show (mulf (shapeCast S10000x64 x1 shapeCasts_S10000x64_S10000x64) (k1_pay1 (F := Ideal) x0 x2 x3 x4 x5) : FVec Ideal S10000x64 .f32) (ix2 p q) = _
  rw [mulf_apply, shapeCast_self]

/-! ## The region's input arrays and its result, index by index -/

/-- The feature table as the region finds it. -/
abbrev arrX (c : Dev nD) : S1000000x64.Idx → EReal := V c main_arg1
/-- The positional weights as the region finds them. -/
abbrev arrPw (c : Dev nD) : S1000000x64.Idx → EReal := V c main_v2_0
/-- The square weight. -/
abbrev arrW (c : Dev nD) : S64x64.Idx → EReal := V c main_arg3
/-- The bias row. -/
abbrev arrB (c : Dev nD) : S1x64.Idx → EReal := V c main_v19
/-- The scale row. -/
abbrev arrSc (c : Dev nD) : S1x64.Idx → EReal := V c main_v15
/-- The shift row. -/
abbrev arrSh (c : Dev nD) : S1x64.Idx → EReal := V c main_v18

/-- Row `n` of the feature table through the weight, plus the bias: one output row before scale and shift. -/
def raw (c : Dev nD) (n : Fin 1000000) (j : Fin 64) : EReal :=
  (∑ k : Fin 64, arrX V c (ix2 n k) * arrW V c (ix2 k j)) + arrB V c (ix2 (0 : Fin 1) j)

/-- The first output array: every row scaled and shifted column by column. -/
def feat (c : Dev nD) (i : S1000000x64.Idx) : EReal :=
  raw V c (i 0) (i 1) * arrSc V c (ix2 (0 : Fin 1) (i 1)) + arrSh V c (ix2 (0 : Fin 1) (i 1))

/-! ## Blocks: which rows of the arrays a grid point sees

The grid has 100 points; point `t` stages rows `10000 t … 10000 t + 9999` of the three row-tiled
arrays and the whole of the weight and of the three `[1,64]` rows. -/

theorem hz : (![0, 0] : Fin 2 → Nat) = fun _ => 0 := funext fun a => by fin_cases a <;> rfl

/-- The windows' index maps over the grid: the row-tiled windows are at block `(t, 0)`, the resident ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The array row that row `p` of point `t`'s tile is. -/
def rowOf (t : Fin cfg1.N) (p : Fin 10000) : Fin 1000000 :=
  ⟨10000 * t.val + p.val, by have h : t.val < 100 := lt_of_lt_of_eq t.isLt N_1; have := p.isLt; omega⟩

/-- The feature window's tile at point `t`: rows `10000 t + p` of the feature table. -/
theorem blk0_apply (c : Dev nD) (t : Fin cfg1.N) (p : Fin 10000) (q : Fin 64) :
    (iblk1 V c 0 t : Vec Ideal S10000x64 .f32) (ix2 p q) = arrX V c (ix2 (rowOf t p) q) := by
  obtain ⟨e0, e1, -⟩ := idx_facts t
  show arrX V c (((cfg1.win 0).blk t).view.emb (ix2 p q)) = _
  refine congrArg _ (funext fun a => Fin.ext ?_)
  match a with
  | ⟨0, _⟩ => show win1_0.index t (0 : Fin 2) * 10000 + 1 * p.val = 10000 * t.val + p.val; omega
  | ⟨1, _⟩ => show win1_0.index t (1 : Fin 2) * 64 + 1 * q.val = q.val; omega

/-- The positional-weight window's tile at point `t`: the same rows of the positional weights. -/
theorem blk1_apply (c : Dev nD) (t : Fin cfg1.N) (p : Fin 10000) (q : Fin 64) :
    (iblk1 V c 1 t : Vec Ideal S10000x64 .f32) (ix2 p q) = arrPw V c (ix2 (rowOf t p) q) := by
  obtain ⟨-, -, e0, e1, -⟩ := idx_facts t
  show arrPw V c (((cfg1.win 1).blk t).view.emb (ix2 p q)) = _
  refine congrArg _ (funext fun a => Fin.ext ?_)
  match a with
  | ⟨0, _⟩ => show win1_1.index t (0 : Fin 2) * 10000 + 1 * p.val = 10000 * t.val + p.val; omega
  | ⟨1, _⟩ => show win1_1.index t (1 : Fin 2) * 64 + 1 * q.val = q.val; omega

/-- The weight window's block is the whole weight at every point. -/
theorem blk2_apply (c : Dev nD) (t : Fin cfg1.N) (k : Fin 64) (q : Fin 64) :
    (iblk1 V c 2 t : Vec Ideal S64x64 .f32) (ix2 k q) = arrW V c (ix2 k q) := by
  obtain ⟨-, -, -, -, e0, e1, -⟩ := idx_facts t
  show arrW V c (((cfg1.win 2).blk t).view.emb (ix2 k q)) = _
  refine congrArg _ (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- The bias window's block is the whole bias row at every point. -/
theorem blk3_apply (c : Dev nD) (t : Fin cfg1.N) (q : Fin 64) :
    (iblk1 V c 3 t : Vec Ideal S1x64 .f32) (ix2 (0 : Fin 1) q) = arrB V c (ix2 (0 : Fin 1) q) := by
  obtain ⟨-, -, -, -, -, -, e0, e1, -⟩ := idx_facts t
  show arrB V c (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- The scale window's block is the whole scale row at every point. -/
theorem blk4_apply (c : Dev nD) (t : Fin cfg1.N) (q : Fin 64) :
    (iblk1 V c 4 t : Vec Ideal S1x64 .f32) (ix2 (0 : Fin 1) q) = arrSc V c (ix2 (0 : Fin 1) q) := by
  obtain ⟨-, -, -, -, -, -, -, -, e0, e1, -⟩ := idx_facts t
  show arrSc V c (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The shift window's block is the whole shift row at every point. -/
theorem blk5_apply (c : Dev nD) (t : Fin cfg1.N) (q : Fin 64) :
    (iblk1 V c 5 t : Vec Ideal S1x64 .f32) (ix2 (0 : Fin 1) q) = arrSh V c (ix2 (0 : Fin 1) q) := by
  obtain ⟨-, -, -, -, -, -, -, -, -, -, e0, e1, -⟩ := idx_facts t
  show arrSh V c (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- Where the first output's tile at point `t` sits in its array. -/
theorem emb6 (t : Fin cfg1.N) (p : Fin 10000) (q : Fin 64) :
    (((cfg1.win 6).blk t).view.emb (ix2 p q) : S1000000x64.Idx) = ix2 (rowOf t p) q := by
  obtain ⟨-, -, -, -, -, -, -, -, -, -, -, -, e0, e1, -⟩ := idx_facts t
  refine funext fun a => Fin.ext ?_
  match a with
  | ⟨0, _⟩ => show win1_6.index t (0 : Fin 2) * 10000 + 1 * p.val = 10000 * t.val + p.val; omega
  | ⟨1, _⟩ => show win1_6.index t (1 : Fin 2) * 64 + 1 * q.val = q.val; omega

/-- Where the second output's tile at point `t` sits in its array. -/
theorem emb7 (t : Fin cfg1.N) (p : Fin 10000) (q : Fin 64) :
    (((cfg1.win 7).blk t).view.emb (ix2 p q) : S1000000x64.Idx) = ix2 (rowOf t p) q := by
  obtain ⟨-, -, -, -, -, -, -, -, -, -, -, -, -, -, e0, e1⟩ := idx_facts t
  refine funext fun a => Fin.ext ?_
  match a with
  | ⟨0, _⟩ => show win1_7.index t (0 : Fin 2) * 10000 + 1 * p.val = 10000 * t.val + p.val; omega
  | ⟨1, _⟩ => show win1_7.index t (1 : Fin 2) * 64 + 1 * q.val = q.val; omega

/-! ## What a point leaves in the output tiles -/

/-- The first stored tile at point `t`, entry by entry, is `feat` at the tile's rows. -/
theorem tile_feat (c : Dev nD) (t : Fin cfg1.N) (p : Fin 10000) (q : Fin 64) :
    k1_pay1 (F := Ideal) (iblk1 V c 0 t) (iblk1 V c 2 t) (iblk1 V c 3 t) (iblk1 V c 4 t) (iblk1 V c 5 t) (ix2 p q)
      = feat V c (ix2 (rowOf t p) q) := by
  refine (pay1_apply (iblk1 V c 0 t) (iblk1 V c 2 t) (iblk1 V c 3 t) (iblk1 V c 4 t) (iblk1 V c 5 t) p q).trans ?_
  show _ = ((∑ k : Fin 64, arrX V c (ix2 (rowOf t p) k) * arrW V c (ix2 k q)) + arrB V c (ix2 (0 : Fin 1) q)) * arrSc V c (ix2 (0 : Fin 1) q)
      + arrSh V c (ix2 (0 : Fin 1) q)
  refine congrArg₂ (· + ·) (congrArg₂ (· * ·) (congrArg₂ (· + ·) (Finset.sum_congr rfl fun k _ =>
    congrArg₂ (· * ·) (blk0_apply V c t p k) (blk2_apply V c t k q)) (blk3_apply V c t q)) (blk4_apply V c t q)) (blk5_apply V c t q)

/-- The second stored tile at point `t`, entry by entry: the positional weight times `feat`. -/
theorem tile_tmp (c : Dev nD) (t : Fin cfg1.N) (p : Fin 10000) (q : Fin 64) :
    k1_pay2 (F := Ideal) (iblk1 V c 0 t) (iblk1 V c 2 t) (iblk1 V c 3 t) (iblk1 V c 4 t) (iblk1 V c 5 t) (iblk1 V c 1 t) (ix2 p q)
      = arrPw V c (ix2 (rowOf t p) q) * feat V c (ix2 (rowOf t p) q) := by
  refine (pay2_apply (iblk1 V c 0 t) (iblk1 V c 2 t) (iblk1 V c 3 t) (iblk1 V c 4 t) (iblk1 V c 5 t) (iblk1 V c 1 t) p q).trans ?_
  exact congrArg₂ (· * ·) (blk1_apply V c t p q) (tile_feat V c t p q)

/-- What point `t` writes back to the first output's array is block `t` of `feat`. -/
theorem flushed6_eq (c : Dev nD) (t : Fin cfg1.N) :
    (dat1 (F := Ideal) V c).flushed 6 t = ((cfg1.win 6).blk t).view.read (Elt Ideal) (fun i => feat V c i) := by
  show (cfg1.win 6).cut (grid1.coords t) ((dat1 (F := Ideal) V c).after 6 t) = _
  rw [after1_6]
  unfold out1_6
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show k1_pay1 (F := Ideal) (iblk1 V c 0 t) (iblk1 V c 2 t) (iblk1 V c 3 t) (iblk1 V c 4 t) (iblk1 V c 5 t) (ix2 p q)
    = feat V c (((cfg1.win 6).blk t).view.emb (ix2 p q))
  rw [emb6 t p q]
  exact tile_feat V c t p q

/-- What point `t` writes back to the second output's array is block `t` of the positional weight times `feat`. -/
theorem flushed7_eq (c : Dev nD) (t : Fin cfg1.N) :
    (dat1 (F := Ideal) V c).flushed 7 t = ((cfg1.win 7).blk t).view.read (Elt Ideal) (fun i => arrPw V c i * feat V c i) := by
  show (cfg1.win 7).cut (grid1.coords t) ((dat1 (F := Ideal) V c).after 7 t) = _
  rw [after1_7]
  unfold out1_7
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show k1_pay2 (F := Ideal) (iblk1 V c 0 t) (iblk1 V c 2 t) (iblk1 V c 3 t) (iblk1 V c 4 t) (iblk1 V c 5 t) (iblk1 V c 1 t) (ix2 p q)
    = arrPw V c (((cfg1.win 7).blk t).view.emb (ix2 p q)) * feat V c (((cfg1.win 7).blk t).view.emb (ix2 p q))
  rw [emb7 t p q]
  exact tile_tmp V c t p q

/-! ## The tiles cover the arrays -/

/-- An index of the first output's array is in point `t`'s block iff each coordinate is in the block's range. -/
theorem mem_blk6 (t : Fin cfg1.N) (i : S1000000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v20_0).slice (win1_6.rect t)).set ↔ _
  rw [View.set_slice_whole, Rect.mem_set_unit]
  exact Iff.rfl

/-- The same for the second output's array. -/
theorem mem_blk7 (t : Fin cfg1.N) (i : S1000000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v20_1).slice (win1_7.rect t)).set ↔ _
  rw [View.set_slice_whole, Rect.mem_set_unit]
  exact Iff.rfl

/-- The grid point whose tile holds row `r`: `r / 10000`. -/
def pointOf (i : S1000000x64.Idx) : Fin cfg1.N :=
  ⟨(i 0).val / 10000, by have h : (i 0).val < 1000000 := (i 0).isLt; rw [show cfg1.N = 100 from N_1]; omega⟩

/-- Every index of the first output's array is in the block of the point that holds its row. -/
theorem cover6 (i : S1000000x64.Idx) : ∃ t : Fin cfg1.N, (cfg1.win 6).flush t = true ∧ i ∈ ((cfg1.win 6).blk t).view.set := by
  have hi0 : (i 0).val < 1000000 := (i 0).isLt
  have hi1 : (i 1).val < 64 := (i 1).isLt
  have ht : (pointOf i).val = (i 0).val / 10000 := rfl
  obtain ⟨-, -, -, -, -, -, -, -, -, -, -, -, e0, e1, -⟩ := idx_facts (pointOf i)
  refine ⟨pointOf i, flush1_6 (pointOf i), ?_⟩
  rw [mem_blk6]
  intro a
  match a with
  | ⟨0, _⟩ => show win1_6.index (pointOf i) (0 : Fin 2) * 10000 ≤ (i 0).val ∧ (i 0).val < win1_6.index (pointOf i) (0 : Fin 2) * 10000 + 10000; omega
  | ⟨1, _⟩ => show win1_6.index (pointOf i) (1 : Fin 2) * 64 ≤ (i 1).val ∧ (i 1).val < win1_6.index (pointOf i) (1 : Fin 2) * 64 + 64; omega

/-- The same for the second output's array. -/
theorem cover7 (i : S1000000x64.Idx) : ∃ t : Fin cfg1.N, (cfg1.win 7).flush t = true ∧ i ∈ ((cfg1.win 7).blk t).view.set := by
  have hi0 : (i 0).val < 1000000 := (i 0).isLt
  have hi1 : (i 1).val < 64 := (i 1).isLt
  have ht : (pointOf i).val = (i 0).val / 10000 := rfl
  obtain ⟨-, -, -, -, -, -, -, -, -, -, -, -, -, -, e0, e1⟩ := idx_facts (pointOf i)
  refine ⟨pointOf i, flush1_7 (pointOf i), ?_⟩
  rw [mem_blk7]
  intro a
  match a with
  | ⟨0, _⟩ => show win1_7.index (pointOf i) (0 : Fin 2) * 10000 ≤ (i 0).val ∧ (i 0).val < win1_7.index (pointOf i) (0 : Fin 2) * 10000 + 10000; omega
  | ⟨1, _⟩ => show win1_7.index (pointOf i) (1 : Fin 2) * 64 ≤ (i 1).val ∧ (i 1).val < win1_7.index (pointOf i) (1 : Fin 2) * 64 + 64; omega

/-! ## The two output arrays after the region -/

/-- After the region the first output array holds `feat`: each row of the feature table through the weight,
    plus the bias, scaled and shifted column by column. -/
theorem arr_feat (c : Dev nD) : (dat1 (F := Ideal) V c).arrAt 6 cfg1.N = fun i => feat V c i :=
  (dat1 (F := Ideal) V c).arrAt_eq_of_cover 6 (fun i => feat V c i) (fun t _ => flushed6_eq V c t) (cover6)

/-- After the region the second output array holds the positional weight times `feat`, entry by entry. -/
theorem arr_tmp (c : Dev nD) : (dat1 (F := Ideal) V c).arrAt 7 cfg1.N = fun i => arrPw V c i * feat V c i :=
  (dat1 (F := Ideal) V c).arrAt_eq_of_cover 7 (fun i => arrPw V c i * feat V c i) (fun t _ => flushed7_eq V c t) (cover7)

/-! ## Which array each window stages -/

theorem arrRef_0 : Pipeline.arrRef spec1 0 = main_arg1 := rfl
theorem arrRef_1 : Pipeline.arrRef spec1 1 = main_v2_0 := rfl
theorem arrRef_2 : Pipeline.arrRef spec1 2 = main_arg3 := rfl
theorem arrRef_3 : Pipeline.arrRef spec1 3 = main_v19 := rfl
theorem arrRef_4 : Pipeline.arrRef spec1 4 = main_v15 := rfl
theorem arrRef_5 : Pipeline.arrRef spec1 5 = main_v18 := rfl
theorem arrRef_6 : Pipeline.arrRef spec1 6 = main_v20_0 := rfl
theorem arrRef_7 : Pipeline.arrRef spec1 7 = main_v20_1 := rfl

end Cert.KernelIdeal.Reg1

end
-- ==== Proof.KHostA.lean ====
/-
  What the first two host stretches of @main leave in the buffers regions 0 and 1 read.

  Before region 0 the host only reshapes two [64] arguments to [1, 64] rows; every argument is as launched. Between
  regions 0 and 1 the host computes, entry by entry of two [1, 64] rows region 0 left, a quotient by the row count, a
  clamped difference, an inverse square root, and from these a scale row and a shift row; it also reshapes one more
  argument. Each theorem reads one buffer at region entry: an argument as the launch memory, a reshaped row at (0, j)
  as the argument at j, the scale and the shift at (0, j) as closed expressions in the launch memory and region 0's
  results at (0, j). An index of a [1, 64] row is always (0, j) (`eq_ix2_zero`), and the `_at` forms restate the row
  facts at an arbitrary index.
-/
import proofs.«430596_j44092134261327_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
set_option maxRecDepth 16384
noncomputable section
namespace Cert.KernelIdeal.HostA
open Cert.KernelIdeal Cert.KernelIdeal.Gen
open Idealize.ShloMosaic Idealize.ShloMosaic.TcCoe Idealize.ShloMosaic.ValueIdx Idealize.SL.Sem
variable (m : (ℓ : Loc nD τ sig) → Buf (Elt Ideal) ℓ) (ρ : Dev nD → PrngReg)

/-! ## Two small facts about [1, 64] rows -/

/-- An index of a [1, 64] array is (0, its second coordinate): the first axis has one position. -/
theorem eq_ix2_zero (i : S1x64.Idx) : i = ix2 (0 : Fin 1) (i 1 : Fin 64) := by
  funext d
  match d with
  | ⟨0, _⟩ =>
    have h : (i 0).val < 1 := (i 0).isLt
    exact Fin.ext (by show (i 0).val = 0; omega)
  | ⟨1, _⟩ => rfl

/-- A fact about every index of a [1, 64] row follows from the fact at every (0, j). -/
theorem row_ext {P : S1x64.Idx → Prop} (h : ∀ j : Fin 64, P (ix2 (0 : Fin 1) j)) : ∀ i : S1x64.Idx, P i :=
  fun i => Eq.subst (motive := P) (eq_ix2_zero i).symm (h (i 1))

/-- A [64] vector reshaped to [1, 64] reads, at (0, j), the vector at j: the two row-major positions agree. -/
theorem reshape_row (x : S64.Idx → EReal) (j : Fin 64) :
    shapeCast S1x64 x shapeCasts_S64_S1x64 (ix2 0 j) = x (ix1 j) :=
  shapeCast_apply (s := S64) (t := S1x64) x shapeCasts_S64_S1x64 (ix2 0 j) (ix1 j) (by
    rw [Shape.rowMajor_val_one, Shape.rowMajor_val_two]
    show j.val = 0 * 64 + j.val
    omega)

/-! ## Region 0's entry: after the two reshapes, every argument is as launched -/

theorem W1_main_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

theorem W1_main_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

theorem W1_main_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

theorem W1_main_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

theorem W1_main_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

theorem W1_main_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

theorem W1_main_arg7 (c : Dev nD) : W1 m ρ c (Proc.devRef .tc main_arg7) = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))

theorem W1_main_arg8 (c : Dev nD) : W1 m ρ c (Proc.devRef .tc main_arg8) = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    repeat' apply And.intro
    all_goals exact StableHlo.devRef_ne_of_ne (by decide)))

/-- Region 0 is entered with argument 0 as launched. -/
theorem V1_main_arg0 (c : Dev nD) : V1 m ρ c main_arg0 = m ((c : Thread nD τ).loc main_arg0) := W1_main_arg0 m ρ c

/-- Region 0 is entered with argument 1 as launched. -/
theorem V1_main_arg1 (c : Dev nD) : V1 m ρ c main_arg1 = m ((c : Thread nD τ).loc main_arg1) := W1_main_arg1 m ρ c

/-- Region 0 is entered with argument 3 as launched. -/
theorem V1_main_arg3 (c : Dev nD) : V1 m ρ c main_arg3 = m ((c : Thread nD τ).loc main_arg3) := W1_main_arg3 m ρ c

/-- Region 0 is entered with argument 7 as launched. -/
theorem V1_main_arg7 (c : Dev nD) : V1 m ρ c main_arg7 = m ((c : Thread nD τ).loc main_arg7) := W1_main_arg7 m ρ c

/-- Region 0 is entered with %0 holding argument 4 as a [1, 64] row. -/
theorem V1_main_v0 (c : Dev nD) (j : Fin 64) :
    (V1 m ρ c main_v0 : S1x64.Idx → EReal) (ix2 0 j) = (m ((c : Thread nD τ).loc main_arg4) : S64.Idx → EReal) (ix1 j) := by
  have e : (V1 m ρ c main_v0 : S1x64.Idx → EReal)
      = shapeCast S1x64 (m ((c : Thread nD τ).loc main_arg4) : S64.Idx → EReal) shapeCasts_S64_S1x64 := by
    show StableHlo.after hostOps0 (W0 m ρ c) (Proc.devRef .tc main_v0) = _
    after_results
    rfl
  rw [e]
  exact reshape_row _ j

/-- Region 0 is entered with %1 holding argument 8 as a [1, 64] row. -/
theorem V1_main_v1 (c : Dev nD) (j : Fin 64) :
    (V1 m ρ c main_v1 : S1x64.Idx → EReal) (ix2 0 j) = (m ((c : Thread nD τ).loc main_arg8) : S64.Idx → EReal) (ix1 j) := by
  have e : (V1 m ρ c main_v1 : S1x64.Idx → EReal)
      = shapeCast S1x64 (m ((c : Thread nD τ).loc main_arg8) : S64.Idx → EReal) shapeCasts_S64_S1x64 := by
    show StableHlo.after hostOps0 (W0 m ρ c) (Proc.devRef .tc main_v1) = _
    after_results
    rfl
  rw [e]
  exact reshape_row _ j

/-! ## Region 0's exit: the arguments it reads through a window, and those it does not touch, are as launched -/

theorem W2_main_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_main_arg1 m ρ c)

theorem W2_main_arg3 (c : Dev nD) : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_main_arg3 m ρ c)

theorem W2_main_arg4 (c : Dev nD) : W2 m ρ c (Proc.devRef .tc main_arg4) = m ((c : Thread nD τ).loc main_arg4) :=
  (W2_of_ne m ρ c main_arg4 (by decide)).trans (W1_main_arg4 m ρ c)

theorem W2_main_arg5 (c : Dev nD) : W2 m ρ c (Proc.devRef .tc main_arg5) = m ((c : Thread nD τ).loc main_arg5) :=
  (W2_of_ne m ρ c main_arg5 (by decide)).trans (W1_main_arg5 m ρ c)

theorem W2_main_arg6 (c : Dev nD) : W2 m ρ c (Proc.devRef .tc main_arg6) = m ((c : Thread nD τ).loc main_arg6) :=
  (W2_of_ne m ρ c main_arg6 (by decide)).trans (W1_main_arg6 m ρ c)

/-! ## Region 1's entry: what the second host stretch leaves -/

/-- Region 1 is entered with argument 1 as launched. -/
theorem V3_main_arg1 (c : Dev nD) : V3 m ρ c main_arg1 = m ((c : Thread nD τ).loc main_arg1) :=
  (StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))).trans (W2_main_arg1 m ρ c)

/-- Region 1 is entered with argument 3 as launched. -/
theorem V3_main_arg3 (c : Dev nD) : V3 m ρ c main_arg3 = m ((c : Thread nD τ).loc main_arg3) :=
  (StableHlo.after_of_forall_not_mem (b := Proc.devRef .tc main_arg3) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))).trans (W2_main_arg3 m ρ c)

/-- Region 1 is entered with region 0's first result as region 0 left it. -/
theorem V3_main_v2_0 (c : Dev nD) : V3 m ρ c main_v2_0 = V2 m ρ c main_v2_0 :=
  StableHlo.after_of_forall_not_mem (b := Proc.devRef .tc main_v2_0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- Region 1 is entered with %19 holding argument 4 as a [1, 64] row. -/
theorem V3_main_v19 (c : Dev nD) (j : Fin 64) :
    (V3 m ρ c main_v19 : S1x64.Idx → EReal) (ix2 0 j) = (m ((c : Thread nD τ).loc main_arg4) : S64.Idx → EReal) (ix1 j) := by
  have e : (V3 m ρ c main_v19 : S1x64.Idx → EReal)
      = shapeCast S1x64 (W2 m ρ c (Proc.devRef .tc main_arg4) : S64.Idx → EReal) shapeCasts_S64_S1x64 := by
    show StableHlo.after hostOps1 (W2 m ρ c) (Proc.devRef .tc main_v19) = _
    after_results
    rfl
  rw [e, W2_main_arg4]
  exact reshape_row _ j

/-! ## The statistics the second host stretch computes from region 0's column sums

Write `S` and `Q` for an entry of the two [1, 64] rows region 0 leaves in its second and third results (what those
rows are is not decided here). With `N` the float 1000000, the host stretch computes `S / N` (named `mean` below),
`Q / N - (S / N)²` clamped below at zero, the inverse square root of that plus 1e-3 (named `invStd`), and then the
scale `γ · invStd` and the shift `β - mean · scale`, γ and β being arguments 5 and 6. -/

/-- The row count 1000000 as a float. -/
def count : EReal := Ideal.ofBits .f32 0x49742400#32

/-- The stabiliser 1e-3 as a float. -/
def eps : EReal := Ideal.ofBits .f32 0x3A83126F#32

/-- `S / N`: a mean over the N rows when `S` is a sum over them. -/
def mean (S : EReal) : EReal := Ideal.div S count

/-- `1 / √(max (Q / N - (S / N)²) 0 + 1e-3)`: an inverse standard deviation when `S` and `Q` are the sums of the
    entries and of their squares. -/
def invStd (S Q : EReal) : EReal :=
  Ideal.rsqrt (max (Ideal.div Q count - mean S * mean S) (Ideal.ofBits .f32 0x00000000#32) + eps)

theorem count_def : count = Ideal.ofBits .f32 0x49742400#32 := rfl
theorem eps_def : eps = Ideal.ofBits .f32 0x3A83126F#32 := rfl
theorem mean_def (S : EReal) : mean S = Ideal.div S (Ideal.ofBits .f32 0x49742400#32) := rfl
theorem invStd_def (S Q : EReal) :
    invStd S Q = Ideal.rsqrt (max (Ideal.div Q (Ideal.ofBits .f32 0x49742400#32)
      - Ideal.div S (Ideal.ofBits .f32 0x49742400#32) * Ideal.div S (Ideal.ofBits .f32 0x49742400#32))
      (Ideal.ofBits .f32 0x00000000#32) + Ideal.ofBits .f32 0x3A83126F#32) := rfl

/-- The [1, 64] row every entry of which is the float of the given word. -/
def splat (w : BitVec 32) : FVec Ideal S1x64 .f32 :=
  broadcastInDim S1x64 ![] bcast_S_S1x64 (constant (F := Ideal) S_ .f32 w)

/-- The row of means, as the host stretch computes it. -/
def meanRow (s : FVec Ideal S1x64 .f32) : FVec Ideal S1x64 .f32 := Host.divf s (splat 0x49742400#32)

/-- The row of inverse standard deviations, as the host stretch computes it. -/
def invRow (s q : FVec Ideal S1x64 .f32) : FVec Ideal S1x64 .f32 :=
  Host.rsqrt (addf (maximumf (subf (Host.divf q (splat 0x49742400#32)) (mulf (meanRow s) (meanRow s)))
    (splat 0x00000000#32)) (splat 0x3A83126F#32))

/-- The row of scales, as the host stretch computes it from the [64] vector γ. -/
def scaleRow (g : FVec Ideal S64 .f32) (s q : FVec Ideal S1x64 .f32) : FVec Ideal S1x64 .f32 :=
  mulf (shapeCast S1x64 g shapeCasts_S64_S1x64) (invRow s q)

theorem meanRow_apply (s : FVec Ideal S1x64 .f32) (i : S1x64.Idx) : meanRow s i = mean (s i) := rfl

theorem invRow_apply (s q : FVec Ideal S1x64 .f32) (i : S1x64.Idx) : invRow s q i = invStd (s i) (q i) := rfl

theorem scaleRow_apply (g : FVec Ideal S64 .f32) (s q : FVec Ideal S1x64 .f32) (j : Fin 64) :
    scaleRow g s q (ix2 0 j) = g (ix1 j) * invStd (s (ix2 0 j)) (q (ix2 0 j)) := by
  show shapeCast S1x64 g shapeCasts_S64_S1x64 (ix2 0 j) * invRow s q (ix2 0 j) = _
  rw [reshape_row, invRow_apply]

/-- Region 1 is entered with %15 holding the scale: argument 5 times `invStd` of region 0's second and third results. -/
theorem V3_main_v15 (c : Dev nD) (j : Fin 64) :
    (V3 m ρ c main_v15 : S1x64.Idx → EReal) (ix2 0 j)
      = HMul.hMul (α := EReal) (β := EReal) (γ := EReal) ((m ((c : Thread nD τ).loc main_arg5) : S64.Idx → EReal) (ix1 j))
          (invStd ((V2 m ρ c main_v2_1 : S1x64.Idx → EReal) (ix2 0 j)) ((V2 m ρ c main_v2_2 : S1x64.Idx → EReal) (ix2 0 j))) := by
  have e : (V3 m ρ c main_v15 : S1x64.Idx → EReal)
      = scaleRow (W2 m ρ c (Proc.devRef .tc main_arg5)) (W2 m ρ c (Proc.devRef .tc main_v2_1)) (W2 m ρ c (Proc.devRef .tc main_v2_2)) := by
    show StableHlo.after hostOps1 (W2 m ρ c) (Proc.devRef .tc main_v15) = _
    after_results
    rfl
  rw [e, scaleRow_apply, W2_main_arg5]

/-- Region 1 is entered with %18 holding the shift: argument 6 less `mean` times the scale. -/
theorem V3_main_v18 (c : Dev nD) (j : Fin 64) :
    (V3 m ρ c main_v18 : S1x64.Idx → EReal) (ix2 0 j)
      = HSub.hSub (α := EReal) (β := EReal) (γ := EReal) ((m ((c : Thread nD τ).loc main_arg6) : S64.Idx → EReal) (ix1 j))
          (mean ((V2 m ρ c main_v2_1 : S1x64.Idx → EReal) (ix2 0 j))
            * HMul.hMul (α := EReal) (β := EReal) (γ := EReal) ((m ((c : Thread nD τ).loc main_arg5) : S64.Idx → EReal) (ix1 j))
                (invStd ((V2 m ρ c main_v2_1 : S1x64.Idx → EReal) (ix2 0 j)) ((V2 m ρ c main_v2_2 : S1x64.Idx → EReal) (ix2 0 j)))) := by
  have e : (V3 m ρ c main_v18 : S1x64.Idx → EReal)
      = subf (shapeCast S1x64 (W2 m ρ c (Proc.devRef .tc main_arg6) : S64.Idx → EReal) shapeCasts_S64_S1x64)
          (mulf (meanRow (W2 m ρ c (Proc.devRef .tc main_v2_1)))
            (scaleRow (W2 m ρ c (Proc.devRef .tc main_arg5)) (W2 m ρ c (Proc.devRef .tc main_v2_1)) (W2 m ρ c (Proc.devRef .tc main_v2_2)))) := by
    show StableHlo.after hostOps1 (W2 m ρ c) (Proc.devRef .tc main_v18) = _
    after_results_simp
    rfl
  rw [e, subf_apply, mulf_apply, reshape_row, meanRow_apply, scaleRow_apply, W2_main_arg5, W2_main_arg6]

/-! ## The row facts at an arbitrary index of the [1, 64] row -/

theorem V1_main_v0_at (c : Dev nD) (i : S1x64.Idx) :
    (V1 m ρ c main_v0 : S1x64.Idx → EReal) i = (m ((c : Thread nD τ).loc main_arg4) : S64.Idx → EReal) (ix1 (i 1)) := by
  revert i
  apply row_ext
  exact V1_main_v0 m ρ c

theorem V1_main_v1_at (c : Dev nD) (i : S1x64.Idx) :
    (V1 m ρ c main_v1 : S1x64.Idx → EReal) i = (m ((c : Thread nD τ).loc main_arg8) : S64.Idx → EReal) (ix1 (i 1)) := by
  revert i
  apply row_ext
  exact V1_main_v1 m ρ c

theorem V3_main_v19_at (c : Dev nD) (i : S1x64.Idx) :
    (V3 m ρ c main_v19 : S1x64.Idx → EReal) i = (m ((c : Thread nD τ).loc main_arg4) : S64.Idx → EReal) (ix1 (i 1)) := by
  revert i
  apply row_ext
  exact V3_main_v19 m ρ c

theorem V3_main_v15_at (c : Dev nD) (i : S1x64.Idx) :
    (V3 m ρ c main_v15 : S1x64.Idx → EReal) i
      = HMul.hMul (α := EReal) (β := EReal) (γ := EReal) ((m ((c : Thread nD τ).loc main_arg5) : S64.Idx → EReal) (ix1 (i 1)))
          (invStd ((V2 m ρ c main_v2_1 : S1x64.Idx → EReal) i) ((V2 m ρ c main_v2_2 : S1x64.Idx → EReal) i)) := by
  revert i
  apply row_ext
  exact V3_main_v15 m ρ c

theorem V3_main_v18_at (c : Dev nD) (i : S1x64.Idx) :
    (V3 m ρ c main_v18 : S1x64.Idx → EReal) i
      = HSub.hSub (α := EReal) (β := EReal) (γ := EReal) ((m ((c : Thread nD τ).loc main_arg6) : S64.Idx → EReal) (ix1 (i 1)))
          (mean ((V2 m ρ c main_v2_1 : S1x64.Idx → EReal) i)
            * HMul.hMul (α := EReal) (β := EReal) (γ := EReal) ((m ((c : Thread nD τ).loc main_arg5) : S64.Idx → EReal) (ix1 (i 1)))
                (invStd ((V2 m ρ c main_v2_1 : S1x64.Idx → EReal) i) ((V2 m ρ c main_v2_2 : S1x64.Idx → EReal) i))) := by
  revert i
  apply row_ext
  exact V3_main_v18 m ρ c

end Cert.KernelIdeal.HostA
-- ==== Proof.KArgs.lean ====
/-
  The kernel program's eleven argument arrays at launch, named once as arrays of extended reals (and one array of
  32-bit words, the segment ids) over the literal shapes.
-/
import proofs.«430596_j44092134261327_3_alg».proof.KernelIdeal
import proofs.«430596_j44092134261327_3_alg».proof.ReferenceIdeal
import proofs.«430596_j44092134261327_3_alg».proof.Pre_finite_inputs
import Idealize.ShloMosaic.PureOps.Ideal

noncomputable section

namespace Cert.KernelIdeal.KArgs

open Cert.KernelIdeal Idealize.ShloMosaic Idealize.ShloMosaic.TcCoe Idealize.SL.Sem

variable (m : (ℓ : Loc nD τ sig) → Buf (Elt Ideal) ℓ)

/-- points_xyz -/
abbrev a0 (c : Dev nD) : FVec Ideal Cert.ReferenceIdeal.S1000000x3 .f32 := m ((c : Thread nD τ).loc main_arg0)
/-- feat_all -/
abbrev a1 (c : Dev nD) : FVec Ideal Cert.ReferenceIdeal.S1000000x64 .f32 := m ((c : Thread nD τ).loc main_arg1)
/-- unq_inv, the segment ids -/
abbrev a2 (c : Dev nD) : IVec Cert.ReferenceIdeal.S1000000 32 := m ((c : Thread nD τ).loc main_arg2)
/-- W_pre -/
abbrev a3 (c : Dev nD) : FVec Ideal Cert.ReferenceIdeal.S64x64 .f32 := m ((c : Thread nD τ).loc main_arg3)
/-- b_pre -/
abbrev a4 (c : Dev nD) : FVec Ideal Cert.ReferenceIdeal.S64 .f32 := m ((c : Thread nD τ).loc main_arg4)
/-- g1 -/
abbrev a5 (c : Dev nD) : FVec Ideal Cert.ReferenceIdeal.S64 .f32 := m ((c : Thread nD τ).loc main_arg5)
/-- be1 -/
abbrev a6 (c : Dev nD) : FVec Ideal Cert.ReferenceIdeal.S64 .f32 := m ((c : Thread nD τ).loc main_arg6)
/-- W_pos -/
abbrev a7 (c : Dev nD) : FVec Ideal Cert.ReferenceIdeal.S3x64 .f32 := m ((c : Thread nD τ).loc main_arg7)
/-- b_pos -/
abbrev a8 (c : Dev nD) : FVec Ideal Cert.ReferenceIdeal.S64 .f32 := m ((c : Thread nD τ).loc main_arg8)
/-- g2 -/
abbrev a9 (c : Dev nD) : FVec Ideal Cert.ReferenceIdeal.S64 .f32 := m ((c : Thread nD τ).loc main_arg9)
/-- be2 -/
abbrev a10 (c : Dev nD) : FVec Ideal Cert.ReferenceIdeal.S64 .f32 := m ((c : Thread nD τ).loc main_arg10)

/-- The precondition at the launch memory, on device c. -/
abbrev Pre (c : Dev nD) [Cert.Pre_finite_inputs.Facts] : Prop :=
  Cert.Pre_finite_inputs.fn (F := Ideal) (a0 m c) (a1 m c) (a2 m c) (a3 m c) (a4 m c) (a5 m c) (a6 m c) (a7 m c) (a8 m c) (a9 m c) (a10 m c)
    = (fun _ => 1#1)

end Cert.KernelIdeal.KArgs

end
-- ==== Proof.PreDecode.lean ====
/-
  The precondition read back. The precondition is one bit: the conjunction of twelve tests of the eleven inputs, and it
  is assumed to be 1. Ten of the tests say of a float input that every entry has absolute value strictly below +∞; over
  the extended reals that leaves exactly the real numbers. One says that every segment id lies in [0, 100000), signed.
  The last says that no entry of the denominator array is zero, the denominator being the gathered segment sums of the
  positional layer plus the constant 1e-4 — the same composition of operations as the reference's own stages, so the
  fact is stated over those. A conjunction of bits is 1 exactly when both are; a conjunction over all entries of an array
  (a reduction by "and" started from 1) that is 1 has a 1 at every entry. The twelve tests are spread over four
  consecutive parts of the predicate's text; each part is read by its own lemma, from the last to the first.
-/
import proofs.«430596_j44092134261327_3_alg».proof.Defs
import proofs.«430596_j44092134261327_3_alg».proof.Proof.Gen.Pre_finite_inputs
import proofs.«430596_j44092134261327_3_alg».proof.Proof.Gen.ReferenceIdeal
import proofs.«430596_j44092134261327_3_alg».proof.Proof.RefStages
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx
open Cert.Pre_finite_inputs Cert.Pre_finite_inputs.Gen

/-- The scalar shape has one index. -/
instance subsingleton_S_ : Subsingleton S_.Idx := ⟨fun a b => funext fun d => d.elim0⟩

/-- Every entry of the array is a real number (neither infinity). -/
def AllReal {s : Shape} (a : FVec Ideal s .f32) : Prop := ∀ i : s.Idx, ∃ r : ℝ, a i = (r : EReal)

/-- An extended real whose absolute value max x (-x) lies strictly below +∞ (the pattern 0x7F800000) is a real:
    at ⊥ and at ⊤ the absolute value is ⊤, which is not below itself. -/
theorem real_of_abs_lt_inf (x : EReal)
    (e : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at e
  induction x using EReal.rec with
  | bot => simp [Ideal.cmp] at e
  | coe r => exact ⟨r, rfl⟩
  | top => simp [Ideal.cmp] at e

/-- An extended real that compares "not equal" with the pattern 0x00000000 is not zero. -/
theorem ne_zero_of_une (x : EReal) (e : Ideal.cmp .une x (Ideal.ofBits .f32 0x00000000#32) = 1#1) : x ≠ 0 := by
  have hz : Ideal.ofBits .f32 0x00000000#32 = (0 : EReal) := by simp [Ideal.ofBits, Ideal.ieee]
  rw [hz] at e
  have e' : BitVec.ofBool (decide (x ≠ 0)) = 1#1 := e
  exact of_decide_eq_true ((StableHlo.Predicate.ofBool_eq_one_iff _).1 e')

/-- A conjunction over all entries (a reduction by "and" from 1 into the scalar shape) that is 1 has a 1 at every entry. -/
theorem all_of_reduce {s : Shape} {axes : List (Fin s.rank)} (p : IVec s 1) (hr : s.ReducesTo axes S_)
    (hu : 0 < S_.numel) (e : Host.reduce IntOp.andi p (constantI S_ 1 1#1) hr hu ix0 = 1#1) (i : s.Idx) : p i = 1#1 :=
  Host.reduce_andi_all p _ hr hu ix0 e i

/-- |a| < +∞ entrywise, read at an entry. -/
theorem real_of_lt_inf {s : Shape} (a : FVec Ideal s .f32) (hb : S_.BroadcastsInDim s (![] : Fin 0 → Fin s.rank))
    (i : s.Idx)
    (e : cmpf .olt (Host.absf a) (broadcastInDim s ![] hb (constant (F := Ideal) S_ .f32 0x7F800000#32)) i = 1#1) :
    ∃ r : ℝ, a i = (r : EReal) :=
  real_of_abs_lt_inf (a i) e

/-- all(|a| < +∞) gives every entry real. -/
theorem allReal_of_reduce {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) : AllReal a :=
  fun i => real_of_lt_inf a hb i (all_of_reduce _ hr hu e i)

/-- The segment ids lie in [0, 100000), signed. -/
def IdxRange (a2 : IVec S1000000 32) : Prop :=
  ∀ n : Fin 1000000, IntOp.cmpi .sge (a2 (ix1 n)) 0#32 = 1#1 ∧ IntOp.cmpi .slt (a2 (ix1 n)) 100000#32 = 1#1

/-- The last part of the conjunction: what came before, the range test on the ids, and the denominator test. -/
theorem part4 (v16 : FVec Ideal S1000000x64 .f32) (v65 : IVec S_ 1) (v67 v69 : IVec S1000000 1)
    (h : fn_part4 (F := Ideal) v16 v65 v67 v69 ix0 = 1#1) :
    v65 ix0 = 1#1 ∧ (∀ n, v67 n = 1#1 ∧ v69 n = 1#1) ∧ ∀ i, v16 i ≠ 0 := by
  dsimp only [fn_part4] at h
  obtain ⟨h1, h3⟩ := IntOp.andi_eq_one.1 h
  obtain ⟨h0, h2⟩ := IntOp.andi_eq_one.1 h1
  exact ⟨h0, fun n => IntOp.andi_eq_one.1 (all_of_reduce _ _ _ h2 n),
    fun i => ne_zero_of_une (v16 i) (all_of_reduce _ _ _ h3 i)⟩

/-- The third part: the test on the eighth vector (its operands made earlier), the ninth and tenth vectors, the ids. -/
theorem part3 (a2 : IVec S1000000 32) (a9 a10 : FVec Ideal S64 .f32) (v16 : FVec Ideal S1000000x64 .f32)
    (v50 : IVec S_ 1) (v51 v52 : FVec Ideal S64 .f32)
    (h : fn_part3 (F := Ideal) a2 a9 a10 v16 v50 v51 v52 ix0 = 1#1) :
    v50 ix0 = 1#1 ∧ (∀ i, cmpf .olt v51 v52 i = 1#1) ∧ AllReal a9 ∧ AllReal a10 ∧ IdxRange a2 ∧ ∀ i, v16 i ≠ 0 := by
  dsimp only [fn_part3] at h
  obtain ⟨h65, hidx, hden⟩ := part4 _ _ _ _ h
  obtain ⟨h60, h64⟩ := IntOp.andi_eq_one.1 h65
  obtain ⟨h55, h59⟩ := IntOp.andi_eq_one.1 h60
  obtain ⟨h50, h54⟩ := IntOp.andi_eq_one.1 h55
  exact ⟨h50, all_of_reduce _ _ _ h54, allReal_of_reduce _ _ _ _ h59, allReal_of_reduce _ _ _ _ h64,
    fun n => hidx (ix1 n), hden⟩

/-- The second part: the fifth, sixth, seventh and eighth inputs, then the third part's. -/
theorem part2 (a2 : IVec S1000000 32) (a5 a6 : FVec Ideal S64 .f32) (a7 : FVec Ideal S3x64 .f32)
    (a8 a9 a10 : FVec Ideal S64 .f32) (v16 : FVec Ideal S1000000x64 .f32) (v35 : IVec S_ 1)
    (h : fn_part2 (F := Ideal) a2 a5 a6 a7 a8 a9 a10 v16 v35 ix0 = 1#1) :
    v35 ix0 = 1#1 ∧ AllReal a5 ∧ AllReal a6 ∧ AllReal a7 ∧ AllReal a8 ∧ AllReal a9 ∧ AllReal a10 ∧ IdxRange a2
      ∧ ∀ i, v16 i ≠ 0 := by
  dsimp only [fn_part2] at h
  obtain ⟨h50, h8, h9, h10, hidx, hden⟩ := part3 _ _ _ _ _ _ _ h
  obtain ⟨h45, h49⟩ := IntOp.andi_eq_one.1 h50
  obtain ⟨h40, h44⟩ := IntOp.andi_eq_one.1 h45
  obtain ⟨h35, h39⟩ := IntOp.andi_eq_one.1 h40
  exact ⟨h35, allReal_of_reduce _ _ _ _ h39, allReal_of_reduce _ _ _ _ h44, allReal_of_reduce _ _ _ _ h49,
    fun i => real_of_lt_inf a8 _ i (h8 i), h9, h10, hidx, hden⟩

/-- The first part: the test on the zeroth input (its operands made earlier), the first, third and fourth inputs,
    then the second part's. -/
theorem part1 (a1 : FVec Ideal S1000000x64 .f32) (a2 : IVec S1000000 32) (a3 : FVec Ideal S64x64 .f32)
    (a4 a5 a6 : FVec Ideal S64 .f32) (a7 : FVec Ideal S3x64 .f32) (a8 a9 a10 : FVec Ideal S64 .f32)
    (v16 : FVec Ideal S1000000x64 .f32) (v17 v18 : FVec Ideal S1000000x3 .f32)
    (h : fn_part1 (F := Ideal) a1 a2 a3 a4 a5 a6 a7 a8 a9 a10 v16 v17 v18 ix0 = 1#1) :
    (∀ i, cmpf .olt v17 v18 i = 1#1) ∧ AllReal a1 ∧ AllReal a3 ∧ AllReal a4 ∧ AllReal a5 ∧ AllReal a6 ∧ AllReal a7
      ∧ AllReal a8 ∧ AllReal a9 ∧ AllReal a10 ∧ IdxRange a2 ∧ ∀ i, v16 i ≠ 0 := by
  dsimp only [fn_part1] at h
  obtain ⟨h35, h5, h6, h7, h8, h9, h10, hidx, hden⟩ := part2 _ _ _ _ _ _ _ _ _ h
  obtain ⟨h30, h34⟩ := IntOp.andi_eq_one.1 h35
  obtain ⟨h25, h29⟩ := IntOp.andi_eq_one.1 h30
  obtain ⟨h20, h24⟩ := IntOp.andi_eq_one.1 h25
  exact ⟨all_of_reduce _ _ _ h20, allReal_of_reduce _ _ _ _ h24, allReal_of_reduce _ _ _ _ h29,
    allReal_of_reduce _ _ _ _ h34, h5, h6, h7, h8, h9, h10, hidx, hden⟩

/-! The denominator the precondition tests is built by the same operations as the reference's stages: the dimension
records of the two programs have the same fields (their well-formedness fields are proofs). -/

theorem dot_rec_eq : Cert.Pre_finite_inputs.dot_S1000000x3_S3x64_S1000000x64_1_0_0_1_n_n
    = Cert.ReferenceIdeal.dot_S1000000x3_S3x64_S1000000x64_1_0_0_1_n_n := rfl

theorem scatter_rec_eq : Cert.Pre_finite_inputs.scatter_S100000x64_S1000000x1_S1000000x64_1_0_0_1
    = Cert.ReferenceIdeal.scatter_S100000x64_S1000000x1_S1000000x64_1_0_0_1 := rfl

theorem gather_rec_eq : Cert.Pre_finite_inputs.gather_S100000x64_S1000000x1_S1000000x64_1_0_n_n_0_1_164
    = Cert.ReferenceIdeal.gather_S100000x64_S1000000x1_S1000000x64_1_0_n_n_0_1_164 := rfl

/-- The gathered segment sums of the positional layer, as the precondition spells them, are the reference's stages
    composed: rows a2[n] (wrapped) of the table into which row n of floor(a0)·a7 + rows(a8) was added at a2[n]. -/
theorem den_term_eq (a0 : FVec Ideal S1000000x3 .f32) (a2 : IVec S1000000 32) (a7 : FVec Ideal S3x64 .f32)
    (a8 : FVec Ideal S64 .f32) :
    Host.gather Cert.Pre_finite_inputs.gather_S100000x64_S1000000x1_S1000000x64_1_0_n_n_0_1_164
        (Host.scatterAdd Cert.Pre_finite_inputs.scatter_S100000x64_S1000000x1_S1000000x64_1_0_0_1
          (broadcastInDim S100000x64 ![] Gen.bcast_S_S100000x64 (constant (F := Ideal) S_ .f32 0x00000000#32))
          (broadcastInDim S1000000x1 ![0] Gen.bcast_S1000000_S1000000x1_0 a2)
          (addf (Host.dotGeneral Cert.Pre_finite_inputs.dot_S1000000x3_S3x64_S1000000x64_1_0_0_1_n_n none (Host.floor a0) a7)
            (broadcastInDim S1000000x64 ![0, 1] Gen.bcast_S1x64_S1000000x64_0_1
              (broadcastInDim S1x64 ![1] Gen.bcast_S64_S1x64_1 a8))))
        (broadcastInDim S1000000x1 ![0] Gen.bcast_S1000000_S1000000x1_0
          (select (cmpi .slt a2 (broadcastInDim S1000000 ![] Gen.bcast_S_S1000000 (constantI S_ 32 0#32)))
            (addi a2 (broadcastInDim S1000000 ![] Gen.bcast_S_S1000000 (constantI S_ 32 100000#32))) a2))
      = Cert.ReferenceIdeal.RefValue.rowsAt (F := Ideal)
          (Cert.ReferenceIdeal.RefValue.segSum a2 (Cert.ReferenceIdeal.RefValue.posW a0 a7 a8)) a2 := by
  rw [gather_rec_eq, scatter_rec_eq, dot_rec_eq]
  rfl

/-- The whole precondition, decoded. -/
theorem decode (a0 : FVec Ideal S1000000x3 .f32) (a1 : FVec Ideal S1000000x64 .f32) (a2 : IVec S1000000 32)
    (a3 : FVec Ideal S64x64 .f32) (a4 a5 a6 : FVec Ideal S64 .f32) (a7 : FVec Ideal S3x64 .f32)
    (a8 a9 a10 : FVec Ideal S64 .f32)
    (h : Cert.Pre_finite_inputs.fn (F := Ideal) a0 a1 a2 a3 a4 a5 a6 a7 a8 a9 a10 = (fun _ => 1#1)) :
    AllReal a0 ∧ AllReal a1 ∧ AllReal a3 ∧ AllReal a4 ∧ AllReal a5 ∧ AllReal a6 ∧ AllReal a7
      ∧ AllReal a8 ∧ AllReal a9 ∧ AllReal a10 ∧ IdxRange a2
      ∧ ∀ i : Cert.ReferenceIdeal.S1000000x64.Idx,
          (Cert.ReferenceIdeal.RefValue.rowsAt (F := Ideal)
            (Cert.ReferenceIdeal.RefValue.segSum a2 (Cert.ReferenceIdeal.RefValue.posW a0 a7 a8)) a2) i
            + Ideal.ofBits .f32 0x38D1B717#32 ≠ 0 := by
  have h' := congrFun h ix0
  dsimp only [fn] at h'
  obtain ⟨h0, h1, h3, h4, h5, h6, h7, h8, h9, h10, hidx, hden⟩ := part1 _ _ _ _ _ _ _ _ _ _ _ _ _ h'
  refine ⟨fun i => real_of_lt_inf a0 _ i (h0 i), h1, h3, h4, h5, h6, h7, h8, h9, h10, hidx, fun i => ?_⟩
  intro hz
  apply hden i
  rw [ValueIdx.addf_apply, den_term_eq a0 a2 a7 a8]
  exact hz

section Results

variable {a0 : FVec Ideal S1000000x3 .f32} {a1 : FVec Ideal S1000000x64 .f32} {a2 : IVec S1000000 32}
  {a3 : FVec Ideal S64x64 .f32} {a4 a5 a6 : FVec Ideal S64 .f32} {a7 : FVec Ideal S3x64 .f32}
  {a8 a9 a10 : FVec Ideal S64 .f32}
  (h : Cert.Pre_finite_inputs.fn (F := Ideal) a0 a1 a2 a3 a4 a5 a6 a7 a8 a9 a10 = (fun _ => 1#1))

include h

theorem finite_a0 : ∀ i, ∃ r : ℝ, a0 i = (r : EReal) := (decode a0 a1 a2 a3 a4 a5 a6 a7 a8 a9 a10 h).1
theorem finite_a1 : ∀ i, ∃ r : ℝ, a1 i = (r : EReal) := (decode a0 a1 a2 a3 a4 a5 a6 a7 a8 a9 a10 h).2.1
theorem finite_a3 : ∀ i, ∃ r : ℝ, a3 i = (r : EReal) := (decode a0 a1 a2 a3 a4 a5 a6 a7 a8 a9 a10 h).2.2.1
theorem finite_a4 : ∀ i, ∃ r : ℝ, a4 i = (r : EReal) := (decode a0 a1 a2 a3 a4 a5 a6 a7 a8 a9 a10 h).2.2.2.1
theorem finite_a5 : ∀ i, ∃ r : ℝ, a5 i = (r : EReal) := (decode a0 a1 a2 a3 a4 a5 a6 a7 a8 a9 a10 h).2.2.2.2.1
theorem finite_a6 : ∀ i, ∃ r : ℝ, a6 i = (r : EReal) := (decode a0 a1 a2 a3 a4 a5 a6 a7 a8 a9 a10 h).2.2.2.2.2.1
theorem finite_a7 : ∀ i, ∃ r : ℝ, a7 i = (r : EReal) := (decode a0 a1 a2 a3 a4 a5 a6 a7 a8 a9 a10 h).2.2.2.2.2.2.1
theorem finite_a8 : ∀ i, ∃ r : ℝ, a8 i = (r : EReal) := (decode a0 a1 a2 a3 a4 a5 a6 a7 a8 a9 a10 h).2.2.2.2.2.2.2.1
theorem finite_a9 : ∀ i, ∃ r : ℝ, a9 i = (r : EReal) := (decode a0 a1 a2 a3 a4 a5 a6 a7 a8 a9 a10 h).2.2.2.2.2.2.2.2.1
theorem finite_a10 : ∀ i, ∃ r : ℝ, a10 i = (r : EReal) :=
  (decode a0 a1 a2 a3 a4 a5 a6 a7 a8 a9 a10 h).2.2.2.2.2.2.2.2.2.1

/-- Every segment id lies in [0, 100000), as signed 32-bit words. -/
theorem idx_range : ∀ n : Fin 1000000,
    IntOp.cmpi .sge (a2 (ix1 n)) 0#32 = 1#1 ∧ IntOp.cmpi .slt (a2 (ix1 n)) 100000#32 = 1#1 :=
  (decode a0 a1 a2 a3 a4 a5 a6 a7 a8 a9 a10 h).2.2.2.2.2.2.2.2.2.2.1

/-- No entry of the reference's denominator — the gathered segment sums of the positional layer plus 1e-4 — is zero. -/
theorem den_ne : ∀ i : Cert.ReferenceIdeal.S1000000x64.Idx,
    (Cert.ReferenceIdeal.RefValue.rowsAt (F := Ideal)
      (Cert.ReferenceIdeal.RefValue.segSum a2 (Cert.ReferenceIdeal.RefValue.posW a0 a7 a8)) a2) i
      + Ideal.ofBits .f32 0x38D1B717#32 ≠ 0 :=
  (decode a0 a1 a2 a3 a4 a5 a6 a7 a8 a9 a10 h).2.2.2.2.2.2.2.2.2.2.2

end Results

end Cert.PreDecode

end
-- ==== Proof.BnAlgebra.lean ====
import Idealize.ShloMosaic.PureOps.Ideal
import Idealize.ShloMosaic.PureOps.Ideal.Laws
import Mathlib.Data.EReal.Inv
import Mathlib.Data.EReal.Operations
import Mathlib.Analysis.SpecialFunctions.Pow.Real
import Mathlib.Algebra.BigOperators.Group.Finset.Basic
import Mathlib.Algebra.BigOperators.Ring.Finset
import Mathlib.Algebra.Order.BigOperators.Group.Finset
import Mathlib.Tactic.Ring
import Mathlib.Tactic.FieldSimp
import Mathlib.Tactic.Linarith

/-!
# Batch normalisation, computed two ways, on the extended reals

Pure mathematics: no program is mentioned here. On a column of a million REAL numbers
(read inside the extended reals) the one-pass formula

  mean = S / N,  var = max (Q / N - mean²) 0,  y = x · (g · rsqrt (var + e)) + (b - mean · (g · rsqrt (var + e)))

with S = Σ x and Q = Σ x², and the two-pass formula

  y' = ((x - mean) · rsqrt ((Σ (x - mean)²) / N + e)) · g + b

give the same extended real. Over the reals Q / N - mean² = (Σ (x - mean)²) / N, which is a
sum of squares over a positive number, so the maximum with zero is idle; the variance plus a
positive e is positive, so the reciprocal square root is the real one; and the two closed
forms then agree by the laws of a commutative ring. Every intermediate value is a coerced real, so none of
the extended reals' conventions at the infinities is ever consulted.
-/

noncomputable section

namespace Cert.BnAlgebra

open Idealize.ShloMosaic
open scoped BigOperators

/-! ### Coerced reals are closed under the operations used -/

/-- The coercion of the reals into the extended reals commutes with finite sums. -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- The coercion is monotone, so it commutes with the maximum. -/
theorem coe_max (a b : ℝ) : ((max a b : ℝ) : EReal) = max (a : EReal) (b : EReal) :=
  EReal.coe_strictMono.monotone.map_max

/-- The coercion commutes with the minimum. -/
theorem coe_min (a b : ℝ) : ((min a b : ℝ) : EReal) = min (a : EReal) (b : EReal) :=
  EReal.coe_strictMono.monotone.map_min

theorem add_real (a b : ℝ) : ∃ r : ℝ, (a : EReal) + (b : EReal) = (r : EReal) :=
  ⟨a + b, (EReal.coe_add a b).symm⟩

theorem sub_real (a b : ℝ) : ∃ r : ℝ, (a : EReal) - (b : EReal) = (r : EReal) :=
  ⟨a - b, (EReal.coe_sub a b).symm⟩

theorem mul_real (a b : ℝ) : ∃ r : ℝ, (a : EReal) * (b : EReal) = (r : EReal) :=
  ⟨a * b, (EReal.coe_mul a b).symm⟩

theorem neg_real (a : ℝ) : ∃ r : ℝ, -(a : EReal) = (r : EReal) :=
  ⟨-a, (EReal.coe_neg a).symm⟩

theorem max_real (a b : ℝ) : ∃ r : ℝ, max (a : EReal) (b : EReal) = (r : EReal) :=
  ⟨max a b, (coe_max a b).symm⟩

/-- The maximum of a real with the extended reals' zero is the real maximum with zero. -/
theorem max_zero_eq (a : ℝ) : max (a : EReal) 0 = ((max a 0 : ℝ) : EReal) := by
  rw [coe_max, EReal.coe_zero]

theorem max_zero_real (a : ℝ) : ∃ r : ℝ, max (a : EReal) 0 = (r : EReal) :=
  ⟨max a 0, max_zero_eq a⟩

theorem sum_real {ι : Type*} (s : Finset ι) (f : ι → ℝ) :
    ∃ r : ℝ, ∑ i ∈ s, (f i : EReal) = (r : EReal) :=
  ⟨∑ i ∈ s, f i, (coe_sum s f).symm⟩

/-- Division by a nonzero real, on a real, is the real quotient. -/
theorem div_real (a d : ℝ) (hd : d ≠ 0) :
    Ideal.div (a : EReal) (d : EReal) = ((a / d : ℝ) : EReal) := by
  rw [Ideal.div_coe hd, ← EReal.coe_mul, mul_one_div]

theorem div_real_exists (a d : ℝ) (hd : d ≠ 0) :
    ∃ r : ℝ, Ideal.div (a : EReal) (d : EReal) = (r : EReal) :=
  ⟨a / d, div_real a d hd⟩

/-- The reciprocal square root of a positive real is the real one. -/
theorem rsqrt_real (r : ℝ) (hr : 0 < r) :
    Ideal.rsqrt (r : EReal) = (((Real.sqrt r)⁻¹ : ℝ) : EReal) := by
  rw [Ideal.rsqrt_coe, if_neg (not_lt.mpr hr.le), if_neg hr.ne']

/-- The floor of a real is a real (the integer floor, read as a real). -/
theorem floor_eq (x : ℝ) :
    Ideal.liftRound Int.floor (x : EReal) = (((⌊x⌋ : ℤ) : ℝ) : EReal) :=
  Ideal.liftRound_coe x Int.floor

theorem floor_real (x : ℝ) : ∃ r : ℝ, Ideal.liftRound Int.floor (x : EReal) = (r : EReal) :=
  ⟨((⌊x⌋ : ℤ) : ℝ), floor_eq x⟩

/-- The same fact for the kernel-side spelling of the floor. -/
theorem floor_real_kernel {φ : FTy} (x : ℝ) :
    ∃ r : ℝ, FloatOps.floor (F := Ideal) (φ := φ) (x : EReal) = (r : EReal) :=
  floor_real x

/-- The same fact for the host-side spelling of the floor. -/
theorem floor_real_host {φ : FTy} (x : ℝ) :
    ∃ r : ℝ, FloatOps.hostUnary (F := Ideal) (φ := φ) .floor (x : EReal) = (r : EReal) :=
  floor_real x

/-! ### The real identity: the one-pass variance is the two-pass variance -/

/-- With m the mean of a million reals, (Σ (x - m)²) / N = (Σ x²) / N - m². -/
theorem centred_sq (x : Fin 1000000 → ℝ) :
    (∑ i, (x i - (∑ j, x j) / 1000000) * (x i - (∑ j, x j) / 1000000)) / 1000000
      = (∑ i, x i * x i) / 1000000 - (∑ j, x j) / 1000000 * ((∑ j, x j) / 1000000) := by
  generalize hs : (∑ j, x j) = s
  have hexp : ∀ i, (x i - s / 1000000) * (x i - s / 1000000)
      = x i * x i - 2 * (s / 1000000) * x i + s / 1000000 * (s / 1000000) := fun i => by ring
  have hcard : ((Finset.univ : Finset (Fin 1000000)).card : ℝ) = 1000000 := by
    rw [Finset.card_univ, Fintype.card_fin]; exact Nat.cast_ofNat
  rw [Finset.sum_congr rfl fun i _ => hexp i, Finset.sum_add_distrib, Finset.sum_sub_distrib,
    ← Finset.mul_sum, hs, Finset.sum_const, nsmul_eq_mul, hcard]
  field_simp
  ring

/-! ### The two formulas on a column of reals -/

/-- The mean of a million coerced reals is the coerced real mean. -/
theorem mean_eq (x : Fin 1000000 → ℝ) :
    Ideal.div (∑ i, (x i : EReal)) ((1000000 : ℝ) : EReal)
      = (((∑ i, x i) / 1000000 : ℝ) : EReal) := by
  rw [← coe_sum, div_real _ _ (by norm_num)]

theorem mean_real (x : Fin 1000000 → ℝ) :
    ∃ m : ℝ, Ideal.div (∑ i, (x i : EReal)) ((1000000 : ℝ) : EReal) = (m : EReal) :=
  ⟨_, mean_eq x⟩

/-- The two-pass variance of a column of reals about a real centre is a nonnegative real. -/
theorem var_two_pass_eq (x : Fin 1000000 → ℝ) (m : ℝ) :
    Ideal.div (∑ i, ((x i : EReal) - (m : EReal)) * ((x i : EReal) - (m : EReal)))
        ((1000000 : ℝ) : EReal)
      = (((∑ i, (x i - m) * (x i - m)) / 1000000 : ℝ) : EReal) := by
  simp only [← EReal.coe_sub, ← EReal.coe_mul, ← coe_sum]
  exact div_real _ _ (by norm_num)

/-- The one-pass variance, clamped at zero, is the same real: the clamp is idle. -/
theorem var_one_pass_eq (x : Fin 1000000 → ℝ) :
    max (Ideal.div (∑ i, (x i : EReal) * (x i : EReal)) ((1000000 : ℝ) : EReal)
          - (((∑ i, x i) / 1000000 : ℝ) : EReal) * (((∑ i, x i) / 1000000 : ℝ) : EReal)) 0
      = (((∑ i, (x i - (∑ j, x j) / 1000000) * (x i - (∑ j, x j) / 1000000)) / 1000000 : ℝ)
          : EReal) := by
  have h0 : (0 : ℝ) ≤ (∑ i, (x i - (∑ j, x j) / 1000000) * (x i - (∑ j, x j) / 1000000)) / 1000000 :=
    div_nonneg (Finset.sum_nonneg fun i _ => mul_self_nonneg _) (by norm_num)
  simp only [← EReal.coe_mul, ← coe_sum]
  rw [div_real _ _ (by norm_num), ← EReal.coe_sub, max_zero_eq, ← centred_sq, max_eq_left h0]

/-- Batch normalisation two ways, stated over named intermediate values given by equations. -/
theorem bn_two_ways_of_eq (x : Fin 1000000 → ℝ) (g b e : ℝ) (he : 0 < e) (n : Fin 1000000)
    (S Q mean inv : EReal)
    (hS : S = ∑ i, (x i : EReal)) (hQ : Q = ∑ i, (x i : EReal) * (x i : EReal))
    (hmean : mean = Ideal.div S ((1000000 : ℝ) : EReal))
    (hinv : inv = Ideal.rsqrt
      (max (Ideal.div Q ((1000000 : ℝ) : EReal) - mean * mean) 0 + (e : EReal))) :
    (x n : EReal) * ((g : EReal) * inv) + ((b : EReal) - mean * ((g : EReal) * inv))
      = (((x n : EReal) - mean)
          * Ideal.rsqrt (Ideal.div (∑ i, ((x i : EReal) - mean) * ((x i : EReal) - mean))
              ((1000000 : ℝ) : EReal) + (e : EReal))) * (g : EReal) + (b : EReal) := by
  have hmean' : mean = (((∑ i, x i) / 1000000 : ℝ) : EReal) := by rw [hmean, hS, mean_eq]
  have h0 : (0 : ℝ) ≤ (∑ i, (x i - (∑ j, x j) / 1000000) * (x i - (∑ j, x j) / 1000000)) / 1000000 :=
    div_nonneg (Finset.sum_nonneg fun i _ => mul_self_nonneg _) (by norm_num)
  rw [hinv, hQ, hmean', var_one_pass_eq, var_two_pass_eq, ← EReal.coe_add,
    rsqrt_real _ (add_pos_of_nonneg_of_pos h0 he)]
  simp only [← EReal.coe_mul, ← EReal.coe_sub, ← EReal.coe_add]
  congr 1
  ring

/-- Batch normalisation two ways, every intermediate value written out. -/
theorem bn_two_ways_expanded (x : Fin 1000000 → ℝ) (g b e : ℝ) (he : 0 < e) (n : Fin 1000000) :
    (x n : EReal) * ((g : EReal) * Ideal.rsqrt
        (max (Ideal.div (∑ i, (x i : EReal) * (x i : EReal)) ((1000000 : ℝ) : EReal)
              - Ideal.div (∑ i, (x i : EReal)) ((1000000 : ℝ) : EReal)
                * Ideal.div (∑ i, (x i : EReal)) ((1000000 : ℝ) : EReal)) 0 + (e : EReal)))
      + ((b : EReal) - Ideal.div (∑ i, (x i : EReal)) ((1000000 : ℝ) : EReal)
          * ((g : EReal) * Ideal.rsqrt
            (max (Ideal.div (∑ i, (x i : EReal) * (x i : EReal)) ((1000000 : ℝ) : EReal)
                  - Ideal.div (∑ i, (x i : EReal)) ((1000000 : ℝ) : EReal)
                    * Ideal.div (∑ i, (x i : EReal)) ((1000000 : ℝ) : EReal)) 0 + (e : EReal))))
      = (((x n : EReal) - Ideal.div (∑ i, (x i : EReal)) ((1000000 : ℝ) : EReal))
          * Ideal.rsqrt (Ideal.div
              (∑ i, ((x i : EReal) - Ideal.div (∑ i, (x i : EReal)) ((1000000 : ℝ) : EReal))
                  * ((x i : EReal) - Ideal.div (∑ i, (x i : EReal)) ((1000000 : ℝ) : EReal)))
              ((1000000 : ℝ) : EReal) + (e : EReal))) * (g : EReal) + (b : EReal) :=
  bn_two_ways_of_eq x g b e he n _ _ _ _ rfl rfl rfl rfl

/-- Batch normalisation two ways, the intermediate values introduced by let. -/
theorem bn_two_ways (x : Fin 1000000 → ℝ) (g b e : ℝ) (he : 0 < e) (n : Fin 1000000) :
    let S : EReal := ∑ i, (x i : EReal)
    let Q : EReal := ∑ i, (x i : EReal) * (x i : EReal)
    let N : EReal := ((1000000 : ℝ) : EReal)
    let mean := Ideal.div S N
    let inv := Ideal.rsqrt (max (Ideal.div Q N - mean * mean) 0 + (e : EReal))
    (x n : EReal) * ((g : EReal) * inv) + ((b : EReal) - mean * ((g : EReal) * inv))
      = (((x n : EReal) - mean)
          * Ideal.rsqrt (Ideal.div (∑ i, ((x i : EReal) - mean) * ((x i : EReal) - mean)) N
              + (e : EReal))) * (g : EReal) + (b : EReal) := by
  intro S Q N mean inv
  exact bn_two_ways_of_eq x g b e he n S Q mean inv rfl rfl rfl rfl

/-- The common value, in closed form: a coerced real. -/
theorem bn_value_eq (x : Fin 1000000 → ℝ) (g b e : ℝ) (he : 0 < e) (n : Fin 1000000)
    (S Q mean inv : EReal)
    (hS : S = ∑ i, (x i : EReal)) (hQ : Q = ∑ i, (x i : EReal) * (x i : EReal))
    (hmean : mean = Ideal.div S ((1000000 : ℝ) : EReal))
    (hinv : inv = Ideal.rsqrt
      (max (Ideal.div Q ((1000000 : ℝ) : EReal) - mean * mean) 0 + (e : EReal))) :
    (x n : EReal) * ((g : EReal) * inv) + ((b : EReal) - mean * ((g : EReal) * inv))
      = ((x n * (g * (Real.sqrt ((∑ i, (x i - (∑ j, x j) / 1000000)
              * (x i - (∑ j, x j) / 1000000)) / 1000000 + e))⁻¹)
            + (b - (∑ j, x j) / 1000000 * (g * (Real.sqrt ((∑ i, (x i - (∑ j, x j) / 1000000)
              * (x i - (∑ j, x j) / 1000000)) / 1000000 + e))⁻¹)) : ℝ) : EReal) := by
  have hmean' : mean = (((∑ i, x i) / 1000000 : ℝ) : EReal) := by rw [hmean, hS, mean_eq]
  have h0 : (0 : ℝ) ≤ (∑ i, (x i - (∑ j, x j) / 1000000) * (x i - (∑ j, x j) / 1000000)) / 1000000 :=
    div_nonneg (Finset.sum_nonneg fun i _ => mul_self_nonneg _) (by norm_num)
  rw [hinv, hQ, hmean', var_one_pass_eq, ← EReal.coe_add,
    rsqrt_real _ (add_pos_of_nonneg_of_pos h0 he)]
  simp only [← EReal.coe_mul, ← EReal.coe_sub, ← EReal.coe_add]

/-- The one-pass side is a real. -/
theorem bn_lhs_real (x : Fin 1000000 → ℝ) (g b e : ℝ) (he : 0 < e) (n : Fin 1000000) :
    let S : EReal := ∑ i, (x i : EReal)
    let Q : EReal := ∑ i, (x i : EReal) * (x i : EReal)
    let N : EReal := ((1000000 : ℝ) : EReal)
    let mean := Ideal.div S N
    let inv := Ideal.rsqrt (max (Ideal.div Q N - mean * mean) 0 + (e : EReal))
    ∃ r : ℝ, (x n : EReal) * ((g : EReal) * inv) + ((b : EReal) - mean * ((g : EReal) * inv))
      = (r : EReal) := by
  intro S Q N mean inv
  exact ⟨_, bn_value_eq x g b e he n S Q mean inv rfl rfl rfl rfl⟩

/-- The reciprocal standard deviation of the one-pass side is a real. -/
theorem bn_inv_real (x : Fin 1000000 → ℝ) (e : ℝ) (he : 0 < e) :
    ∃ r : ℝ, Ideal.rsqrt
      (max (Ideal.div (∑ i, (x i : EReal) * (x i : EReal)) ((1000000 : ℝ) : EReal)
            - Ideal.div (∑ i, (x i : EReal)) ((1000000 : ℝ) : EReal)
              * Ideal.div (∑ i, (x i : EReal)) ((1000000 : ℝ) : EReal)) 0 + (e : EReal))
      = (r : EReal) := by
  have h0 : (0 : ℝ) ≤ (∑ i, (x i - (∑ j, x j) / 1000000) * (x i - (∑ j, x j) / 1000000)) / 1000000 :=
    div_nonneg (Finset.sum_nonneg fun i _ => mul_self_nonneg _) (by norm_num)
  rw [mean_eq, var_one_pass_eq, ← EReal.coe_add, rsqrt_real _ (add_pos_of_nonneg_of_pos h0 he)]
  exact ⟨_, rfl⟩

/-- The numeral a million, as an extended real, is the coerced real numeral. -/
theorem million_eq : (1000000 : EReal) = ((1000000 : ℝ) : EReal) := by
  have h : ((1000000 : ℕ) : ℝ) = (1000000 : ℝ) := Nat.cast_ofNat
  rw [← h, EReal.coe_natCast]
  exact Nat.cast_ofNat.symm

end Cert.BnAlgebra
-- ==== Proof.BnBridge.lean ====
/-
  The reference's training-mode batch normalisation against the one-pass scale-and-shift form, column by column.

  For an array x : [1000000, 64] and vectors g, b : [64], the reference computes, per column j, the mean
  μ = (Σₙ x(n,j)) / 1000000, the biased variance of the centred column v = (Σₙ (x(n,j) − μ)²) / 1000000, and
  y(n,j) = ((x(n,j) − μ) · rsqrt (v + ε)) · g(j) + b(j), with ε the float nearest one thousandth. The other form takes
  S = Σₙ x(n,j) and Q = Σₙ x(n,j)², mean = S / 1000000, inv = rsqrt (max (Q / 1000000 − mean²) 0 + ε), and
  y(n,j) = x(n,j) · (g(j) · inv) + (b(j) − mean · (g(j) · inv)).

  First each stage of the reference is read at an index: a row or scalar broadcast reads its operand, a column sum from
  zero is the finite sum over the column, the divisor 1000000 − 0 is positive so the select keeps the quotient. Then,
  for real-valued x, g, b, the two forms agree: over the reals Q/N − mean² is the variance of the centred column, the
  clamp at zero is idle, and the rest is ring algebra.
-/
import proofs.«430596_j44092134261327_3_alg».proof.Proof.RefStages
import proofs.«430596_j44092134261327_3_alg».proof.Proof.BnAlgebra
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.BnBridge

open Cert.ReferenceIdeal Cert.ReferenceIdeal.Gen Idealize.ShloMosaic Idealize.ShloMosaic.ValueIdx
open scoped BigOperators

/-! ## The two float constants as reals -/

/-- The divisor: the float word of one million. -/
abbrev NW : EReal := Ideal.ofBits .f32 0x49742400#32
/-- The stabiliser under the square root: the float word nearest one thousandth. -/
abbrev EW : EReal := Ideal.ofBits .f32 0x3A83126F#32

/-- The first word denotes the real 1000000. -/
theorem NW_eq : NW = ((1000000 : ℝ) : EReal) := by
  simp [Ideal.ofBits, Ideal.ieee, -EReal.coe_mul]; norm_num

/-- The second word denotes the real 8589935 / 2³³, a little over one thousandth. -/
theorem EW_eq : EW = (((8589935 : ℝ) / 8589934592 : ℝ) : EReal) := by
  simp [Ideal.ofBits, Ideal.ieee, -EReal.coe_mul]; norm_num

/-- It is a positive real. -/
theorem EW_pos : ∃ e : ℝ, 0 < e ∧ EW = (e : EReal) := ⟨_, by norm_num, EW_eq⟩

/-! ## The kernel-side column statistics -/

/-- The sum of column `j`. -/
def colS (x : FVec Ideal S1000000x64 .f32) (j : Fin 64) : EReal := ∑ n : Fin 1000000, x (ix2 n j)
/-- The sum of the squares of column `j`. -/
def colQ (x : FVec Ideal S1000000x64 .f32) (j : Fin 64) : EReal := ∑ n : Fin 1000000, x (ix2 n j) * x (ix2 n j)
/-- The mean of column `j`. -/
def kmean (x : FVec Ideal S1000000x64 .f32) (j : Fin 64) : EReal := Ideal.div (colS x j) NW
/-- The reciprocal standard deviation of column `j`, from the mean of the squares less the squared mean, clamped at zero. -/
def kinv (x : FVec Ideal S1000000x64 .f32) (j : Fin 64) : EReal :=
  Ideal.rsqrt (max (Ideal.div (colQ x j) NW - kmean x j * kmean x j) 0 + EW)

/-! ## The reference's stages read at an index -/

/-- A `[64]` vector laid along the rows reads its entry at the column. -/
theorem rows_apply (v : FVec Ideal S64 .f32) (n : Fin 1000000) (j : Fin 64) :
    RefValue.rows v (ix2 n j) = v (ix1 j) := by
  unfold RefValue.rows
  refine (broadcastInDim_apply _ _ _ (ix2 n j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- The splat of a word reads the word's value everywhere. -/
theorem splat64_apply (w : BitVec 32) (j : Fin 64) : RefValue.splat64 (F := Ideal) w (ix1 j) = Ideal.ofBits .f32 w := by
  unfold RefValue.splat64
  exact broadcastInDim_scalar_apply _ _ _

/-- A column sum from zero is the sum of the column. -/
theorem colSum_apply (x : FVec Ideal S1000000x64 .f32) (j : Fin 64) :
    RefValue.colSum x (ix1 j) = ∑ n : Fin 1000000, x (ix2 n j) := by
  unfold RefValue.colSum
  refine (hostReduceAdd_apply x _ reducesTo_S1000000x64_S64_d0 h_S_ (ix1 j)).trans ?_
  refine (Ideal.hostReduceAdd_single reducesTo_S1000000x64_S64_d0 (by decide : S1000000x64.Reduces [0] S64) x _ (ix1 j)).trans ?_
  show Ideal.ofBits .f32 0x00000000#32 + _ = _
  rw [Ideal.ofBits_zero_f32, zero_add]
  refine Finset.sum_congr rfl fun n _ => congrArg x (funext fun a => Fin.ext ?_)
  match a with
  | ⟨0, _⟩ => rfl
  | ⟨1, _⟩ => rfl

/-- The reference's column mean is the kernel side's. -/
theorem colMean_apply (x : FVec Ideal S1000000x64 .f32) (j : Fin 64) :
    RefValue.colMean x (ix1 j) = kmean x j := by
  unfold RefValue.colMean kmean colS
  show Ideal.div (RefValue.colSum x (ix1 j)) (RefValue.splat64 (F := Ideal) 0x49742400#32 (ix1 j)) = _
  rw [colSum_apply, splat64_apply]

/-- The mean row the variance computes again is the same mean. -/
theorem meanRow_apply (x : FVec Ideal S1000000x64 .f32) (j : Fin 64) :
    RefValue.meanRow x (ix2 (0 : Fin 1) j) = kmean x j := by
  unfold RefValue.meanRow
  show Ideal.div (broadcastInDim S1x64 ![1] bcast_S64_S1x64_1 (RefValue.colSum x) (ix2 (0 : Fin 1) j))
      (broadcastInDim S1x64 ![] bcast_S_S1x64 (constant (F := Ideal) S_ .f32 0x49742400#32) (ix2 (0 : Fin 1) j)) = _
  have h1 : broadcastInDim S1x64 ![1] bcast_S64_S1x64_1 (RefValue.colSum x) (ix2 (0 : Fin 1) j) = RefValue.colSum x (ix1 j) :=
    broadcastInDim_apply _ _ _ (ix2 (0 : Fin 1) j) (ix1 j) fun a => by
      match a with
      | ⟨0, _⟩ => rfl
  rw [h1, broadcastInDim_scalar_apply, colSum_apply]
  rfl

/-- The centred array: the column's mean taken off every entry. -/
theorem centred_apply (x : FVec Ideal S1000000x64 .f32) (n : Fin 1000000) (j : Fin 64) :
    RefValue.centred x (ix2 n j) = x (ix2 n j) - kmean x j := by
  unfold RefValue.centred
  show x (ix2 n j) - broadcastInDim S1000000x64 ![0, 1] bcast_S1x64_S1000000x64_0_1 (RefValue.meanRow x) (ix2 n j) = _
  have h1 : broadcastInDim S1000000x64 ![0, 1] bcast_S1x64_S1000000x64_0_1 (RefValue.meanRow x) (ix2 n j)
      = RefValue.meanRow x (ix2 (0 : Fin 1) j) :=
    broadcastInDim_apply _ _ _ (ix2 n j) (ix2 (0 : Fin 1) j) fun a => by
      match a with
      | ⟨0, _⟩ => rfl
      | ⟨1, _⟩ => rfl
  rw [h1, meanRow_apply]

/-- The variance's divisor is one million: the correction it subtracts is the integer zero. -/
theorem count_apply : RefValue.count (F := Ideal) ix0 = NW := by
  unfold RefValue.count
  show Ideal.ofBits .f32 0x49742400#32 - (((0#32 : BitVec 32).toInt : ℝ) : EReal) = _
  rw [show (0#32 : BitVec 32).toInt = 0 from by decide]
  simp

/-- The reference's column variance: the divisor is positive, so the select keeps the quotient, which is the sum of
    the squared centred entries over one million. -/
theorem colVar_apply (x : FVec Ideal S1000000x64 .f32) (j : Fin 64) :
    RefValue.colVar x (ix1 j)
      = Ideal.div (∑ n : Fin 1000000, (x (ix2 n j) - kmean x j) * (x (ix2 n j) - kmean x j)) NW := by
  unfold RefValue.colVar
  rw [select_apply]
  have hc : broadcastInDim S64 ![] bcast_S_S64 (cmpf .ogt (RefValue.count (F := Ideal)) (constant (F := Ideal) S_ .f32 0x00000000#32)) (ix1 j) = 1#1 := by
    rw [broadcastInDim_scalar_apply]
    show Ideal.cmp .ogt (RefValue.count (F := Ideal) ix0) (Ideal.ofBits .f32 0x00000000#32) = 1#1
    rw [count_apply, Ideal.ofBits_zero_f32, NW_eq]
    have hpos : (0 : EReal) < ((1000000 : ℝ) : EReal) := EReal.coe_pos.mpr (by norm_num)
    show BitVec.ofBool (decide ((0 : EReal) < ((1000000 : ℝ) : EReal))) = 1#1
    rw [decide_eq_true hpos]
    rfl
  rw [hc, select_one]
  show Ideal.div (RefValue.colSum (mulf (RefValue.centred x) (RefValue.centred x)) (ix1 j))
      (broadcastInDim S64 ![] bcast_S_S64 (RefValue.count (F := Ideal)) (ix1 j)) = _
  rw [broadcastInDim_scalar_apply, count_apply, colSum_apply]
  refine congrArg (fun s => Ideal.div s NW) (Finset.sum_congr rfl fun n _ => ?_)
  rw [mulf_apply, centred_apply]

/-- The reference's batch normalisation at an index. -/
theorem bn_apply (x : FVec Ideal S1000000x64 .f32) (g b : FVec Ideal S64 .f32) (n : Fin 1000000) (j : Fin 64) :
    RefValue.bn x g b (ix2 n j)
      = ((x (ix2 n j) - kmean x j)
          * Ideal.rsqrt (Ideal.div (∑ i : Fin 1000000, (x (ix2 i j) - kmean x j) * (x (ix2 i j) - kmean x j)) NW + EW))
        * g (ix1 j) + b (ix1 j) := by
  unfold RefValue.bn
  show (x (ix2 n j) - RefValue.rows (RefValue.colMean x) (ix2 n j))
        * RefValue.rows (Host.rsqrt (addf (RefValue.colVar x) (RefValue.splat64 (F := Ideal) 0x3A83126F#32))) (ix2 n j)
        * RefValue.rows g (ix2 n j) + RefValue.rows b (ix2 n j) = _
  rw [rows_apply, rows_apply, rows_apply, rows_apply, colMean_apply]
  show (x (ix2 n j) - kmean x j)
        * Ideal.rsqrt (RefValue.colVar x (ix1 j) + RefValue.splat64 (F := Ideal) 0x3A83126F#32 (ix1 j))
        * g (ix1 j) + b (ix1 j) = _
  rw [colVar_apply, splat64_apply]

/-! ## The bridge: the scale-and-shift form is the reference's normalisation, on real arrays -/

/-- For a real-valued array and real scale and shift vectors, the one-pass form — the entry times gamma over the
    standard deviation, plus beta less the mean times the same factor, with the variance taken as the mean of the squares
    less the squared mean, clamped at zero — is the reference's two-pass batch normalisation at every index. -/
theorem bn_bridge (x : FVec Ideal S1000000x64 .f32) (g b : FVec Ideal S64 .f32)
    (hx : ∀ i, ∃ r : ℝ, x i = (r : EReal)) (hg : ∀ i, ∃ r : ℝ, g i = (r : EReal)) (hb : ∀ i, ∃ r : ℝ, b i = (r : EReal))
    (n : Fin 1000000) (j : Fin 64) :
    x (ix2 n j) * (g (ix1 j) * kinv x j) + (b (ix1 j) - kmean x j * (g (ix1 j) * kinv x j)) = RefValue.bn x g b (ix2 n j) := by
  choose xr hxr using hx
  obtain ⟨gr, hgr⟩ := hg (ix1 j)
  obtain ⟨br, hbr⟩ := hb (ix1 j)
  obtain ⟨e, he, hEW⟩ := EW_pos
  have hS : colS x j = ∑ i : Fin 1000000, ((xr (ix2 i j) : ℝ) : EReal) := by
    unfold colS; exact Finset.sum_congr rfl fun i _ => hxr _
  have hQ : colQ x j = ∑ i : Fin 1000000, ((xr (ix2 i j) : ℝ) : EReal) * ((xr (ix2 i j) : ℝ) : EReal) := by
    unfold colQ; exact Finset.sum_congr rfl fun i _ => by rw [hxr]
  have hmean : kmean x j = Ideal.div (colS x j) ((1000000 : ℝ) : EReal) := by
    unfold kmean; rw [NW_eq]
  have hinv : kinv x j = Ideal.rsqrt (max (Ideal.div (colQ x j) ((1000000 : ℝ) : EReal) - kmean x j * kmean x j) 0 + (e : EReal)) := by
    unfold kinv; rw [NW_eq, hEW]
  have key := Cert.BnAlgebra.bn_two_ways_of_eq (fun i => xr (ix2 i j)) gr br e he n (colS x j) (colQ x j) (kmean x j) (kinv x j)
    hS hQ hmean hinv
  rw [bn_apply, hgr, hbr, hxr (ix2 n j), NW_eq, hEW]
  refine key.trans ?_
  refine congrArg (fun s => (((xr (ix2 n j) : ℝ) : EReal) - kmean x j) * Ideal.rsqrt (Ideal.div s ((1000000 : ℝ) : EReal) + (e : EReal)) * (gr : EReal) + (br : EReal))
    (Finset.sum_congr rfl fun i _ => ?_)
  rw [hxr (ix2 i j)]

/-- On such arrays the reference's batch normalisation is real-valued. -/
theorem bn_real (x : FVec Ideal S1000000x64 .f32) (g b : FVec Ideal S64 .f32)
    (hx : ∀ i, ∃ r : ℝ, x i = (r : EReal)) (hg : ∀ i, ∃ r : ℝ, g i = (r : EReal)) (hb : ∀ i, ∃ r : ℝ, b i = (r : EReal)) :
    ∀ i, ∃ r : ℝ, RefValue.bn x g b i = (r : EReal) := by
  intro i
  obtain ⟨n, j, rfl⟩ : ∃ (n : Fin 1000000) (j : Fin 64), i = ix2 n j := ⟨i 0, i 1, eq_ix2 i⟩
  rw [← bn_bridge x g b hx hg hb n j]
  choose xr hxr using hx
  obtain ⟨gr, hgr⟩ := hg (ix1 j)
  obtain ⟨br, hbr⟩ := hb (ix1 j)
  obtain ⟨e, he, hEW⟩ := EW_pos
  have hS : colS x j = ∑ i : Fin 1000000, ((xr (ix2 i j) : ℝ) : EReal) := by
    unfold colS; exact Finset.sum_congr rfl fun i _ => hxr _
  have hQ : colQ x j = ∑ i : Fin 1000000, ((xr (ix2 i j) : ℝ) : EReal) * ((xr (ix2 i j) : ℝ) : EReal) := by
    unfold colQ; exact Finset.sum_congr rfl fun i _ => by rw [hxr]
  have hmean : kmean x j = Ideal.div (colS x j) ((1000000 : ℝ) : EReal) := by
    unfold kmean; rw [NW_eq]
  have hinv : kinv x j = Ideal.rsqrt (max (Ideal.div (colQ x j) ((1000000 : ℝ) : EReal) - kmean x j * kmean x j) 0 + (e : EReal)) := by
    unfold kinv; rw [NW_eq, hEW]
  rw [hgr, hbr, hxr (ix2 n j)]
  exact ⟨_, Cert.BnAlgebra.bn_value_eq (fun i => xr (ix2 i j)) gr br e he n (colS x j) (colQ x j) (kmean x j) (kinv x j) hS hQ hmean hinv⟩

end Cert.ReferenceIdeal.BnBridge

end
-- ==== Proof.RefReadDot.lean ====
/-
  The reference's two linear layers, read at an index, on extended reals.

  A [64] vector laid along every row of a [1000000, 64] array reads, at (n, j), its entry j. The host's matrix
  product is the contraction onto a zero accumulator, so at (n, j) it is the finite sum over the contracted
  axis: 64 terms for the square weight, 3 terms for the positional weight, whose left operand is the floor of
  the points. Each layer is the product plus the bias row. When every operand entry is a real number, so is
  every entry of each layer: sums, products and the floor of reals are reals.
-/
import proofs.«430596_j44092134261327_3_alg».proof.Proof.RefStages
import proofs.«430596_j44092134261327_3_alg».proof.Proof.BnAlgebra
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefReadDot

open Cert.ReferenceIdeal Cert.ReferenceIdeal.Gen Idealize.ShloMosaic Idealize.ShloMosaic.ValueIdx
open scoped BigOperators

/-! ## A row vector laid along the rows -/

/-- The [64] vector broadcast to [1, 64] and then down the million rows reads its entry at the column. -/
theorem rows_apply_ix2 (v : FVec Ideal S64 .f32) (n : Fin 1000000) (j : Fin 64) :
    RefValue.rows v (ix2 n j) = v (ix1 j) := by
  unfold RefValue.rows
  exact (broadcastInDim_apply (![0, 1]) bcast_S1x64_S1000000x64_0_1 (broadcastInDim S1x64 ![1] bcast_S64_S1x64_1 v) (ix2 n j)
      (ix2 (0 : Fin 1) j) (fun a => by match a with | ⟨0, _⟩ => rfl | ⟨1, _⟩ => rfl)).trans
    (broadcastInDim_apply (![1]) bcast_S64_S1x64_1 v (ix2 (0 : Fin 1) j) (ix1 j)
      (fun a => by match a with | ⟨0, _⟩ => rfl))

/-- The same at any index of the array, the column read off the index. -/
theorem rows_apply (v : FVec Ideal S64 .f32) (i : S1000000x64.Idx) : RefValue.rows v i = v (ix1 (i 1)) := by
  obtain ⟨n, j, rfl⟩ : ∃ (n : Fin 1000000) (j : Fin 64), i = ix2 n j := ⟨i 0, i 1, eq_ix2 i⟩
  exact rows_apply_ix2 v n j

/-! ## The square product at an index

The product contracts axis 1 of the feature table with axis 0 of the square weight. -/

/-- On the left operand's free axis the index is the output's row. -/
theorem lhs_sq_0 (i : S1000000x64.Idx) (q : dot_S1000000x64_S64x64_S1000000x64_1_0_0_1_n_n.contr.Idx) :
    (dot_S1000000x64_S64x64_S1000000x64_1_0_0_1_n_n.lhsIdx i q 0).val = (i 0).val := by
  unfold DotDims.lhsIdx
  rw [dif_neg (show ¬(0 : Fin S1000000x64.rank) ∈ dot_S1000000x64_S64x64_S1000000x64_1_0_0_1_n_n.lhsBatch by decide), dif_pos (show (0 : Fin S1000000x64.rank) ∈ dot_S1000000x64_S64x64_S1000000x64_1_0_0_1_n_n.lhsNonContracting by decide)]
  rfl

/-- On the left operand's contracted axis the index is the contraction position. -/
theorem lhs_sq_1 (i : S1000000x64.Idx) (q : dot_S1000000x64_S64x64_S1000000x64_1_0_0_1_n_n.contr.Idx) :
    (dot_S1000000x64_S64x64_S1000000x64_1_0_0_1_n_n.lhsIdx i q 1).val = (q ⟨0, by decide⟩).val :=
  dot_S1000000x64_S64x64_S1000000x64_1_0_0_1_n_n.lhsIdx_val_of_single rfl i q

/-- On the right operand's contracted axis the index is the contraction position. -/
theorem rhs_sq_0 (i : S1000000x64.Idx) (q : dot_S1000000x64_S64x64_S1000000x64_1_0_0_1_n_n.contr.Idx) :
    (dot_S1000000x64_S64x64_S1000000x64_1_0_0_1_n_n.rhsIdx i q 0).val = (q ⟨0, by decide⟩).val :=
  dot_S1000000x64_S64x64_S1000000x64_1_0_0_1_n_n.rhsIdx_val_of_single rfl i q

/-- On the right operand's free axis the index is the output's column. -/
theorem rhs_sq_1 (i : S1000000x64.Idx) (q : dot_S1000000x64_S64x64_S1000000x64_1_0_0_1_n_n.contr.Idx) :
    (dot_S1000000x64_S64x64_S1000000x64_1_0_0_1_n_n.rhsIdx i q 1).val = (i 1).val := by
  unfold DotDims.rhsIdx
  rw [dif_neg (show ¬(1 : Fin S64x64.rank) ∈ dot_S1000000x64_S64x64_S1000000x64_1_0_0_1_n_n.rhsBatch by decide), dif_pos (show (1 : Fin S64x64.rank) ∈ dot_S1000000x64_S64x64_S1000000x64_1_0_0_1_n_n.rhsNonContracting by decide)]
  rfl

/-- The host product of the feature table and the square weight, at row n and column j. -/
theorem dot_sq_apply (x : FVec Ideal S1000000x64 .f32) (w : FVec Ideal S64x64 .f32) (n : Fin 1000000) (j : Fin 64) :
    Host.dotGeneral (F := Ideal) dot_S1000000x64_S64x64_S1000000x64_1_0_0_1_n_n none x w (ix2 n j) = ∑ k : Fin 64, x (ix2 n k) * w (ix2 k j) := by
  refine (Ideal.dotGeneral_apply dot_S1000000x64_S64x64_S1000000x64_1_0_0_1_n_n none .single x w (ix2 n j)).trans ?_
  rw [← Equiv.sum_comp (contrEquiv1 dot_S1000000x64_S64x64_S1000000x64_1_0_0_1_n_n 64 rfl rfl).symm]
  refine Finset.sum_congr rfl fun k _ => ?_
  have hk := contrEquiv1_symm_val dot_S1000000x64_S64x64_S1000000x64_1_0_0_1_n_n 64 rfl rfl k
  have el : dot_S1000000x64_S64x64_S1000000x64_1_0_0_1_n_n.lhsIdx (ix2 n j) ((contrEquiv1 dot_S1000000x64_S64x64_S1000000x64_1_0_0_1_n_n 64 rfl rfl).symm k) = ix2 n k :=
    funext fun a => Fin.ext (by
      match a with
      | ⟨0, _⟩ => exact lhs_sq_0 _ _
      | ⟨1, _⟩ => exact (lhs_sq_1 _ _).trans hk)
  have er : dot_S1000000x64_S64x64_S1000000x64_1_0_0_1_n_n.rhsIdx (ix2 n j) ((contrEquiv1 dot_S1000000x64_S64x64_S1000000x64_1_0_0_1_n_n 64 rfl rfl).symm k) = ix2 k j :=
    funext fun a => Fin.ext (by
      match a with
      | ⟨0, _⟩ => exact (rhs_sq_0 _ _).trans hk
      | ⟨1, _⟩ => exact rhs_sq_1 _ _)
  rw [el, er]

/-- The first linear layer at row n, column j: the row through the weight, plus the bias. -/
theorem raw_apply (a1 : FVec Ideal S1000000x64 .f32) (a3 : FVec Ideal S64x64 .f32) (a4 : FVec Ideal S64 .f32)
    (n : Fin 1000000) (j : Fin 64) :
    RefValue.raw a1 a3 a4 (ix2 n j) = (∑ k : Fin 64, a1 (ix2 n k) * a3 (ix2 k j)) + a4 (ix1 j) := by
  unfold RefValue.raw
  rw [addf_apply, dot_sq_apply, rows_apply_ix2]

/-! ## The positional product at an index

The product contracts axis 1 of the [1000000, 3] points with axis 0 of the [3, 64] weight. -/

/-- On the left operand's free axis the index is the output's row. -/
theorem lhs_pos_0 (i : S1000000x64.Idx) (q : dot_S1000000x3_S3x64_S1000000x64_1_0_0_1_n_n.contr.Idx) :
    (dot_S1000000x3_S3x64_S1000000x64_1_0_0_1_n_n.lhsIdx i q 0).val = (i 0).val := by
  unfold DotDims.lhsIdx
  rw [dif_neg (show ¬(0 : Fin S1000000x3.rank) ∈ dot_S1000000x3_S3x64_S1000000x64_1_0_0_1_n_n.lhsBatch by decide), dif_pos (show (0 : Fin S1000000x3.rank) ∈ dot_S1000000x3_S3x64_S1000000x64_1_0_0_1_n_n.lhsNonContracting by decide)]
  rfl

/-- On the left operand's contracted axis the index is the contraction position. -/
theorem lhs_pos_1 (i : S1000000x64.Idx) (q : dot_S1000000x3_S3x64_S1000000x64_1_0_0_1_n_n.contr.Idx) :
    (dot_S1000000x3_S3x64_S1000000x64_1_0_0_1_n_n.lhsIdx i q 1).val = (q ⟨0, by decide⟩).val :=
  dot_S1000000x3_S3x64_S1000000x64_1_0_0_1_n_n.lhsIdx_val_of_single rfl i q

/-- On the right operand's contracted axis the index is the contraction position. -/
theorem rhs_pos_0 (i : S1000000x64.Idx) (q : dot_S1000000x3_S3x64_S1000000x64_1_0_0_1_n_n.contr.Idx) :
    (dot_S1000000x3_S3x64_S1000000x64_1_0_0_1_n_n.rhsIdx i q 0).val = (q ⟨0, by decide⟩).val :=
  dot_S1000000x3_S3x64_S1000000x64_1_0_0_1_n_n.rhsIdx_val_of_single rfl i q

/-- On the right operand's free axis the index is the output's column. -/
theorem rhs_pos_1 (i : S1000000x64.Idx) (q : dot_S1000000x3_S3x64_S1000000x64_1_0_0_1_n_n.contr.Idx) :
    (dot_S1000000x3_S3x64_S1000000x64_1_0_0_1_n_n.rhsIdx i q 1).val = (i 1).val := by
  unfold DotDims.rhsIdx
  rw [dif_neg (show ¬(1 : Fin S3x64.rank) ∈ dot_S1000000x3_S3x64_S1000000x64_1_0_0_1_n_n.rhsBatch by decide), dif_pos (show (1 : Fin S3x64.rank) ∈ dot_S1000000x3_S3x64_S1000000x64_1_0_0_1_n_n.rhsNonContracting by decide)]
  rfl

/-- The host product of a [1000000, 3] array and the positional weight, at row n and column j. -/
theorem dot_pos_apply (x : FVec Ideal S1000000x3 .f32) (w : FVec Ideal S3x64 .f32) (n : Fin 1000000) (j : Fin 64) :
    Host.dotGeneral (F := Ideal) dot_S1000000x3_S3x64_S1000000x64_1_0_0_1_n_n none x w (ix2 n j) = ∑ k : Fin 3, x (ix2 n k) * w (ix2 k j) := by
  refine (Ideal.dotGeneral_apply dot_S1000000x3_S3x64_S1000000x64_1_0_0_1_n_n none .single x w (ix2 n j)).trans ?_
  rw [← Equiv.sum_comp (contrEquiv1 dot_S1000000x3_S3x64_S1000000x64_1_0_0_1_n_n 3 rfl rfl).symm]
  refine Finset.sum_congr rfl fun k _ => ?_
  have hk := contrEquiv1_symm_val dot_S1000000x3_S3x64_S1000000x64_1_0_0_1_n_n 3 rfl rfl k
  have el : dot_S1000000x3_S3x64_S1000000x64_1_0_0_1_n_n.lhsIdx (ix2 n j) ((contrEquiv1 dot_S1000000x3_S3x64_S1000000x64_1_0_0_1_n_n 3 rfl rfl).symm k) = ix2 n k :=
    funext fun a => Fin.ext (by
      match a with
      | ⟨0, _⟩ => exact lhs_pos_0 _ _
      | ⟨1, _⟩ => exact (lhs_pos_1 _ _).trans hk)
  have er : dot_S1000000x3_S3x64_S1000000x64_1_0_0_1_n_n.rhsIdx (ix2 n j) ((contrEquiv1 dot_S1000000x3_S3x64_S1000000x64_1_0_0_1_n_n 3 rfl rfl).symm k) = ix2 k j :=
    funext fun a => Fin.ext (by
      match a with
      | ⟨0, _⟩ => exact (rhs_pos_0 _ _).trans hk
      | ⟨1, _⟩ => exact rhs_pos_1 _ _)
  rw [el, er]

/-- The host floor of an array reads, at an index, the floor of the entry. -/
theorem floor_apply {s : Shape} (x : FVec Ideal s .f32) (i : s.Idx) :
    Host.floor (F := Ideal) x i = Ideal.liftRound Int.floor (x i) := rfl

/-- The positional layer at row n, column j: the floored point through the weight, plus the bias. -/
theorem posW_apply (a0 : FVec Ideal S1000000x3 .f32) (a7 : FVec Ideal S3x64 .f32) (a8 : FVec Ideal S64 .f32)
    (n : Fin 1000000) (j : Fin 64) :
    RefValue.posW a0 a7 a8 (ix2 n j)
      = ((Ideal.liftRound Int.floor (a0 (ix2 n 0)) * a7 (ix2 0 j)
            + Ideal.liftRound Int.floor (a0 (ix2 n 1)) * a7 (ix2 1 j))
          + Ideal.liftRound Int.floor (a0 (ix2 n 2)) * a7 (ix2 2 j)) + a8 (ix1 j) := by
  unfold RefValue.posW
  rw [addf_apply, dot_pos_apply, rows_apply_ix2, Fin.sum_univ_three]
  rfl

/-! ## Real operands give real layers -/

/-- Every entry of the first layer is a real when every operand entry is. -/
theorem raw_real (a1 : FVec Ideal S1000000x64 .f32) (a3 : FVec Ideal S64x64 .f32) (a4 : FVec Ideal S64 .f32)
    (h1 : ∀ i, ∃ r : ℝ, a1 i = (r : EReal)) (h3 : ∀ i, ∃ r : ℝ, a3 i = (r : EReal))
    (h4 : ∀ i, ∃ r : ℝ, a4 i = (r : EReal)) :
    ∀ i, ∃ r : ℝ, RefValue.raw a1 a3 a4 i = (r : EReal) := by
  intro i
  choose x1 hx1 using h1
  choose x3 hx3 using h3
  choose x4 hx4 using h4
  obtain ⟨n, j, rfl⟩ : ∃ (n : Fin 1000000) (j : Fin 64), i = ix2 n j := ⟨i 0, i 1, eq_ix2 i⟩
  rw [raw_apply]
  simp only [hx1, hx3, hx4, ← EReal.coe_mul, ← Cert.BnAlgebra.coe_sum, ← EReal.coe_add]
  exact ⟨_, rfl⟩

/-- Every entry of the positional layer is a real when every operand entry is. -/
theorem posW_real (a0 : FVec Ideal S1000000x3 .f32) (a7 : FVec Ideal S3x64 .f32) (a8 : FVec Ideal S64 .f32)
    (h0 : ∀ i, ∃ r : ℝ, a0 i = (r : EReal)) (h7 : ∀ i, ∃ r : ℝ, a7 i = (r : EReal))
    (h8 : ∀ i, ∃ r : ℝ, a8 i = (r : EReal)) :
    ∀ i, ∃ r : ℝ, RefValue.posW a0 a7 a8 i = (r : EReal) := by
  intro i
  choose x0 hx0 using h0
  choose x7 hx7 using h7
  choose x8 hx8 using h8
  obtain ⟨n, j, rfl⟩ : ∃ (n : Fin 1000000) (j : Fin 64), i = ix2 n j := ⟨i 0, i 1, eq_ix2 i⟩
  rw [posW_apply]
  simp only [hx0, hx7, hx8, Ideal.liftRound_coe, ← EReal.coe_mul, ← EReal.coe_add]
  exact ⟨_, rfl⟩

end Cert.ReferenceIdeal.RefReadDot

end
-- ==== Proof.KChainA.lean ====
import proofs.«430596_j44092134261327_3_alg».proof.Proof.KReg0
import proofs.«430596_j44092134261327_3_alg».proof.Proof.KReg1
import proofs.«430596_j44092134261327_3_alg».proof.Proof.KHostA
import proofs.«430596_j44092134261327_3_alg».proof.Proof.KArgs
import proofs.«430596_j44092134261327_3_alg».proof.Proof.PreDecode
import proofs.«430596_j44092134261327_3_alg».proof.Proof.BnBridge
import proofs.«430596_j44092134261327_3_alg».proof.Proof.RefReadDot

set_option maxRecDepth 16384

noncomputable section

namespace Cert.KernelIdeal.ChainA

open Cert.KernelIdeal Cert.KernelIdeal.Gen Cert.KernelIdeal.KArgs
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first two regions of the kernel compute the reference's first stages

Region 0 leaves the positional layer and the column sums of the first linear layer and of its square; the host stretch
after it turns the two sums into a scale and a shift; region 1 applies them to the first linear layer, which is the
reference's batch normalisation of it, and multiplies the result by the positional layer. -/

/-- The reference's first linear layer at the launch arguments. -/
abbrev Xr (c : Dev nD) : FVec Ideal Cert.ReferenceIdeal.S1000000x64 .f32 := Cert.ReferenceIdeal.RefValue.raw (F := Ideal) (a1 m c) (a3 m c) (a4 m c)

/-! ### Region 0 -/

/-- Region 0's first result is the reference's positional layer. -/
theorem posw_eq (c : Dev nD) : V2 m ρ c main_v2_0 = Cert.ReferenceIdeal.RefValue.posW (F := Ideal) (a0 m c) (a7 m c) (a8 m c) := by
  refine ((W2_arr m ρ c 6).trans (Reg0.arr_posw (V1 m ρ) c)).trans ?_
  funext i
  obtain ⟨n, j, rfl⟩ : ∃ (n : Fin 1000000) (j : Fin 64), i = ix2 n j := ⟨i 0, i 1, eq_ix2 i⟩
  rw [Cert.ReferenceIdeal.RefReadDot.posW_apply]
  show ((Ideal.liftRound Int.floor (Reg0.P (V1 m ρ) c (ix2 n 0)) * Reg0.Wp (V1 m ρ) c (ix2 0 j)
      + Ideal.liftRound Int.floor (Reg0.P (V1 m ρ) c (ix2 n 1)) * Reg0.Wp (V1 m ρ) c (ix2 1 j))
      + Ideal.liftRound Int.floor (Reg0.P (V1 m ρ) c (ix2 n 2)) * Reg0.Wp (V1 m ρ) c (ix2 2 j))
      + Reg0.Bp (V1 m ρ) c (ix2 0 j) = _
  rw [show Reg0.P (V1 m ρ) c = a0 m c from HostA.V1_main_arg0 m ρ c,
    show Reg0.Wp (V1 m ρ) c = a7 m c from HostA.V1_main_arg7 m ρ c,
    show Reg0.Bp (V1 m ρ) c (ix2 0 j) = a8 m c (ix1 j) from HostA.V1_main_v1 m ρ c j]

/-- Region 0 reads the first linear layer's operands as launched: its pre-activation is the reference's. -/
theorem raw0_eq (c : Dev nD) (n : Fin 1000000) (j : Fin 64) :
    Reg0.raw (V1 m ρ) c n j = Xr m c (ix2 n j) := by
  refine Eq.trans ?_ (Cert.ReferenceIdeal.RefReadDot.raw_apply (a1 m c) (a3 m c) (a4 m c) n j).symm
  show (∑ k : Fin 64, Reg0.X (V1 m ρ) c (ix2 n k) * Reg0.W (V1 m ρ) c (ix2 k j)) + Reg0.B (V1 m ρ) c (ix2 0 j) = _
  rw [show Reg0.X (V1 m ρ) c = a1 m c from HostA.V1_main_arg1 m ρ c,
    show Reg0.W (V1 m ρ) c = a3 m c from HostA.V1_main_arg3 m ρ c,
    show Reg0.B (V1 m ρ) c (ix2 0 j) = a4 m c (ix1 j) from HostA.V1_main_v0 m ρ c j]

/-- Region 0's second result, at column `j`: the column sum of the reference's first linear layer. -/
theorem sum1_eq (c : Dev nD) (j : Fin 64) :
    (V2 m ρ c main_v2_1 : S1x64.Idx → EReal) (ix2 0 j) = Cert.ReferenceIdeal.BnBridge.colS (Xr m c) j := by
  have e : V2 m ρ c main_v2_1 = Reg0.sumArr (V1 m ρ) c := (W2_arr m ρ c 7).trans (Reg0.arr_sum (V1 m ρ) c)
  rw [e]
  show (∑ n : Fin 1000000, Reg0.raw (V1 m ρ) c n j : EReal) = ∑ n : Fin 1000000, Xr m c (ix2 n j)
  exact Finset.sum_congr rfl fun n _ => raw0_eq m ρ c n j

/-- Region 0's third result, at column `j`: the column sum of the squares. -/
theorem sumsq1_eq (c : Dev nD) (j : Fin 64) :
    (V2 m ρ c main_v2_2 : S1x64.Idx → EReal) (ix2 0 j) = Cert.ReferenceIdeal.BnBridge.colQ (Xr m c) j := by
  have e : V2 m ρ c main_v2_2 = Reg0.sumsqArr (V1 m ρ) c := (W2_arr m ρ c 8).trans (Reg0.arr_sumsq (V1 m ρ) c)
  rw [e]
  show (∑ n : Fin 1000000, Reg0.raw (V1 m ρ) c n j * Reg0.raw (V1 m ρ) c n j : EReal)
    = ∑ n : Fin 1000000, Xr m c (ix2 n j) * Xr m c (ix2 n j)
  exact Finset.sum_congr rfl fun n _ => by rw [raw0_eq]

/-! ### The host stretch between the regions: the statistics -/

/-- The host's inverse standard deviation of the two column sums is the one-pass form's. -/
theorem invStd_eq (x : FVec Ideal Cert.ReferenceIdeal.S1000000x64 .f32) (j : Fin 64) :
    HostA.invStd (Cert.ReferenceIdeal.BnBridge.colS x j) (Cert.ReferenceIdeal.BnBridge.colQ x j) = Cert.ReferenceIdeal.BnBridge.kinv x j := by
  rw [HostA.invStd_def, Ideal.ofBits_zero_f32]
  rfl

/-- The host's mean of the column sum is the one-pass form's. -/
theorem mean_eq (x : FVec Ideal Cert.ReferenceIdeal.S1000000x64 .f32) (j : Fin 64) :
    HostA.mean (Cert.ReferenceIdeal.BnBridge.colS x j) = Cert.ReferenceIdeal.BnBridge.kmean x j := rfl

/-- Region 1's scale row: gamma times the inverse standard deviation of the first linear layer's column. -/
theorem scale_eq (c : Dev nD) (j : Fin 64) :
    Reg1.arrSc (V3 m ρ) c (ix2 (0 : Fin 1) j) = a5 m c (ix1 j) * Cert.ReferenceIdeal.BnBridge.kinv (Xr m c) j := by
  refine (HostA.V3_main_v15 m ρ c j).trans ?_
  rw [sum1_eq m ρ c j, sumsq1_eq m ρ c j, invStd_eq]

/-- Region 1's shift row: beta less the column mean times the scale. -/
theorem shift_eq (c : Dev nD) (j : Fin 64) :
    Reg1.arrSh (V3 m ρ) c (ix2 (0 : Fin 1) j)
      = a6 m c (ix1 j) - Cert.ReferenceIdeal.BnBridge.kmean (Xr m c) j * (a5 m c (ix1 j) * Cert.ReferenceIdeal.BnBridge.kinv (Xr m c) j) := by
  refine (HostA.V3_main_v18 m ρ c j).trans ?_
  rw [sum1_eq m ρ c j, sumsq1_eq m ρ c j, invStd_eq, mean_eq]

/-! ### Region 1 -/

/-- Region 1 reads the first linear layer's operands as launched too. -/
theorem raw1_eq (c : Dev nD) (n : Fin 1000000) (j : Fin 64) :
    Reg1.raw (V3 m ρ) c n j = Xr m c (ix2 n j) := by
  refine Eq.trans ?_ (Cert.ReferenceIdeal.RefReadDot.raw_apply (a1 m c) (a3 m c) (a4 m c) n j).symm
  show (∑ k : Fin 64, Reg1.arrX (V3 m ρ) c (ix2 n k) * Reg1.arrW (V3 m ρ) c (ix2 k j))
    + Reg1.arrB (V3 m ρ) c (ix2 (0 : Fin 1) j) = _
  rw [show Reg1.arrX (V3 m ρ) c = a1 m c from HostA.V3_main_arg1 m ρ c,
    show Reg1.arrW (V3 m ρ) c = a3 m c from HostA.V3_main_arg3 m ρ c,
    show Reg1.arrB (V3 m ρ) c (ix2 (0 : Fin 1) j) = a4 m c (ix1 j) from HostA.V3_main_v19 m ρ c j]

variable [Cert.Pre_finite_inputs.Facts]

/-- Scaled and shifted, the first linear layer is the reference's batch normalisation of it: the one-pass and the
    two-pass forms agree on real arrays, and the arguments are real under the precondition. -/
theorem feat1_eq (c : Dev nD) (hpre : KArgs.Pre m c) (i : S1000000x64.Idx) :
    Reg1.feat (V3 m ρ) c i = Cert.ReferenceIdeal.RefValue.feat (F := Ideal) (a1 m c) (a3 m c) (a4 m c) (a5 m c) (a6 m c) i := by
  obtain ⟨n, j, rfl⟩ : ∃ (n : Fin 1000000) (j : Fin 64), i = ix2 n j := ⟨i 0, i 1, eq_ix2 i⟩
  show Reg1.raw (V3 m ρ) c n j * Reg1.arrSc (V3 m ρ) c (ix2 (0 : Fin 1) j) + Reg1.arrSh (V3 m ρ) c (ix2 (0 : Fin 1) j)
    = Cert.ReferenceIdeal.RefValue.bn (Xr m c) (a5 m c) (a6 m c) (ix2 n j)
  rw [raw1_eq, scale_eq, shift_eq]
  exact Cert.ReferenceIdeal.BnBridge.bn_bridge (Xr m c) (a5 m c) (a6 m c)
    (Cert.ReferenceIdeal.RefReadDot.raw_real (a1 m c) (a3 m c) (a4 m c) (Cert.PreDecode.finite_a1 hpre) (Cert.PreDecode.finite_a3 hpre)
      (Cert.PreDecode.finite_a4 hpre))
    (Cert.PreDecode.finite_a5 hpre) (Cert.PreDecode.finite_a6 hpre) n j

/-- Region 1's first result is the reference's normalised first layer. -/
theorem feat_eq (c : Dev nD) (hpre : KArgs.Pre m c) : V4 m ρ c main_v20_0 = Cert.ReferenceIdeal.RefValue.feat (F := Ideal) (a1 m c) (a3 m c) (a4 m c) (a5 m c) (a6 m c) := by
  refine ((W4_arr m ρ c 6).trans (Reg1.arr_feat (V3 m ρ) c)).trans ?_
  funext i
  exact feat1_eq m ρ c hpre i

/-- Region 1's second result is the positional layer times the normalised first layer. -/
theorem tmp_eq (c : Dev nD) (hpre : KArgs.Pre m c) :
    V4 m ρ c main_v20_1 = mulf (Cert.ReferenceIdeal.RefValue.posW (F := Ideal) (a0 m c) (a7 m c) (a8 m c)) (Cert.ReferenceIdeal.RefValue.feat (F := Ideal) (a1 m c) (a3 m c) (a4 m c) (a5 m c) (a6 m c)) := by
  refine ((W4_arr m ρ c 7).trans (Reg1.arr_tmp (V3 m ρ) c)).trans ?_
  funext i
  show Reg1.arrPw (V3 m ρ) c i * Reg1.feat (V3 m ρ) c i = (Cert.ReferenceIdeal.RefValue.posW (F := Ideal) (a0 m c) (a7 m c) (a8 m c)) i * (Cert.ReferenceIdeal.RefValue.feat (F := Ideal) (a1 m c) (a3 m c) (a4 m c) (a5 m c) (a6 m c)) i
  rw [show Reg1.arrPw (V3 m ρ) c = Cert.ReferenceIdeal.RefValue.posW (F := Ideal) (a0 m c) (a7 m c) (a8 m c) from (HostA.V3_main_v2_0 m ρ c).trans (posw_eq m ρ c),
    feat1_eq m ρ c hpre i]

end Cert.KernelIdeal.ChainA
-- ==== Proof.RefRead.lean ====
/-
  The stages of the reference's value read at an index, at the extended reals: a row broadcast reads its vector at the
  column; a column sum is the sum of the column's 1000000 entries; the mean and the biased variance are quotients by
  the float 1000000 (the variance's select is decided, its divisor 1000000 - 0 being positive); batch normalisation,
  the quotient and the final rectified sum are pointwise in those. The three float constants are read as reals.
-/
import proofs.«430596_j44092134261327_3_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-! ## The three float constants as reals -/

/-- The word 0x49742400 denotes the real 1000000 (1.9073486328125 · 2^19 = 15625 · 2^6). -/
theorem ofBits_million : Ideal.ofBits .f32 0x49742400#32 = ((1000000 : ℝ) : EReal) := by
  simp [Ideal.ofBits, Ideal.ieee, -EReal.coe_mul]; norm_num

/-- The word 0x3A83126F denotes a positive real (the float nearest 1e-3). -/
theorem ofBits_eps_pos : ∃ e : ℝ, 0 < e ∧ Ideal.ofBits .f32 0x3A83126F#32 = (e : EReal) := by
  refine ⟨_, ?_, by simp [Ideal.ofBits, Ideal.ieee, -EReal.coe_mul]; rfl⟩
  norm_num

/-- The word 0x38D1B717 denotes a real (the float nearest 1e-4). -/
theorem ofBits_tiny_real : ∃ d : ℝ, Ideal.ofBits .f32 0x38D1B717#32 = (d : EReal) := by
  refine ⟨_, by simp [Ideal.ofBits, Ideal.ieee, -EReal.coe_mul]; rfl⟩

/-! ## Rows and splats -/

theorem rows_apply (v : FVec Ideal S64 .f32) (i : S1000000x64.Idx) : RefValue.rows v i = v (ix1 (i 1)) := by
  unfold RefValue.rows
  refine (broadcastInDim_apply _ _ _ i (ix2 (0 : Fin 1) (i 1)) ?_).trans ?_
  · intro a
    match a with
    | ⟨0, _⟩ => rfl
    | ⟨1, _⟩ => rfl
  · exact broadcastInDim_apply _ _ v (ix2 (0 : Fin 1) (i 1)) (ix1 (i 1)) (by
      intro a
      match a with
      | ⟨0, _⟩ => rfl)

theorem splat64_apply (w : BitVec 32) (j : S64.Idx) : RefValue.splat64 (F := Ideal) w j = Ideal.ofBits .f32 w := rfl

/-! ## The column sums, means and variances -/

/-- The reduction of axis 0 of a [1000000, 64] array into [64], as the kernel-side shape fact (it names the inserted
    index). -/
theorem reduces_cols : S1000000x64.Reduces [0] S64 :=
  ⟨reducesTo_S1000000x64_S64_d0.1, Nat.one_pos, reducesTo_S1000000x64_S64_d0.2⟩

/-- A column sum from zero is the sum of the column's 1000000 entries (column c). -/
theorem colSum_ix (x : FVec Ideal S1000000x64 .f32) (c : Fin 64) :
    RefValue.colSum x (ix1 c) = ∑ n : Fin 1000000, x (ix2 n c) := by
  show Ideal.hostReduceAdd reducesTo_S1000000x64_S64_d0 x (Ideal.ofBits .f32 0x00000000#32) (ix1 c) = _
  rw [Ideal.hostReduceAdd_single _ reduces_cols, Ideal.ofBits_zero_f32, zero_add]
  refine Finset.sum_congr rfl fun k _ => congrArg x (funext fun a => Fin.ext ?_)
  match a with
  | ⟨0, _⟩ => rfl
  | ⟨1, _⟩ => rfl

/-- The same at a [64] index. -/
theorem colSum_apply (x : FVec Ideal S1000000x64 .f32) (j : S64.Idx) :
    RefValue.colSum x j = ∑ n : Fin 1000000, x (ix2 n (j 0)) := by
  obtain ⟨c, rfl⟩ : ∃ c : Fin 64, j = ix1 c := ⟨j 0, eq_ix1 j⟩
  exact colSum_ix x c

/-- A column mean is the column sum over the float 1000000 (column c). -/
theorem colMean_ix (x : FVec Ideal S1000000x64 .f32) (c : Fin 64) :
    RefValue.colMean x (ix1 c) = Ideal.div (∑ n : Fin 1000000, x (ix2 n c)) (Ideal.ofBits .f32 0x49742400#32) := by
  show Ideal.div (RefValue.colSum x (ix1 c)) (RefValue.splat64 (F := Ideal) 0x49742400#32 (ix1 c)) = _
  rw [colSum_ix, splat64_apply]

/-- The same at a [64] index. -/
theorem colMean_apply (x : FVec Ideal S1000000x64 .f32) (j : S64.Idx) :
    RefValue.colMean x j = Ideal.div (∑ n : Fin 1000000, x (ix2 n (j 0))) (Ideal.ofBits .f32 0x49742400#32) := by
  obtain ⟨c, rfl⟩ : ∃ c : Fin 64, j = ix1 c := ⟨j 0, eq_ix1 j⟩
  exact colMean_ix x c

/-- The mean row at column c is the same quotient. -/
theorem meanRow_ix (x : FVec Ideal S1000000x64 .f32) (c : Fin 64) :
    RefValue.meanRow x (ix2 (0 : Fin 1) c)
      = Ideal.div (∑ n : Fin 1000000, x (ix2 n c)) (Ideal.ofBits .f32 0x49742400#32) := by
  unfold RefValue.meanRow
  show Ideal.div (broadcastInDim S1x64 ![1] bcast_S64_S1x64_1 (RefValue.colSum x) (ix2 (0 : Fin 1) c)) (Ideal.ofBits .f32 0x49742400#32) = _
  rw [broadcastInDim_apply _ _ (RefValue.colSum x) (ix2 (0 : Fin 1) c) (ix1 c) (by
      intro a
      match a with
      | ⟨0, _⟩ => rfl), colSum_ix]

/-- The centred array at (n, c): the entry less its column's mean. -/
theorem centred_ix (x : FVec Ideal S1000000x64 .f32) (n : Fin 1000000) (c : Fin 64) :
    RefValue.centred x (ix2 n c)
      = x (ix2 n c) - Ideal.div (∑ m : Fin 1000000, x (ix2 m c)) (Ideal.ofBits .f32 0x49742400#32) := by
  unfold RefValue.centred
  rw [subf_apply]
  refine congrArg (x (ix2 n c) - ·) ?_
  exact (broadcastInDim_apply _ _ (RefValue.meanRow x) (ix2 n c) (ix2 (0 : Fin 1) c) (by
      intro a
      match a with
      | ⟨0, _⟩ => rfl
      | ⟨1, _⟩ => rfl)).trans (meanRow_ix x c)

/-- The variance's divisor is the real 1000000: 1000000 less the integer 0. -/
theorem count_apply (j : S_.Idx) : RefValue.count (F := Ideal) j = ((1000000 : ℝ) : EReal) := by
  show Ideal.ofBits .f32 0x49742400#32 - (((0#32 : BitVec 32).toInt : ℝ) : EReal) = _
  rw [ofBits_million]
  simp

/-- The divisor is positive, so the select keeps the quotient. -/
theorem count_pos_bit (j : S_.Idx) :
    cmpf .ogt (RefValue.count (F := Ideal)) (constant (F := Ideal) S_ .f32 0x00000000#32) j = 1#1 := by
  show Ideal.cmp .ogt (RefValue.count (F := Ideal) j) (Ideal.ofBits .f32 0x00000000#32) = 1#1
  rw [count_apply, Ideal.ofBits_zero_f32]
  have h : (0 : EReal) < ((1000000 : ℝ) : EReal) := by exact_mod_cast (by norm_num : (0 : ℝ) < 1000000)
  simp [Ideal.cmp, h]

/-- A biased column variance: the sum of the squared centred entries over the float 1000000 (column c). -/
theorem colVar_ix (x : FVec Ideal S1000000x64 .f32) (c : Fin 64) :
    RefValue.colVar x (ix1 c)
      = Ideal.div (∑ n : Fin 1000000,
            (x (ix2 n c) - Ideal.div (∑ m : Fin 1000000, x (ix2 m c)) (Ideal.ofBits .f32 0x49742400#32))
              * (x (ix2 n c) - Ideal.div (∑ m : Fin 1000000, x (ix2 m c)) (Ideal.ofBits .f32 0x49742400#32)))
          (Ideal.ofBits .f32 0x49742400#32) := by
  unfold RefValue.colVar
  rw [select_apply]
  have hc : broadcastInDim S64 ![] bcast_S_S64
      (cmpf .ogt (RefValue.count (F := Ideal)) (constant (F := Ideal) S_ .f32 0x00000000#32)) (ix1 c) = 1#1 :=
    count_pos_bit _
  rw [hc, select_one]
  show Ideal.div (RefValue.colSum (mulf (RefValue.centred x) (RefValue.centred x)) (ix1 c)) (RefValue.count (F := Ideal) _) = _
  have hs : (∑ n : Fin 1000000, mulf (RefValue.centred x) (RefValue.centred x) (ix2 n c))
      = ∑ n : Fin 1000000,
          (x (ix2 n c) - Ideal.div (∑ m : Fin 1000000, x (ix2 m c)) (Ideal.ofBits .f32 0x49742400#32))
            * (x (ix2 n c) - Ideal.div (∑ m : Fin 1000000, x (ix2 m c)) (Ideal.ofBits .f32 0x49742400#32)) :=
    Finset.sum_congr rfl fun n _ => by rw [mulf_apply, centred_ix]
  rw [colSum_ix, count_apply, ← ofBits_million, hs]

/-- The same at a [64] index. -/
theorem colVar_apply (x : FVec Ideal S1000000x64 .f32) (j : S64.Idx) :
    RefValue.colVar x j
      = Ideal.div (∑ n : Fin 1000000,
            (x (ix2 n (j 0)) - Ideal.div (∑ m : Fin 1000000, x (ix2 m (j 0))) (Ideal.ofBits .f32 0x49742400#32))
              * (x (ix2 n (j 0)) - Ideal.div (∑ m : Fin 1000000, x (ix2 m (j 0))) (Ideal.ofBits .f32 0x49742400#32)))
          (Ideal.ofBits .f32 0x49742400#32) := by
  obtain ⟨c, rfl⟩ : ∃ c : Fin 64, j = ix1 c := ⟨j 0, eq_ix1 j⟩
  exact colVar_ix x c

/-! ## Batch normalisation -/

/-- Batch normalisation at an index; the reciprocal square root is the extended reals' `Ideal.rsqrt`. -/
theorem bn_apply (x : FVec Ideal S1000000x64 .f32) (g b : FVec Ideal S64 .f32) (i : S1000000x64.Idx) :
    RefValue.bn x g b i
      = ((x i - RefValue.colMean x (ix1 (i 1)))
            * Ideal.rsqrt (RefValue.colVar x (ix1 (i 1)) + Ideal.ofBits .f32 0x3A83126F#32)) * g (ix1 (i 1))
          + b (ix1 (i 1)) := by
  unfold RefValue.bn
  rw [addf_apply, mulf_apply, mulf_apply, subf_apply, rows_apply, rows_apply, rows_apply, rows_apply]
  rfl

/-! ## The quotient and the result -/

/-- The host's quotient at an index is the extended reals' division of the entries. -/
theorem hostDivf_apply {s : Shape} (a b : FVec Ideal s .f32) (i : s.Idx) : Host.divf a b i = Ideal.div (a i) (b i) := rfl

/-- The host's negation at an index negates the entry. -/
theorem hostNegf_apply {s : Shape} (a : FVec Ideal s .f32) (i : s.Idx) : Host.negf a i = -(a i) := rfl

/-- A scalar constant laid over a [1000000, 64] array reads the constant everywhere. -/
theorem splatAll_apply (w : BitVec 32) (i : S1000000x64.Idx) :
    broadcastInDim S1000000x64 ![] bcast_S_S1000000x64 (constant (F := Ideal) S_ .f32 w) i = Ideal.ofBits .f32 w := rfl

/-- The quotient at an index: pos_w times the negated feature sum, over the weight sum plus the float nearest 1e-4. -/
theorem outRaw_apply (pw fa tw : FVec Ideal S1000000x64 .f32) (i : S1000000x64.Idx) :
    RefValue.outRaw pw fa tw i = Ideal.div (pw i * -(fa i)) (tw i + Ideal.ofBits .f32 0x38D1B717#32) := by
  unfold RefValue.outRaw
  rw [hostDivf_apply, mulf_apply, hostNegf_apply, addf_apply, splatAll_apply]

/-- The result at an index: the rectified normalised quotient plus the normalised first layer. -/
theorem result_apply (a0 : FVec Ideal S1000000x3 .f32) (a1 : FVec Ideal S1000000x64 .f32) (a2 : IVec S1000000 32)
    (a3 : FVec Ideal S64x64 .f32) (a4 a5 a6 : FVec Ideal S64 .f32) (a7 : FVec Ideal S3x64 .f32)
    (a8 a9 a10 : FVec Ideal S64 .f32) (i : S1000000x64.Idx) :
    RefValue.result a0 a1 a2 a3 a4 a5 a6 a7 a8 a9 a10 i
      = max (RefValue.bn (RefValue.quot a0 a1 a2 a3 a4 a5 a6 a7 a8) a9 a10 i) 0 + RefValue.feat a1 a3 a4 a5 a6 i := by
  unfold RefValue.result
  rw [addf_apply, maximumf_apply, splatAll_apply, Ideal.ofBits_zero_f32]

end Cert.ReferenceIdeal.RefRead

end
-- ==== Proof.KReg2.lean ====
/-
  The value of region 2 of @main at the ideal instance. Each of the 100 points reads rows `10000 t … 10000 t + 9999`
  of three [1000000, 64] arrays `Pw`, `Fa`, `Tw` and stores the quotient `(Pw * (0 - Fa)) / (Tw + ε)` into the same rows of
  the first output; two [1, 64] accumulators are reset to zero at the first point, take at every point the column sums of
  that quotient and of its square over the point's rows, and are written back once, after the last point. So the first
  output ends holding the quotient index by index, and the accumulators its column sums over all 1000000 rows: the
  running sums by induction on the point, the sum over (point, row in the block) re-indexed as a sum over rows.
-/
import proofs.«430596_j44092134261327_3_alg».proof.Proof.Gen.KernelIdeal.Frame
import proofs.«430596_j44092134261327_3_alg».proof.Proof.LibTileSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem

/-! ## What each control case leaves in each output's staging buffer, as a payload of the point's blocks -/

section Pieces

variable {F : FTy → Type} [FloatOps F]

theorem hz : (![0, 0] : Fin 2 → Nat) = fun _ => 0 := funext fun a => by fin_cases a <;> rfl

theorem piece_A_3 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond2_0 i) (x0 x1 x2 : Vec F S10000x64 .f32) :
    out2_A_3 c i a1 h1 a2 h2 a3 h3 a4 h4 a5 h5 a6 h6 hc x0 x1 x2 = k2_pay3 x0 x1 x2 := by
  unfold out2_A_3
  rw [View.read_writes_eq_canon _ _ _ (cover2_A_3 c i a1 h1 a2 h2 a3 h3 a4 h4 a5 h5 a6 h6 hc x0 x1 x2)]
  unfold kernelRun2_A
  dsimp only
  sl_unfold_words
  rw [View.canon_unit_zero hz]
  simp only [View.readAt_eq_ld, h1.read_unread, h2.read_unread, h3.read_unread, View.ld_unit_zero (S := S10000x64) hz]

theorem piece_A_4 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond2_0 i) (x0 x1 x2 : Vec F S10000x64 .f32) :
    out2_A_4 c i a1 h1 a2 h2 a3 h3 a4 h4 a5 h5 a6 h6 hc x0 x1 x2 = k2_pay4 x0 x1 x2 (k2_pay1 (F := F)) := by
  unfold out2_A_4
  rw [View.read_writes_eq_canon _ _ _ (cover2_A_4 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz]

theorem piece_A_5 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond2_0 i) (x0 x1 x2 : Vec F S10000x64 .f32) :
    out2_A_5 c i a1 h1 a2 h2 a3 h3 a4 h4 a5 h5 a6 h6 hc x0 x1 x2 = k2_pay5 x0 x1 x2 (k2_pay2 (F := F)) := by
  unfold out2_A_5
  rw [View.read_writes_eq_canon _ _ _ (cover2_A_5 c i a1 h1 a2 h2 a3 h3 a4 h4 a5 h5 a6 h6 hc x0 x1 x2)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz]

theorem piece_B_3 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond2_0 i) (x0 x1 x2 : Vec F S10000x64 .f32) (xo4 xo5 : Vec F S1x64 .f32) :
    out2_B_3 c i a1 h1 a2 h2 a3 h3 a4 h4 a5 h5 a6 h6 hc x0 x1 x2 xo4 xo5 = k2_pay3 x0 x1 x2 := by
  unfold out2_B_3
  rw [View.read_writes_eq_canon _ _ _ (cover2_B_3 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, View.ld_unit_zero (S := S10000x64) hz]

theorem piece_B_4 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond2_0 i) (x0 x1 x2 : Vec F S10000x64 .f32) (xo4 xo5 : Vec F S1x64 .f32) :
    out2_B_4 c i a1 h1 a2 h2 a3 h3 a4 h4 a5 h5 a6 h6 hc x0 x1 x2 xo4 xo5 = k2_pay4 x0 x1 x2 xo4 := by
  unfold out2_B_4
  rw [View.read_writes_eq_canon _ _ _ (cover2_B_4 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, h5.read_unread, View.ld_unit_zero (S := S10000x64) hz, View.ld_unit_zero (S := S1x64) hz]

theorem piece_B_5 (c : Dev nD) (i : grid2.Coords) (a1 : Memref sig .tc .vmem S10000x64 .f32) (h1 : a1.IsWhole)
    (a2 : Memref sig .tc .vmem S10000x64 .f32) (h2 : a2.IsWhole) (a3 : Memref sig .tc .vmem S10000x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond2_0 i) (x0 x1 x2 : Vec F S10000x64 .f32) (xo4 xo5 : Vec F S1x64 .f32) :
    out2_B_5 c i a1 h1 a2 h2 a3 h3 a4 h4 a5 h5 a6 h6 hc x0 x1 x2 xo4 xo5 = k2_pay5 x0 x1 x2 xo5 := by
  unfold out2_B_5
  rw [View.read_writes_eq_canon _ _ _ (cover2_B_5 c i a1 h1 a2 h2 a3 h3 a4 h4 a5 h5 a6 h6 hc x0 x1 x2 xo4 xo5)]
  unfold kernelRun2_B
  dsimp only
  sl_unfold_words
  rw [View.canon_unit_zero hz]
  simp only [View.readAt_eq_ld, h1.read_unread, h2.read_unread, h3.read_unread, h6.read_unread, View.ld_unit_zero (S := S10000x64) hz, View.ld_unit_zero (S := S1x64) hz]

end Pieces

/-! ## The payloads at an index, over the extended reals -/

section Payloads

/-- The quotient the body stores, at one element: `(x0 * (0 - x1)) / (x2 + ε)`. -/
theorem pay3_apply (x0 x1 x2 : Vec Ideal S10000x64 .f32) (p : Fin 10000) (q : Fin 64) :
    k2_pay3 x0 x1 x2 (ix2 p q)
      = Ideal.div ((x0 (ix2 p q) : EReal) * (Ideal.ofBits .f32 0x00000000#32 - (x1 (ix2 p q) : EReal)))
          ((x2 (ix2 p q) : EReal) + Ideal.ofBits .f32 0x38D1B717#32) := by
  unfold k2_pay3
  simp only [shapeCast_self]
  rfl

/-- A sum over the rows of a [10000, 64] block, read at column `q` of the [64] result. -/
theorem colsum_apply (v : FVec Ideal S10000x64 .f32) (hacc : (0x00000000#32 : BitVec 32) = 0x00000000#32) (q : Fin 64) :
    multiReduction (F := Ideal) .add [0] S64 v 0x00000000#32 reduces_S10000x64_S64 (.inl rfl) hacc (ix1 q)
      = ∑ p : Fin 10000, v (ix2 p q) := by
  refine (Ideal.multiReduction_add_single v 0x00000000#32 reduces_S10000x64_S64 (.inl rfl) hacc (ix1 q)).trans ?_
  refine Finset.sum_congr rfl fun p _ => congrArg v ?_
  funext a
  match a with
  | ⟨0, _⟩ => rfl
  | ⟨1, _⟩ => rfl

/-- The first accumulator's update at column `q`: what it held plus the column sum of the stored quotient. -/
theorem pay4_apply (x0 x1 x2 : Vec Ideal S10000x64 .f32) (acc : Vec Ideal S1x64 .f32) (u : Fin 1) (q : Fin 64) :
    k2_pay4 x0 x1 x2 acc (ix2 u q) = (acc (ix2 u q) : EReal) + ∑ p : Fin 10000, (k2_pay3 x0 x1 x2 (ix2 p q) : EReal) := by
  unfold k2_pay4
  simp only [shapeCast_self]
  refine (addf_apply _ _ _).trans ?_
  refine congrArg (fun z : EReal => (acc (ix2 u q) : EReal) + z) ?_
  refine (shapeCast_a_1a_apply _ shapeCasts_S64_S1x64 u q).trans ?_
  exact colsum_apply (k2_pay3 x0 x1 x2) rfl q

/-- The second accumulator's update at column `q`: what it held plus the column sum of the stored quotient's square. -/
theorem pay5_apply (x0 x1 x2 : Vec Ideal S10000x64 .f32) (acc : Vec Ideal S1x64 .f32) (u : Fin 1) (q : Fin 64) :
    k2_pay5 x0 x1 x2 acc (ix2 u q)
      = (acc (ix2 u q) : EReal) + ∑ p : Fin 10000, ((k2_pay3 x0 x1 x2 (ix2 p q) : EReal) * (k2_pay3 x0 x1 x2 (ix2 p q) : EReal)) := by
  unfold k2_pay5
  simp only [shapeCast_self]
  refine (addf_apply _ _ _).trans ?_
  refine congrArg (fun z : EReal => (acc (ix2 u q) : EReal) + z) ?_
  refine (shapeCast_a_1a_apply _ shapeCasts_S64_S1x64 u q).trans ?_
  exact colsum_apply (mulf (k2_pay3 x0 x1 x2) (k2_pay3 x0 x1 x2)) rfl q

/-- The reset value is zero at every element. -/
theorem pay1_apply (j : S1x64.Idx) : (k2_pay1 (F := Ideal) j : EReal) = 0 := Ideal.ofBits_zero_f32
theorem pay2_apply (j : S1x64.Idx) : (k2_pay2 (F := Ideal) j : EReal) = 0 := Ideal.ofBits_zero_f32

end Payloads

/-! ## The windows' blocks as rows of the arrays, and the region's first output -/

section Blocks

variable (V : (c : Dev nD) → (b : Ref sig .tc) → Buf (Elt Ideal) ((c : Thread nD τ).loc b))

/-- The three arrays the region reads, as the region finds them. -/
abbrev Pw (c : Dev nD) : S1000000x64.Idx → EReal := V c main_v2_0
abbrev Fa (c : Dev nD) : S1000000x64.Idx → EReal := V c main_v27
abbrev Tw (c : Dev nD) : S1000000x64.Idx → EReal := V c main_v28

/-- The quotient at one element of the arrays: `(Pw * (0 - Fa)) / (Tw + ε)`. -/
def oraw (c : Dev nD) (i : S1000000x64.Idx) : EReal :=
  Ideal.div (Pw V c i * (Ideal.ofBits .f32 0x00000000#32 - Fa V c i)) (Tw V c i + Ideal.ofBits .f32 0x38D1B717#32)

/-- Row `p` of the block at point `t` is row `10000 t + p` of the array. -/
abbrev row (t : Fin cfg2.N) (p : Fin 10000) : Fin 1000000 :=
  ⟨10000 * t.val + p.val, by have h1 := t.isLt; have h2 : cfg2.N = 100 := N_2; have h3 := p.isLt; omega⟩

/-- The block indices over the grid: the row-tiled windows move with the point, the accumulators' stay. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem blk0_apply (c : Dev nD) (t : Fin cfg2.N) (p : Fin 10000) (q : Fin 64) :
    ((iblk2 V c 0 t : Vec Ideal S10000x64 .f32) (ix2 p q) : EReal) = Pw V c (ix2 (row t p) q) := by
  have e0 : win2_0.index t (0 : Fin 2) = t.val := (idx_rows t).1
  have e1 : win2_0.index t (1 : Fin 2) = 0 := (idx_rows t).2.1
  unfold iblk2
  rw [View.read_apply]
  show V c main_v2_0 _ = V c main_v2_0 _
  congr 1
  funext a
  apply Fin.ext
  match a with
  | ⟨0, _⟩ => show win2_0.index t (0 : Fin 2) * 10000 + 1 * p.val = 10000 * t.val + p.val; rw [e0]; omega
  | ⟨1, _⟩ => show win2_0.index t (1 : Fin 2) * 64 + 1 * q.val = q.val; rw [e1]; omega

theorem blk1_apply (c : Dev nD) (t : Fin cfg2.N) (p : Fin 10000) (q : Fin 64) :
    ((iblk2 V c 1 t : Vec Ideal S10000x64 .f32) (ix2 p q) : EReal) = Fa V c (ix2 (row t p) q) := by
  have e0 : win2_1.index t (0 : Fin 2) = t.val := (idx_rows t).2.2.1
  have e1 : win2_1.index t (1 : Fin 2) = 0 := (idx_rows t).2.2.2.1
  unfold iblk2
  rw [View.read_apply]
  show V c main_v27 _ = V c main_v27 _
  congr 1
  funext a
  apply Fin.ext
  match a with
  | ⟨0, _⟩ => show win2_1.index t (0 : Fin 2) * 10000 + 1 * p.val = 10000 * t.val + p.val; rw [e0]; omega
  | ⟨1, _⟩ => show win2_1.index t (1 : Fin 2) * 64 + 1 * q.val = q.val; rw [e1]; omega

theorem blk2_apply (c : Dev nD) (t : Fin cfg2.N) (p : Fin 10000) (q : Fin 64) :
    ((iblk2 V c 2 t : Vec Ideal S10000x64 .f32) (ix2 p q) : EReal) = Tw V c (ix2 (row t p) q) := by
  have e0 : win2_2.index t (0 : Fin 2) = t.val := (idx_rows t).2.2.2.2.1
  have e1 : win2_2.index t (1 : Fin 2) = 0 := (idx_rows t).2.2.2.2.2.1
  unfold iblk2
  rw [View.read_apply]
  show V c main_v28 _ = V c main_v28 _
  congr 1
  funext a
  apply Fin.ext
  match a with
  | ⟨0, _⟩ => show win2_2.index t (0 : Fin 2) * 10000 + 1 * p.val = 10000 * t.val + p.val; rw [e0]; omega
  | ⟨1, _⟩ => show win2_2.index t (1 : Fin 2) * 64 + 1 * q.val = q.val; rw [e1]; omega

/-- The stored quotient of the blocks at point `t`, at row `p`, is the arrays' quotient at row `10000 t + p`. -/
theorem blkpay_apply (c : Dev nD) (t : Fin cfg2.N) (p : Fin 10000) (q : Fin 64) :
    (k2_pay3 (iblk2 V c 0 t) (iblk2 V c 1 t) (iblk2 V c 2 t) (ix2 p q) : EReal) = oraw V c (ix2 (row t p) q) := by
  refine (pay3_apply _ _ _ p q).trans ?_
  have e0 := blk0_apply V c t p q
  have e1 := blk1_apply V c t p q
  have e2 := blk2_apply V c t p q
  unfold oraw
  exact congrArg₂ Ideal.div
    (congrArg₂ (fun x y : EReal => x * y) e0 (congrArg (fun z : EReal => Ideal.ofBits .f32 0x00000000#32 - z) e1))
    (congrArg (fun z : EReal => z + Ideal.ofBits .f32 0x38D1B717#32) e2)

/-! ### What each output's buffer holds after a point, by control case -/

theorem outs3_A (c : Dev nD) (t : Fin cfg2.N) (h0 : t.val % 100 = 0) :
    (outsAt2 V c t.val t.isLt).1 = k2_pay3 (iblk2 V c 0 t) (iblk2 V c 1 t) (iblk2 V c 2 t) := by
  rw [outsAt2_A V c t h0]
  dsimp only
  exact piece_A_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outs3_B (c : Dev nD) (t : Fin cfg2.N) (h0 : ¬t.val % 100 = 0) :
    (outsAt2 V c t.val t.isLt).1 = k2_pay3 (iblk2 V c 0 t) (iblk2 V c 1 t) (iblk2 V c 2 t) := by
  rw [outsAt2_B V c t h0]
  dsimp only
  exact piece_B_3 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

theorem outs4_A (c : Dev nD) (t : Fin cfg2.N) (h0 : t.val % 100 = 0) :
    (outsAt2 V c t.val t.isLt).2.1 = k2_pay4 (iblk2 V c 0 t) (iblk2 V c 1 t) (iblk2 V c 2 t) (k2_pay1 (F := Ideal)) := by
  rw [outsAt2_A V c t h0]
  dsimp only
  exact piece_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outs4_B (c : Dev nD) (t : Fin cfg2.N) (h0 : ¬t.val % 100 = 0) :
    (outsAt2 V c t.val t.isLt).2.1 = k2_pay4 (iblk2 V c 0 t) (iblk2 V c 1 t) (iblk2 V c 2 t) (outsAt2 V c (t.val - 1) (Nat.lt_of_le_of_lt (Nat.sub_le _ _) t.isLt)).2.1 := by
  rw [outsAt2_B V c t h0]
  dsimp only
  exact piece_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

theorem outs5_A (c : Dev nD) (t : Fin cfg2.N) (h0 : t.val % 100 = 0) :
    (outsAt2 V c t.val t.isLt).2.2 = k2_pay5 (iblk2 V c 0 t) (iblk2 V c 1 t) (iblk2 V c 2 t) (k2_pay2 (F := Ideal)) := by
  rw [outsAt2_A V c t h0]
  dsimp only
  exact piece_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t)

theorem outs5_B (c : Dev nD) (t : Fin cfg2.N) (h0 : ¬t.val % 100 = 0) :
    (outsAt2 V c t.val t.isLt).2.2 = k2_pay5 (iblk2 V c 0 t) (iblk2 V c 1 t) (iblk2 V c 2 t) (outsAt2 V c (t.val - 1) (Nat.lt_of_le_of_lt (Nat.sub_le _ _) t.isLt)).2.2 := by
  rw [outsAt2_B V c t h0]
  dsimp only
  exact piece_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2

/-- Both cases store the same quotient into the first output. -/
theorem outs3_eq (c : Dev nD) (t : Fin cfg2.N) : (outsAt2 V c t.val t.isLt).1 = k2_pay3 (iblk2 V c 0 t) (iblk2 V c 1 t) (iblk2 V c 2 t) := by
  by_cases h0 : t.val % 100 = 0
  · exact outs3_A V c t h0
  · exact outs3_B V c t h0

/-- What point `t` writes back of the first output is block `t` of the arrays' quotient. -/
theorem flushed3_eq (c : Dev nD) (t : Fin cfg2.N) :
    (dat2 V c).flushed 3 t = ((cfg2.win 3).blk t).view.read (Elt Ideal) (fun i => oraw V c i) := by
  have e0 : win2_3.index t (0 : Fin 2) = t.val := (idx_rows t).2.2.2.2.2.2.1
  have e1 : win2_3.index t (1 : Fin 2) = 0 := (idx_rows t).2.2.2.2.2.2.2.1
  show (cfg2.win 3).cut (grid2.coords t) ((dat2 V c).after 3 t) = _
  rw [after2_3, outs3_eq]
  funext j
  obtain ⟨p, q, rfl⟩ : ∃ (p : Fin 10000) (q : Fin 64), j = ix2 p q := ⟨j 0, j 1, eq_ix2 j⟩
  refine (blkpay_apply V c t p q).trans ?_
  show oraw V c _ = oraw V c (((cfg2.win 3).blk t).view.emb (ix2 p q))
  congr 1
  funext a
  apply Fin.ext
  match a with
  | ⟨0, _⟩ => show 10000 * t.val + p.val = win2_3.index t (0 : Fin 2) * 10000 + 1 * p.val; rw [e0]; omega
  | ⟨1, _⟩ => show q.val = win2_3.index t (1 : Fin 2) * 64 + 1 * q.val; rw [e1]; omega

/-- An index of the first output is in point `t`'s block iff each coordinate is in the block's range. -/
theorem mem_blk3 (t : Fin cfg2.N) (i : S1000000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v29_0).slice (win2_3.rect t)).set ↔ _
  rw [View.set_slice_whole, Rect.mem_set_unit]
  exact Iff.rfl

/-- THE FIRST OUTPUT after the region: the arrays' quotient, index by index. -/
theorem arr_oraw (c : Dev nD) : (dat2 (F := Ideal) V c).arrAt 3 cfg2.N = fun i => oraw V c i :=
  (dat2 V c).arrAt_eq_of_cover 3 (fun i => oraw V c i) (fun t _ => flushed3_eq V c t) fun i => by
    have hN : cfg2.N = 100 := N_2
    have hi0 : (i 0).val < 1000000 := (i 0).isLt
    have hi1 : (i 1).val < 64 := (i 1).isLt
    refine ⟨⟨(i 0).val / 10000, by omega⟩, flush2_3 _, ?_⟩
    rw [mem_blk3]
    intro a
    match a with
    | ⟨0, _⟩ =>
      show win2_3.index ⟨(i 0).val / 10000, _⟩ (0 : Fin 2) * 10000 ≤ (i 0).val ∧ (i 0).val < win2_3.index ⟨(i 0).val / 10000, _⟩ (0 : Fin 2) * 10000 + 10000
      rw [(idx_rows _).2.2.2.2.2.2.1]; dsimp only; omega
    | ⟨1, _⟩ =>
      show win2_3.index ⟨(i 0).val / 10000, _⟩ (1 : Fin 2) * 64 ≤ (i 1).val ∧ (i 1).val < win2_3.index ⟨(i 0).val / 10000, _⟩ (1 : Fin 2) * 64 + 64
      rw [(idx_rows _).2.2.2.2.2.2.2.1]; omega

end Blocks

/-! ## The two accumulators: sums over all rows -/

section Accumulators

variable (V : (c : Dev nD) → (b : Ref sig .tc) → Buf (Elt Ideal) ((c : Thread nD τ).loc b))

/-- The sum of `g` over the rows of tile `s`: rows `10000 s … 10000 s + 9999` (zero past the array). -/
abbrev tileSum (g : Fin 1000000 → EReal) (s : ℕ) : EReal :=
  ∑ r : Fin 10000, (if h : 10000 * s + r.val < 1000000 then g ⟨10000 * s + r.val, h⟩ else 0)

/-- The column sum of the quotient over the block at point `t` is its sum over rows `10000 t … 10000 t + 9999` of the arrays. -/
theorem tile4 (c : Dev nD) (t : Fin cfg2.N) (q : Fin 64) :
    ∑ p : Fin 10000, (k2_pay3 (iblk2 V c 0 t) (iblk2 V c 1 t) (iblk2 V c 2 t) (ix2 p q) : EReal) = tileSum (fun r => oraw V c (ix2 r q)) t.val := by
  refine Finset.sum_congr rfl fun p _ => ?_
  have hlt : 10000 * t.val + p.val < 1000000 := (row t p).isLt
  rw [dif_pos hlt]
  exact blkpay_apply V c t p q

/-- After point `n` the accumulator holds, at column `q`, the sum of the quotient over the rows of points `0 … n`: by
    induction on the point (the first point resets to zero and adds its block, every later one adds its block). -/
theorem acc4_eq (c : Dev nD) : ∀ (n : ℕ) (h : n < cfg2.N) (u : Fin 1) (q : Fin 64),
    ((outsAt2 V c n h).2.1 (ix2 u q) : EReal) = ∑ s ∈ Finset.range (n + 1), tileSum (fun r => oraw V c (ix2 r q)) s
  | 0, h, u, q => by
    refine (congrFun (outs4_A V c ⟨0, h⟩ rfl) (ix2 u q)).trans ?_
    refine (pay4_apply _ _ _ _ u q).trans ?_
    rw [pay1_apply, zero_add, Finset.sum_range_one]
    exact tile4 V c ⟨0, h⟩ q
  | n + 1, h, u, q => by
    have hN : cfg2.N = 100 := N_2
    have hB : ¬(⟨n + 1, h⟩ : Fin cfg2.N).val % 100 = 0 := by dsimp only; omega
    refine (congrFun (outs4_B V c ⟨n + 1, h⟩ hB) (ix2 u q)).trans ?_
    refine (pay4_apply _ _ _ _ u q).trans ?_
    rw [Finset.sum_range_succ _ (n + 1)]
    exact congrArg₂ (fun x y : EReal => x + y) (acc4_eq c n (Nat.lt_of_succ_lt h) u q) (tile4 V c ⟨n + 1, h⟩ q)

/-- The accumulator's one block is its whole [1, 64] array: reading an array through it reads the array. -/
theorem read_blk4 (t : Fin cfg2.N) (G : S1x64.Idx → EReal) (u : Fin 1) (q : Fin 64) :
    (((cfg2.win 4).blk t).view.read (Elt Ideal) G (ix2 u q) : EReal) = G (ix2 u q) := by
  have e0 : win2_4.index t (0 : Fin 2) = 0 := (idx_rows t).2.2.2.2.2.2.2.2.1
  have e1 : win2_4.index t (1 : Fin 2) = 0 := (idx_rows t).2.2.2.2.2.2.2.2.2.1
  rw [View.read_apply]
  show G _ = G _
  congr 1
  funext a
  apply Fin.ext
  match a with
  | ⟨0, _⟩ => show win2_4.index t (0 : Fin 2) * 1 + 1 * u.val = u.val; rw [e0]; omega
  | ⟨1, _⟩ => show win2_4.index t (1 : Fin 2) * 64 + 1 * q.val = q.val; rw [e1]; omega

/-- The one write-back of this accumulator, at the last point, writes the sum over ALL rows. -/
theorem flushed4_eq (c : Dev nD) (t : Fin cfg2.N) (hf : (cfg2.win 4).flush t = true) :
    (dat2 V c).flushed 4 t
      = ((cfg2.win 4).blk t).view.read (Elt Ideal) (fun i : S1x64.Idx => (∑ n : Fin 1000000, oraw V c (ix2 n (i 1)) : EReal)) := by
  have hN : cfg2.N = 100 := N_2
  have h99 : t.val + 1 = 100 := by have h1 := (flush2_4 t).mp hf; have h2 := t.isLt; omega
  show (cfg2.win 4).cut (grid2.coords t) ((dat2 V c).after 4 t) = _
  rw [after2_4]
  funext j
  obtain ⟨u, q, rfl⟩ : ∃ (u : Fin 1) (q : Fin 64), j = ix2 u q := ⟨j 0, j 1, eq_ix2 j⟩
  refine (acc4_eq V c t.val t.isLt u q).trans ?_
  rw [h99]
  refine (Cert.TileSum.sum_tiles (fun r => oraw V c (ix2 r q))).trans ?_
  exact (read_blk4 t (fun i : S1x64.Idx => (∑ n : Fin 1000000, oraw V c (ix2 n (i 1)) : EReal)) u q).symm

/-- Every index of the [1, 64] accumulator array is in the last point's block (the block is the whole array). -/
theorem mem_blk4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole main_v29_1).slice (win2_4.rect t)).set ↔ _
  rw [View.set_slice_whole, Rect.mem_set_unit]
  exact Iff.rfl

/-- The column sum of the quotient's square over the block at point `t` is its sum over rows `10000 t … 10000 t + 9999` of the arrays. -/
theorem tile5 (c : Dev nD) (t : Fin cfg2.N) (q : Fin 64) :
    ∑ p : Fin 10000, ((k2_pay3 (iblk2 V c 0 t) (iblk2 V c 1 t) (iblk2 V c 2 t) (ix2 p q) : EReal) * (k2_pay3 (iblk2 V c 0 t) (iblk2 V c 1 t) (iblk2 V c 2 t) (ix2 p q) : EReal)) = tileSum (fun r => oraw V c (ix2 r q) * oraw V c (ix2 r q)) t.val := by
  refine Finset.sum_congr rfl fun p _ => ?_
  have hlt : 10000 * t.val + p.val < 1000000 := (row t p).isLt
  rw [dif_pos hlt]
  exact congrArg₂ (fun x y : EReal => x * y) (blkpay_apply V c t p q) (blkpay_apply V c t p q)

/-- After point `n` the accumulator holds, at column `q`, the sum of the quotient's square over the rows of points `0 … n`: by
    induction on the point (the first point resets to zero and adds its block, every later one adds its block). -/
theorem acc5_eq (c : Dev nD) : ∀ (n : ℕ) (h : n < cfg2.N) (u : Fin 1) (q : Fin 64),
    ((outsAt2 V c n h).2.2 (ix2 u q) : EReal) = ∑ s ∈ Finset.range (n + 1), tileSum (fun r => oraw V c (ix2 r q) * oraw V c (ix2 r q)) s
  | 0, h, u, q => by
    refine (congrFun (outs5_A V c ⟨0, h⟩ rfl) (ix2 u q)).trans ?_
    refine (pay5_apply _ _ _ _ u q).trans ?_
    rw [pay2_apply, zero_add, Finset.sum_range_one]
    exact tile5 V c ⟨0, h⟩ q
  | n + 1, h, u, q => by
    have hN : cfg2.N = 100 := N_2
    have hB : ¬(⟨n + 1, h⟩ : Fin cfg2.N).val % 100 = 0 := by dsimp only; omega
    refine (congrFun (outs5_B V c ⟨n + 1, h⟩ hB) (ix2 u q)).trans ?_
    refine (pay5_apply _ _ _ _ u q).trans ?_
    rw [Finset.sum_range_succ _ (n + 1)]
    exact congrArg₂ (fun x y : EReal => x + y) (acc5_eq c n (Nat.lt_of_succ_lt h) u q) (tile5 V c ⟨n + 1, h⟩ q)

/-- The accumulator's one block is its whole [1, 64] array: reading an array through it reads the array. -/
theorem read_blk5 (t : Fin cfg2.N) (G : S1x64.Idx → EReal) (u : Fin 1) (q : Fin 64) :
    (((cfg2.win 5).blk t).view.read (Elt Ideal) G (ix2 u q) : EReal) = G (ix2 u q) := by
  have e0 : win2_5.index t (0 : Fin 2) = 0 := (idx_rows t).2.2.2.2.2.2.2.2.2.2.1
  have e1 : win2_5.index t (1 : Fin 2) = 0 := (idx_rows t).2.2.2.2.2.2.2.2.2.2.2
  rw [View.read_apply]
  show G _ = G _
  congr 1
  funext a
  apply Fin.ext
  match a with
  | ⟨0, _⟩ => show win2_5.index t (0 : Fin 2) * 1 + 1 * u.val = u.val; rw [e0]; omega
  | ⟨1, _⟩ => show win2_5.index t (1 : Fin 2) * 64 + 1 * q.val = q.val; rw [e1]; omega

/-- The one write-back of this accumulator, at the last point, writes the sum over ALL rows. -/
theorem flushed5_eq (c : Dev nD) (t : Fin cfg2.N) (hf : (cfg2.win 5).flush t = true) :
    (dat2 V c).flushed 5 t
      = ((cfg2.win 5).blk t).view.read (Elt Ideal) (fun i : S1x64.Idx => (∑ n : Fin 1000000, oraw V c (ix2 n (i 1)) * oraw V c (ix2 n (i 1)) : EReal)) := by
  have hN : cfg2.N = 100 := N_2
  have h99 : t.val + 1 = 100 := by have h1 := (flush2_5 t).mp hf; have h2 := t.isLt; omega
  show (cfg2.win 5).cut (grid2.coords t) ((dat2 V c).after 5 t) = _
  rw [after2_5]
  funext j
  obtain ⟨u, q, rfl⟩ : ∃ (u : Fin 1) (q : Fin 64), j = ix2 u q := ⟨j 0, j 1, eq_ix2 j⟩
  refine (acc5_eq V c t.val t.isLt u q).trans ?_
  rw [h99]
  refine (Cert.TileSum.sum_tiles (fun r => oraw V c (ix2 r q) * oraw V c (ix2 r q))).trans ?_
  exact (read_blk5 t (fun i : S1x64.Idx => (∑ n : Fin 1000000, oraw V c (ix2 n (i 1)) * oraw V c (ix2 n (i 1)) : EReal)) u q).symm

/-- Every index of the [1, 64] accumulator array is in the last point's block (the block is the whole array). -/
theorem mem_blk5 (t : Fin cfg2.N) (i : S1x64.Idx) :
    i ∈ ((cfg2.win 5).blk t).view.set ↔ ∀ a : Fin 2, win2_5.index t a * S1x64.size a ≤ (i a).val ∧ (i a).val < win2_5.index t a * S1x64.size a + S1x64.size a := by
  show i ∈ ((View.whole main_v29_2).slice (win2_5.rect t)).set ↔ _
  rw [View.set_slice_whole, Rect.mem_set_unit]
  exact Iff.rfl

/-- THE SECOND OUTPUT after the region: at column `i 1`, the sum of the arrays' quotient over all 1000000 rows. -/
theorem arr_sum (c : Dev nD) :
    (dat2 (F := Ideal) V c).arrAt 4 cfg2.N = fun i : S1x64.Idx => (∑ n : Fin 1000000, oraw V c (ix2 n (i 1)) : EReal) :=
  (dat2 V c).arrAt_eq_of_cover 4 (fun i : S1x64.Idx => (∑ n : Fin 1000000, oraw V c (ix2 n (i 1)) : EReal)) (flushed4_eq V c) fun i => by
    have hN : cfg2.N = 100 := N_2
    have hi0 : (i 0).val < 1 := (i 0).isLt
    have hi1 : (i 1).val < 64 := (i 1).isLt
    refine ⟨⟨99, by omega⟩, (flush2_4 _).mpr rfl, ?_⟩
    rw [mem_blk4]
    intro a
    match a with
    | ⟨0, _⟩ =>
      show win2_4.index ⟨99, _⟩ (0 : Fin 2) * 1 ≤ (i 0).val ∧ (i 0).val < win2_4.index ⟨99, _⟩ (0 : Fin 2) * 1 + 1
      rw [(idx_rows _).2.2.2.2.2.2.2.2.1]; omega
    | ⟨1, _⟩ =>
      show win2_4.index ⟨99, _⟩ (1 : Fin 2) * 64 ≤ (i 1).val ∧ (i 1).val < win2_4.index ⟨99, _⟩ (1 : Fin 2) * 64 + 64
      rw [(idx_rows _).2.2.2.2.2.2.2.2.2.1]; omega

/-- THE THIRD OUTPUT after the region: at column `i 1`, the sum of the square of the arrays' quotient over all 1000000 rows. -/
theorem arr_sumsq (c : Dev nD) :
    (dat2 (F := Ideal) V c).arrAt 5 cfg2.N = fun i : S1x64.Idx => (∑ n : Fin 1000000, oraw V c (ix2 n (i 1)) * oraw V c (ix2 n (i 1)) : EReal) :=
  (dat2 V c).arrAt_eq_of_cover 5 (fun i : S1x64.Idx => (∑ n : Fin 1000000, oraw V c (ix2 n (i 1)) * oraw V c (ix2 n (i 1)) : EReal)) (flushed5_eq V c) fun i => by
    have hN : cfg2.N = 100 := N_2
    have hi0 : (i 0).val < 1 := (i 0).isLt
    have hi1 : (i 1).val < 64 := (i 1).isLt
    refine ⟨⟨99, by omega⟩, (flush2_5 _).mpr rfl, ?_⟩
    rw [mem_blk5]
    intro a
    match a with
    | ⟨0, _⟩ =>
      show win2_5.index ⟨99, _⟩ (0 : Fin 2) * 1 ≤ (i 0).val ∧ (i 0).val < win2_5.index ⟨99, _⟩ (0 : Fin 2) * 1 + 1
      rw [(idx_rows _).2.2.2.2.2.2.2.2.2.2.1]; omega
    | ⟨1, _⟩ =>
      show win2_5.index ⟨99, _⟩ (1 : Fin 2) * 64 ≤ (i 1).val ∧ (i 1).val < win2_5.index ⟨99, _⟩ (1 : Fin 2) * 64 + 64
      rw [(idx_rows _).2.2.2.2.2.2.2.2.2.2.2]; omega

end Accumulators

end Cert.KernelIdeal.Reg2

end
-- ==== Proof.KHostB.lean ====
import proofs.«430596_j44092134261327_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostB

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Buffers carried unchanged between segment boundaries

A stretch of host operations leaves every buffer that none of its operations writes as it found it; a region leaves
every buffer that is none of its windows' arrays as it found it, and an array it only reads through an input window
as well. -/

/-- A stretch of host operations (the named list) writes none of its results to the buffer at hand. -/
local macro "untouched_by " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The first region's first output (the position-encoded features) is still in place when the second region has run:
    the second stretch does not write it and the second region only reads it (its input window 1). -/
theorem V4_main_v2_0 (c : Dev nD) : V4 m ρ c main_v2_0 = V2 m ρ c main_v2_0 :=
  calc W4 m ρ c (Proc.devRef .tc main_v2_0)
    _ = W3 m ρ c (Proc.devRef .tc main_v2_0) :=
        (W4_arr m ρ c 1).trans (((dat1 (V3 m ρ) c).arrAt_in 1 rfl _).trans (A_eq1 (V3 m ρ) c 1))
    _ = W2 m ρ c (Proc.devRef .tc main_v2_0) := by untouched_by hostOps1

/-- … and still when the third region is entered: the two segment sums and the two takes do not write it. -/
theorem V7_main_v2_0 (c : Dev nD) : V7 m ρ c main_v2_0 = V2 m ρ c main_v2_0 :=
  calc W7 m ρ c (Proc.devRef .tc main_v2_0)
    _ = W6 m ρ c (Proc.devRef .tc main_v2_0) := by untouched_by hostOps2_2
    _ = W5 m ρ c (Proc.devRef .tc main_v2_0) := by untouched_by hostOps2_1
    _ = W4 m ρ c (Proc.devRef .tc main_v2_0) := by untouched_by hostOps2
    _ = W2 m ρ c (Proc.devRef .tc main_v2_0) := V4_main_v2_0 m ρ c

/-- The third region's first output is what the fourth region is entered with: the last stretch does not write it. -/
theorem V9_main_v29_0 (c : Dev nD) : V9 m ρ c main_v29_0 = V8 m ρ c main_v29_0 := by
  show W9 m ρ c (Proc.devRef .tc main_v29_0) = W8 m ρ c (Proc.devRef .tc main_v29_0)
  untouched_by hostOps3

/-- The second region's first output reaches the fourth region as the second region left it: no stretch in between
    writes it and it is none of the third region's windows. -/
theorem V9_main_v20_0 (c : Dev nD) : V9 m ρ c main_v20_0 = V4 m ρ c main_v20_0 :=
  calc W9 m ρ c (Proc.devRef .tc main_v20_0)
    _ = W8 m ρ c (Proc.devRef .tc main_v20_0) := by untouched_by hostOps3
    _ = W7 m ρ c (Proc.devRef .tc main_v20_0) := W8_of_ne m ρ c main_v20_0 (by decide)
    _ = W6 m ρ c (Proc.devRef .tc main_v20_0) := by untouched_by hostOps2_2
    _ = W5 m ρ c (Proc.devRef .tc main_v20_0) := by untouched_by hostOps2_1
    _ = W4 m ρ c (Proc.devRef .tc main_v20_0) := by untouched_by hostOps2

/-- An argument that no host operation writes and that is no window of the first two regions is, after the second
    region, what the launch gave. -/
theorem W4_of_launch (c : Dev nD) (b : Ref sig .tc)
    (h0 : ∀ w, Pipeline.arrRef spec0 w ≠ b) (h1 : ∀ w, Pipeline.arrRef spec1 w ≠ b)
    (e1 : W1 m ρ c (Proc.devRef .tc b) = W0 m ρ c (Proc.devRef .tc b))
    (e3 : W3 m ρ c (Proc.devRef .tc b) = W2 m ρ c (Proc.devRef .tc b)) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := e3
    _ = W1 m ρ c (Proc.devRef .tc b) := W2_of_ne m ρ c b h0
    _ = W0 m ρ c (Proc.devRef .tc b) := e1
    _ = m ((c : Thread nD τ).loc b) := rfl

/-- The segment ids after the second region are the launch's. -/
theorem W4_main_arg2 (c : Dev nD) : W4 m ρ c (Proc.devRef .tc main_arg2) = m ((c : Thread nD τ).loc main_arg2) :=
  W4_of_launch m ρ c main_arg2 (by decide) (by decide) (by untouched_by hostOps0) (by untouched_by hostOps1)

/-- The segment ids are still the launch's through the two segment sums and the two takes (none writes them). -/
theorem W5_main_arg2 (c : Dev nD) : W5 m ρ c (Proc.devRef .tc main_arg2) = m ((c : Thread nD τ).loc main_arg2) :=
  (show W5 m ρ c (Proc.devRef .tc main_arg2) = W4 m ρ c (Proc.devRef .tc main_arg2) by untouched_by hostOps2).trans
    (W4_main_arg2 m ρ c)

theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) by untouched_by hostOps2_1).trans
    (W5_main_arg2 m ρ c)

theorem W7_main_arg2 (c : Dev nD) : W7 m ρ c (Proc.devRef .tc main_arg2) = m ((c : Thread nD τ).loc main_arg2) :=
  (show W7 m ρ c (Proc.devRef .tc main_arg2) = W6 m ρ c (Proc.devRef .tc main_arg2) by untouched_by hostOps2_2).trans
    (W6_main_arg2 m ρ c)

/-- An argument that the later stretches do not write either and that is no window of the third region is, after the
    third region, still what the launch gave. -/
theorem W8_of_W4 (c : Dev nD) (b : Ref sig .tc) (h2 : ∀ w, Pipeline.arrRef spec2 w ≠ b)
    (e5 : W5 m ρ c (Proc.devRef .tc b) = W4 m ρ c (Proc.devRef .tc b))
    (e6 : W6 m ρ c (Proc.devRef .tc b) = W5 m ρ c (Proc.devRef .tc b))
    (e7 : W7 m ρ c (Proc.devRef .tc b) = W6 m ρ c (Proc.devRef .tc b)) :
    W8 m ρ c (Proc.devRef .tc b) = W4 m ρ c (Proc.devRef .tc b) :=
  calc W8 m ρ c (Proc.devRef .tc b)
    _ = W7 m ρ c (Proc.devRef .tc b) := W8_of_ne m ρ c b h2
    _ = W6 m ρ c (Proc.devRef .tc b) := e7
    _ = W5 m ρ c (Proc.devRef .tc b) := e6
    _ = W4 m ρ c (Proc.devRef .tc b) := e5

/-- The second normalisation's scale parameter, as launched, when the last stretch reads it. -/
theorem W8_main_arg9 (c : Dev nD) : W8 m ρ c (Proc.devRef .tc main_arg9) = m ((c : Thread nD τ).loc main_arg9) :=
  (W8_of_W4 m ρ c main_arg9 (by decide) (by untouched_by hostOps2) (by untouched_by hostOps2_1)
    (by untouched_by hostOps2_2)).trans
    (W4_of_launch m ρ c main_arg9 (by decide) (by decide) (by untouched_by hostOps0) (by untouched_by hostOps1))

/-- The second normalisation's shift parameter, as launched, when the last stretch reads it. -/
theorem W8_main_arg10 (c : Dev nD) : W8 m ρ c (Proc.devRef .tc main_arg10) = m ((c : Thread nD τ).loc main_arg10) :=
  (W8_of_W4 m ρ c main_arg10 (by decide) (by untouched_by hostOps2) (by untouched_by hostOps2_1)
    (by untouched_by hostOps2_2)).trans
    (W4_of_launch m ρ c main_arg10 (by decide) (by decide) (by untouched_by hostOps0) (by untouched_by hostOps1))

/-! ## The second normalisation's scale and shift rows (the last stretch of host operations)

From the third region's two row sums `S` (of the values) and `Q` (of their squares) over the 10⁶ rows, per channel `j`:
`mean = S / 10⁶`, `var = max (Q / 10⁶ − mean², 0)`, `inv = rsqrt (var + 10⁻³)`, `scale = g · inv`,
`shift = b − mean · scale`, with `g`, `b` the launch's scale and shift parameters. The three f32 constants are the
program's words `0x49742400` (10⁶), `0x00000000` (0) and `0x3A83126F` (10⁻³). -/

/-- A scalar f32 constant spread over the row of 64 channels. -/
abbrev splat (b : BitVec 32) : FVec Ideal S1x64 .f32 :=
  broadcastInDim S1x64 ![] bcast_S_S1x64 (constant (F := Ideal) S_ .f32 b)

/-- The row of means: the sums divided by 10⁶. -/
def meanRow (c : Dev nD) : FVec Ideal S1x64 .f32 :=
  Host.divf (V8 m ρ c main_v29_1 : FVec Ideal S1x64 .f32) (splat 0x49742400#32)

/-- The row of reciprocal standard deviations. -/
def invRow (c : Dev nD) : FVec Ideal S1x64 .f32 :=
  Host.rsqrt (addf (maximumf (subf (Host.divf (V8 m ρ c main_v29_2 : FVec Ideal S1x64 .f32) (splat 0x49742400#32))
    (mulf (meanRow m ρ c) (meanRow m ρ c))) (splat 0x00000000#32)) (splat 0x3A83126F#32))

/-- The scale row: the scale parameter, as a row, times the reciprocal standard deviations. -/
def scaleRow (c : Dev nD) : FVec Ideal S1x64 .f32 :=
  mulf (shapeCast S1x64 (W8 m ρ c (Proc.devRef .tc main_arg9) : FVec Ideal S64 .f32) shapeCasts_S64_S1x64) (invRow m ρ c)

/-- The shift row: the shift parameter, as a row, minus the means times the scale row. -/
def shiftRow (c : Dev nD) : FVec Ideal S1x64 .f32 :=
  subf (shapeCast S1x64 (W8 m ρ c (Proc.devRef .tc main_arg10) : FVec Ideal S64 .f32) shapeCasts_S64_S1x64)
    (mulf (meanRow m ρ c) (scaleRow m ρ c))

/-- The fourth region's scale operand is the scale row. -/
theorem V9_main_v42 (c : Dev nD) : (V9 m ρ c main_v42 : FVec Ideal S1x64 .f32) = scaleRow m ρ c := by
  unfold scaleRow invRow meanRow
  show StableHlo.after hostOps3 (W8 m ρ c) (Proc.devRef .tc main_v42) = _
  after_results <;> rfl

/-- The fourth region's shift operand is the shift row. -/
theorem V9_main_v45 (c : Dev nD) : (V9 m ρ c main_v45 : FVec Ideal S1x64 .f32) = shiftRow m ρ c := by
  unfold shiftRow scaleRow invRow meanRow
  show StableHlo.after hostOps3 (W8 m ρ c) (Proc.devRef .tc main_v45) = _
  after_results_simp <;> rfl

/-- Channel `j`'s mean. -/
def mean2 (c : Dev nD) (j : Fin 64) : EReal :=
  Ideal.div ((V8 m ρ c main_v29_1 : FVec Ideal S1x64 .f32) (ix2 0 j)) (Ideal.ofBits .f32 0x49742400#32)

/-- Channel `j`'s reciprocal standard deviation. -/
def inv2 (c : Dev nD) (j : Fin 64) : EReal :=
  Ideal.rsqrt (max (Ideal.div ((V8 m ρ c main_v29_2 : FVec Ideal S1x64 .f32) (ix2 0 j)) (Ideal.ofBits .f32 0x49742400#32)
    - mean2 m ρ c j * mean2 m ρ c j) (Ideal.ofBits .f32 0x00000000#32) + Ideal.ofBits .f32 0x3A83126F#32)

/-- The launch's scale parameter of the second normalisation at channel `j`. -/
abbrev g2 (c : Dev nD) (j : Fin 64) : EReal := (m ((c : Thread nD τ).loc main_arg9) : FVec Ideal S64 .f32) (ix1 j)

/-- The launch's shift parameter of the second normalisation at channel `j`. -/
abbrev b2 (c : Dev nD) (j : Fin 64) : EReal := (m ((c : Thread nD τ).loc main_arg10) : FVec Ideal S64 .f32) (ix1 j)

theorem meanRow_apply (c : Dev nD) (j : Fin 64) : meanRow m ρ c (ix2 0 j) = mean2 m ρ c j := rfl

theorem invRow_apply (c : Dev nD) (j : Fin 64) : invRow m ρ c (ix2 0 j) = inv2 m ρ c j := rfl

/-- The scale operand at channel `j`: `g j · inv j`. -/
theorem V9_main_v42_apply (c : Dev nD) (j : Fin 64) :
    (V9 m ρ c main_v42 : FVec Ideal S1x64 .f32) (ix2 0 j)
      = g2 m c j * inv2 m ρ c j := by
  rw [congrFun (V9_main_v42 m ρ c) (ix2 0 j)]
  unfold scaleRow
  rw [mulf_apply, shapeCast_a_1a_apply, W8_main_arg9, invRow_apply]

/-- The shift operand at channel `j`: `b j − mean j · (g j · inv j)`. -/
theorem V9_main_v45_apply (c : Dev nD) (j : Fin 64) :
    (V9 m ρ c main_v45 : FVec Ideal S1x64 .f32) (ix2 0 j)
      = b2 m c j - mean2 m ρ c j * (g2 m c j * inv2 m ρ c j) := by
  rw [congrFun (V9_main_v45 m ρ c) (ix2 0 j)]
  unfold shiftRow scaleRow
  rw [subf_apply, mulf_apply, mulf_apply, shapeCast_a_1a_apply, shapeCast_a_1a_apply, W8_main_arg9, W8_main_arg10,
    invRow_apply, meanRow_apply]

end Cert.KernelIdeal.HostB
-- ==== Proof.KChainB.lean ====
/-
  The kernel program's chain through its two takes and its third region, against the reference's stages. Between the
  second and the third region the host adds the rows of an array into the table row their segment id names and takes,
  for every row, the table row of its id back: the same operations, over records equal field by field, as the reference's
  segment sums and row gathers. The third region then forms the quotient `(pw * (0 - fa)) / (tw + ε)` element by element
  and its column sums and column sums of squares; over the extended reals `0 - x = -x`, so these are the reference's
  quotient and the two column sums the batch normalisation of the quotient is made of.
-/
import proofs.«430596_j44092134261327_3_alg».proof.Proof.Gen.KernelIdeal.Frame
import proofs.«430596_j44092134261327_3_alg».proof.Proof.RefStages
import proofs.«430596_j44092134261327_3_alg».proof.Proof.RefRead
import proofs.«430596_j44092134261327_3_alg».proof.Proof.BnBridge
import proofs.«430596_j44092134261327_3_alg».proof.Proof.KArgs
import proofs.«430596_j44092134261327_3_alg».proof.Proof.PreDecode
import proofs.«430596_j44092134261327_3_alg».proof.Proof.KReg2
import proofs.«430596_j44092134261327_3_alg».proof.Proof.KHostB
import proofs.«430596_j44092134261327_3_alg».proof.Proof.KChainA
import Idealize.ShloMosaic.Lib.ValueIdx
import Idealize.ShloMosaic.PureOps.Ideal.Laws

set_option maxRecDepth 16384

noncomputable section

namespace Cert.KernelIdeal.ChainB

open Cert.KernelIdeal Cert.KernelIdeal.Gen Cert.KernelIdeal.KArgs
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The takes: the kernel program's operations are the reference's stages -/

/-- The two programs' scatter records are one record. -/
theorem scatter_rec_eq : Cert.KernelIdeal.scatter_S100000x64_S1000000x1_S1000000x64_1_0_0_1
    = Cert.ReferenceIdeal.scatter_S100000x64_S1000000x1_S1000000x64_1_0_0_1 := rfl

/-- The two programs' gather records are one record. -/
theorem gather_rec_eq : Cert.KernelIdeal.gather_S100000x64_S1000000x1_S1000000x64_1_0_n_n_0_1_164
    = Cert.ReferenceIdeal.gather_S100000x64_S1000000x1_S1000000x64_1_0_n_n_0_1_164 := rfl

/-- The rows of `u` added into the table row their id names, and every row's table row taken back through the wrapped
    ids, as the kernel program spells the two operations: the reference's segment sums and row gather. -/
theorem take_eq (idx : IVec S1000000 32) (u : FVec Ideal S1000000x64 .f32) :
    Host.gather gather_S100000x64_S1000000x1_S1000000x64_1_0_n_n_0_1_164
        (Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 idx) u)
        (broadcastInDim S1000000x1 ![0] bcast_S1000000_S1000000x1_0
          (select (cmpi .slt idx (broadcastInDim S1000000 ![] bcast_S_S1000000 (constantI S_ 32 0#32)))
            (addi idx (broadcastInDim S1000000 ![] bcast_S_S1000000 (constantI S_ 32 100000#32))) idx))
      = Cert.ReferenceIdeal.RefValue.rowsAt (F := Ideal) (Cert.ReferenceIdeal.RefValue.segSum idx u) idx := by
  rw [gather_rec_eq, scatter_rec_eq]
  rfl

/-! ## The third region's quotient is the reference's -/

/-- Over the extended reals `0 - x = -x`: the kernel's quotient at an element is the reference's. -/
theorem quot_apply (P F T : FVec Ideal Cert.ReferenceIdeal.S1000000x64 .f32) (i : Cert.ReferenceIdeal.S1000000x64.Idx) :
    Ideal.div (P i * (Ideal.ofBits .f32 0x00000000#32 - F i)) (T i + Ideal.ofBits .f32 0x38D1B717#32)
      = Cert.ReferenceIdeal.RefValue.outRaw P F T i := by
  rw [Cert.ReferenceIdeal.RefRead.outRaw_apply, Ideal.ofBits_zero_f32, zero_sub]

/-- So when the third region's three input arrays are `P`, `F`, `T`, its quotient is the reference's of them. -/
theorem oraw_fun_eq_of (c : Dev nD) (P F T : FVec Ideal Cert.ReferenceIdeal.S1000000x64 .f32)
    (hP : Reg2.Pw (V7 m ρ) c = P) (hF : Reg2.Fa (V7 m ρ) c = F) (hT : Reg2.Tw (V7 m ρ) c = T) :
    (fun i => Reg2.oraw (V7 m ρ) c i) = Cert.ReferenceIdeal.RefValue.outRaw P F T := by
  subst hP hF hT
  funext i
  unfold Reg2.oraw
  exact quot_apply _ _ _ i

/-- The third region's first output, when its three input arrays are `P`, `F`, `T`: the reference's quotient of them. -/
theorem oraw_eq_of (c : Dev nD) (P F T : FVec Ideal Cert.ReferenceIdeal.S1000000x64 .f32)
    (hP : V7 m ρ c main_v2_0 = P) (hF : V7 m ρ c main_v27 = F) (hT : V7 m ρ c main_v28 = T) :
    V8 m ρ c main_v29_0 = Cert.ReferenceIdeal.RefValue.outRaw P F T :=
  ((W8_arr m ρ c 3).trans (Reg2.arr_oraw (V7 m ρ) c)).trans (oraw_fun_eq_of m ρ c P F T hP hF hT)

/-- The sum over all rows of the region's quotient, at column `j`, is the column sum of the reference's. -/
theorem colS_oraw (c : Dev nD) (P F T : FVec Ideal Cert.ReferenceIdeal.S1000000x64 .f32)
    (hP : V7 m ρ c main_v2_0 = P) (hF : V7 m ρ c main_v27 = F) (hT : V7 m ρ c main_v28 = T) (j : Fin 64) :
    (∑ n : Fin 1000000, Reg2.oraw (V7 m ρ) c (ix2 n j) : EReal)
      = Cert.ReferenceIdeal.BnBridge.colS (Cert.ReferenceIdeal.RefValue.outRaw P F T) j := by
  unfold Cert.ReferenceIdeal.BnBridge.colS
  exact Finset.sum_congr rfl fun n _ => congrFun (oraw_fun_eq_of m ρ c P F T hP hF hT) (ix2 n j)

/-- The same for the squares. -/
theorem colQ_oraw (c : Dev nD) (P F T : FVec Ideal Cert.ReferenceIdeal.S1000000x64 .f32)
    (hP : V7 m ρ c main_v2_0 = P) (hF : V7 m ρ c main_v27 = F) (hT : V7 m ρ c main_v28 = T) (j : Fin 64) :
    (∑ n : Fin 1000000, Reg2.oraw (V7 m ρ) c (ix2 n j) * Reg2.oraw (V7 m ρ) c (ix2 n j) : EReal)
      = Cert.ReferenceIdeal.BnBridge.colQ (Cert.ReferenceIdeal.RefValue.outRaw P F T) j := by
  unfold Cert.ReferenceIdeal.BnBridge.colQ
  exact Finset.sum_congr rfl fun n _ =>
    congrArg₂ (fun x y : EReal => x * y) (congrFun (oraw_fun_eq_of m ρ c P F T hP hF hT) (ix2 n j))
      (congrFun (oraw_fun_eq_of m ρ c P F T hP hF hT) (ix2 n j))

/-- Its second output at column `j`: the column sum of that quotient. -/
theorem sum2_eq_of (c : Dev nD) (P F T : FVec Ideal Cert.ReferenceIdeal.S1000000x64 .f32)
    (hP : V7 m ρ c main_v2_0 = P) (hF : V7 m ρ c main_v27 = F) (hT : V7 m ρ c main_v28 = T) (j : Fin 64) :
    (V8 m ρ c main_v29_1 : S1x64.Idx → EReal) (ix2 0 j)
      = Cert.ReferenceIdeal.BnBridge.colS (Cert.ReferenceIdeal.RefValue.outRaw P F T) j :=
  (congrFun ((W8_arr m ρ c 4).trans (Reg2.arr_sum (V7 m ρ) c)) (ix2 (0 : Fin 1) j)).trans (colS_oraw m ρ c P F T hP hF hT j)

/-- Its third output at column `j`: the column sum of that quotient's square. -/
theorem sumsq2_eq_of (c : Dev nD) (P F T : FVec Ideal Cert.ReferenceIdeal.S1000000x64 .f32)
    (hP : V7 m ρ c main_v2_0 = P) (hF : V7 m ρ c main_v27 = F) (hT : V7 m ρ c main_v28 = T) (j : Fin 64) :
    (V8 m ρ c main_v29_2 : S1x64.Idx → EReal) (ix2 0 j)
      = Cert.ReferenceIdeal.BnBridge.colQ (Cert.ReferenceIdeal.RefValue.outRaw P F T) j :=
  (congrFun ((W8_arr m ρ c 5).trans (Reg2.arr_sumsq (V7 m ρ) c)) (ix2 (0 : Fin 1) j)).trans (colQ_oraw m ρ c P F T hP hF hT j)

/-! ## The chain, from the facts about the earlier regions and the two takes

The hypotheses are the values of the buffers the third region reads, as the other parts of the run give them: the first
region's positional output `hP`, the second region's product output `hTmp`, and the two takes spelt with the kernel
program's own operations `hFa`, `hTw`. -/

/-- The kernel program's take of the segment sums of `u` through the ids `idx`, in its own operations. -/
abbrev takeK (idx : IVec S1000000 32) (u : FVec Ideal S1000000x64 .f32) : FVec Ideal S1000000x64 .f32 :=
  Host.gather gather_S100000x64_S1000000x1_S1000000x64_1_0_n_n_0_1_164
    (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 idx) u)
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 100000#32))) idx))

/-- The gathered segment sums of the product array are the reference's. -/
theorem fa_eq_of (c : Dev nD)
    (hTmp : V4 m ρ c main_v20_1 = mulf (Cert.ReferenceIdeal.RefValue.posW (F := Ideal) (a0 m c) (a7 m c) (a8 m c))
      (Cert.ReferenceIdeal.RefValue.feat (a1 m c) (a3 m c) (a4 m c) (a5 m c) (a6 m c)))
    (hFa : V7 m ρ c main_v27 = takeK (a2 m c) (V4 m ρ c main_v20_1)) :
    V7 m ρ c main_v27 = Cert.ReferenceIdeal.RefValue.rowsAt (F := Ideal)
      (Cert.ReferenceIdeal.RefValue.segSum (a2 m c) (mulf (Cert.ReferenceIdeal.RefValue.posW (a0 m c) (a7 m c) (a8 m c))
        (Cert.ReferenceIdeal.RefValue.feat (a1 m c) (a3 m c) (a4 m c) (a5 m c) (a6 m c)))) (a2 m c) :=
  hFa.trans ((congrArg (takeK (a2 m c)) hTmp).trans (take_eq (a2 m c) _))

/-- The gathered segment sums of the positional array are the reference's. -/
theorem tw_eq_of (c : Dev nD)
    (hP : V2 m ρ c main_v2_0 = Cert.ReferenceIdeal.RefValue.posW (F := Ideal) (a0 m c) (a7 m c) (a8 m c))
    (hTw : V7 m ρ c main_v28 = takeK (a2 m c) (V4 m ρ c main_v2_0)) :
    V7 m ρ c main_v28 = Cert.ReferenceIdeal.RefValue.rowsAt (F := Ideal)
      (Cert.ReferenceIdeal.RefValue.segSum (a2 m c) (Cert.ReferenceIdeal.RefValue.posW (a0 m c) (a7 m c) (a8 m c))) (a2 m c) :=
  hTw.trans ((congrArg (takeK (a2 m c)) ((HostB.V4_main_v2_0 m ρ c).trans hP)).trans (take_eq (a2 m c) _))

section Glue

variable (c : Dev nD)
  (hP : V2 m ρ c main_v2_0 = Cert.ReferenceIdeal.RefValue.posW (F := Ideal) (a0 m c) (a7 m c) (a8 m c))
  (hTmp : V4 m ρ c main_v20_1 = mulf (Cert.ReferenceIdeal.RefValue.posW (F := Ideal) (a0 m c) (a7 m c) (a8 m c))
    (Cert.ReferenceIdeal.RefValue.feat (a1 m c) (a3 m c) (a4 m c) (a5 m c) (a6 m c)))
  (hFa : V7 m ρ c main_v27 = takeK (a2 m c) (V4 m ρ c main_v20_1))
  (hTw : V7 m ρ c main_v28 = takeK (a2 m c) (V4 m ρ c main_v2_0))

include hP hTmp hFa hTw

/-- The third region's first output is the reference's quotient. -/
theorem oraw_eq_of' : V8 m ρ c main_v29_0
    = Cert.ReferenceIdeal.RefValue.quot (F := Ideal) (a0 m c) (a1 m c) (a2 m c) (a3 m c) (a4 m c) (a5 m c) (a6 m c) (a7 m c) (a8 m c) :=
  oraw_eq_of m ρ c _ _ _ ((HostB.V7_main_v2_0 m ρ c).trans hP) (fa_eq_of m ρ c hTmp hFa) (tw_eq_of m ρ c hP hTw)

/-- Its second output at column `j`: the column sum of the reference's quotient. -/
theorem sum2_eq_of' (j : Fin 64) : (V8 m ρ c main_v29_1 : S1x64.Idx → EReal) (ix2 0 j)
    = Cert.ReferenceIdeal.BnBridge.colS (Cert.ReferenceIdeal.RefValue.quot (F := Ideal) (a0 m c) (a1 m c) (a2 m c) (a3 m c) (a4 m c) (a5 m c) (a6 m c) (a7 m c) (a8 m c)) j :=
  sum2_eq_of m ρ c _ _ _ ((HostB.V7_main_v2_0 m ρ c).trans hP) (fa_eq_of m ρ c hTmp hFa) (tw_eq_of m ρ c hP hTw) j

/-- Its third output at column `j`: the column sum of the square of the reference's quotient. -/
theorem sumsq2_eq_of' (j : Fin 64) : (V8 m ρ c main_v29_2 : S1x64.Idx → EReal) (ix2 0 j)
    = Cert.ReferenceIdeal.BnBridge.colQ (Cert.ReferenceIdeal.RefValue.quot (F := Ideal) (a0 m c) (a1 m c) (a2 m c) (a3 m c) (a4 m c) (a5 m c) (a6 m c) (a7 m c) (a8 m c)) j :=
  sumsq2_eq_of m ρ c _ _ _ ((HostB.V7_main_v2_0 m ρ c).trans hP) (fa_eq_of m ρ c hTmp hFa) (tw_eq_of m ρ c hP hTw) j

end Glue

/-! ## The same, with the earlier regions' facts put in: only the two takes are left as hypotheses -/

section WithPre

variable [Cert.Pre_finite_inputs.Facts]
variable (c : Dev nD) (hpre : KArgs.Pre m c)
  (hFa : V7 m ρ c main_v27 = takeK (a2 m c) (V4 m ρ c main_v20_1))
  (hTw : V7 m ρ c main_v28 = takeK (a2 m c) (V4 m ρ c main_v2_0))

include hpre hFa in
/-- The gathered segment sums of the product array are the reference's. -/
theorem fa_eq : V7 m ρ c main_v27 = Cert.ReferenceIdeal.RefValue.rowsAt (F := Ideal)
    (Cert.ReferenceIdeal.RefValue.segSum (a2 m c) (mulf (Cert.ReferenceIdeal.RefValue.posW (a0 m c) (a7 m c) (a8 m c))
      (Cert.ReferenceIdeal.RefValue.feat (a1 m c) (a3 m c) (a4 m c) (a5 m c) (a6 m c)))) (a2 m c) :=
  fa_eq_of m ρ c (ChainA.tmp_eq m ρ c hpre) hFa

include hTw in
/-- The gathered segment sums of the positional array are the reference's. -/
theorem tw_eq : V7 m ρ c main_v28 = Cert.ReferenceIdeal.RefValue.rowsAt (F := Ideal)
    (Cert.ReferenceIdeal.RefValue.segSum (a2 m c) (Cert.ReferenceIdeal.RefValue.posW (a0 m c) (a7 m c) (a8 m c))) (a2 m c) :=
  tw_eq_of m ρ c (ChainA.posw_eq m ρ c) hTw

include hpre hFa hTw

/-- The third region's first output is the reference's quotient. -/
theorem oraw_eq : V8 m ρ c main_v29_0 = Cert.ReferenceIdeal.RefValue.quot (F := Ideal) (a0 m c) (a1 m c) (a2 m c) (a3 m c) (a4 m c) (a5 m c) (a6 m c) (a7 m c) (a8 m c) :=
  oraw_eq_of' m ρ c (ChainA.posw_eq m ρ c) (ChainA.tmp_eq m ρ c hpre) hFa hTw

/-- Its second output at column `j`: the column sum of the reference's quotient. -/
theorem sum2_eq (j : Fin 64) : (V8 m ρ c main_v29_1 : S1x64.Idx → EReal) (ix2 0 j)
    = Cert.ReferenceIdeal.BnBridge.colS (Cert.ReferenceIdeal.RefValue.quot (F := Ideal) (a0 m c) (a1 m c) (a2 m c) (a3 m c) (a4 m c) (a5 m c) (a6 m c) (a7 m c) (a8 m c)) j :=
  sum2_eq_of' m ρ c (ChainA.posw_eq m ρ c) (ChainA.tmp_eq m ρ c hpre) hFa hTw j

/-- Its third output at column `j`: the column sum of the square of the reference's quotient. -/
theorem sumsq2_eq (j : Fin 64) : (V8 m ρ c main_v29_2 : S1x64.Idx → EReal) (ix2 0 j)
    = Cert.ReferenceIdeal.BnBridge.colQ (Cert.ReferenceIdeal.RefValue.quot (F := Ideal) (a0 m c) (a1 m c) (a2 m c) (a3 m c) (a4 m c) (a5 m c) (a6 m c) (a7 m c) (a8 m c)) j :=
  sumsq2_eq_of' m ρ c (ChainA.posw_eq m ρ c) (ChainA.tmp_eq m ρ c hpre) hFa hTw j

end WithPre

end Cert.KernelIdeal.ChainB

end
-- ==== Proof.KReg3.lean ====
import proofs.«430596_j44092134261327_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The body's accesses all start at the origin of their buffers. -/
theorem origin : (![0, 0] : Fin 2 → Nat) = fun _ => 0 :=
  funext fun a => by match a with | ⟨0, _⟩ => rfl | ⟨1, _⟩ => rfl

/-- The scaled, shifted, rectified entry plus the residual: entry (r, l) is
    max (o[r,l] · s[0,l] + h[0,l], 0) + f[r,l]. -/
abbrev res (o f : S1000000x64.Idx → EReal) (s h : S1x64.Idx → EReal) : S1000000x64.Idx → EReal :=
  fun i => max (o i * s (ix2 0 (i 1)) + h (ix2 0 (i 1))) 0 + f i

/-- A [1, 64] row broadcast down the tile's 10000 rows reads the row at the lane. -/
theorem row_bcast (s : Vec Ideal S1x64 .f32) (p : Fin 10000) (q : Fin 64) :
    broadcastTo S10000x64 s broadcasts_S1x64_S10000x64 (ix2 p q) = s (ix2 0 q) := by
  refine broadcastTo_apply s broadcasts_S1x64_S10000x64 (ix2 p q) (ix2 0 q) fun a => ?_
  match a with
  | ⟨0, _⟩ => rfl
  | ⟨1, _⟩ => rfl

/-- The body's arithmetic on one tile, entry by entry: the casts are identities, the two rows are
    broadcast down the rows, and the rectifier's constant is the extended real 0. -/
theorem pay_apply (x0 x1 : Vec Ideal S10000x64 .f32) (s h : Vec Ideal S1x64 .f32) (p : Fin 10000) (q : Fin 64) :
    k3_pay1 x0 s h x1 (ix2 p q) = max (x0 (ix2 p q) * s (ix2 0 q) + h (ix2 0 q)) 0 + x1 (ix2 p q) := by
  unfold k3_pay1
  simp only [addf_apply, maximumf_apply, mulf_apply, broadcast_apply, shapeCast_self]
  rw [row_bcast s p q, row_bcast h p q]
  show max _ (Ideal.ofBits .f32 0x00000000#32) + _ = _
  rw [Ideal.ofBits_zero_f32]

/-- The same, as one function on the tile. -/
theorem pay_eq (x0 x1 : Vec Ideal S10000x64 .f32) (s h : Vec Ideal S1x64 .f32) :
    k3_pay1 x0 s h x1 = fun j => max (x0 j * s (ix2 0 (j 1)) + h (ix2 0 (j 1))) 0 + x1 j := by
  funext j
  obtain ⟨p, q, rfl⟩ : ∃ (p : Fin 10000) (q : Fin 64), j = ix2 p q := ⟨j 0, j 1, eq_ix2 j⟩
  exact pay_apply x0 x1 s h p q

/-- Where each window's block sits at grid point t: the three row-tiled windows at row block t,
    lane block 0; the two resident rows always at block (0, 0). -/
theorem blk_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The region's four input arrays as it finds them, at their literal shapes: the pre-normalisation
    activations, the residual features, and the per-lane scale and shift rows. -/
abbrev outRaw (c : Dev nD) : S1000000x64.Idx → EReal := V c main_v29_0
abbrev feat (c : Dev nD) : S1000000x64.Idx → EReal := V c main_v20_0
abbrev scale (c : Dev nD) : S1x64.Idx → EReal := V c main_v42
abbrev shift (c : Dev nD) : S1x64.Idx → EReal := V c main_v45

/-- What point t writes back is block t of res of the region's input arrays: the tiles of the
    two row-tiled inputs are the same rows 10000·t … 10000·t + 9999 the output block covers, and the two
    resident rows are read whole. -/
theorem flushed_eq (c : Dev nD) (t : Fin cfg3.N) :
    (dat3 (F := Ideal) V c).flushed 4 t
      = ((cfg3.win 4).blk t).view.read (Elt Ideal) (res (outRaw V c) (feat V c) (scale V c) (shift V c)) := by
  show (cfg3.win 4).cut (grid3.coords t) ((dat3 (F := Ideal) V c).after 4 t) = _
  rw [after3_4]
  unfold out3_4
  rw [View.canon_unit_zero origin]
  simp only [View.ld_unit_zero (S := S10000x64) origin, View.ld_unit_zero (S := S1x64) origin]
  refine (pay_eq (iblk3 V c 0 t) (iblk3 V c 1 t) (iblk3 V c 2 t) (iblk3 V c 3 t)).trans ?_
  obtain ⟨e00, e01, e10, e11, e20, e21, e30, e31, e40, e41⟩ := blk_index t
  funext j
  have hj0 : (j 0).val < 10000 := (j 0).isLt
  have hj1 : (j 1).val < 64 := (j 1).isLt
  have h0 : ((cfg3.win 0).blk t).view.emb j = ((cfg3.win 4).blk t).view.emb j := by
    funext a; apply Fin.ext
    match a with
    | ⟨0, _⟩ => show win3_0.index t (0 : Fin 2) * 10000 + 1 * (j 0).val = win3_4.index t (0 : Fin 2) * 10000 + 1 * (j 0).val; omega
    | ⟨1, _⟩ => show win3_0.index t (1 : Fin 2) * 64 + 1 * (j 1).val = win3_4.index t (1 : Fin 2) * 64 + 1 * (j 1).val; omega
  have h1 : ((cfg3.win 1).blk t).view.emb j = ((cfg3.win 4).blk t).view.emb j := by
    funext a; apply Fin.ext
    match a with
    | ⟨0, _⟩ => show win3_1.index t (0 : Fin 2) * 10000 + 1 * (j 0).val = win3_4.index t (0 : Fin 2) * 10000 + 1 * (j 0).val; omega
    | ⟨1, _⟩ => show win3_1.index t (1 : Fin 2) * 64 + 1 * (j 1).val = win3_4.index t (1 : Fin 2) * 64 + 1 * (j 1).val; omega
  have h2 : ((cfg3.win 2).blk t).view.emb (ix2 0 (j 1)) = (ix2 0 ((((cfg3.win 4).blk t).view.emb j) 1) : S1x64.Idx) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_4.index t (1 : Fin 2) * 64 + 1 * (j 1).val; omega
  have h3 : ((cfg3.win 3).blk t).view.emb (ix2 0 (j 1)) = (ix2 0 ((((cfg3.win 4).blk t).view.emb j) 1) : S1x64.Idx) := by
    funext a; apply Fin.ext
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega
  show max (outRaw V c (((cfg3.win 0).blk t).view.emb j)
        * scale V c (((cfg3.win 2).blk t).view.emb (ix2 0 (j 1)))
        + shift V c (((cfg3.win 3).blk t).view.emb (ix2 0 (j 1)))) 0
      + feat V c (((cfg3.win 1).blk t).view.emb j)
    = res (outRaw V c) (feat V c) (scale V c) (shift V c) (((cfg3.win 4).blk t).view.emb j)
  rw [h0, h1, h2, h3]

/-- An index of the output array lies in point t's block iff each coordinate lies in the block's range. -/
theorem mem_blk (t : Fin cfg3.N) (i : S1000000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v46).slice (win3_4.rect t)).set ↔ _
  rw [View.set_slice_whole, Rect.mem_set_unit]
  exact Iff.rfl

/-- Row r of the output lies in the block of point r / 10000, and every point writes its block back:
    the hundred blocks tile the array. -/
theorem covered (i : S1000000x64.Idx) :
    ∃ t : Fin cfg3.N, (cfg3.win 4).flush t = true ∧ i ∈ ((cfg3.win 4).blk t).view.set := by
  have hN : cfg3.N = 100 := N_3
  have hi0 : (i 0).val < 1000000 := idx2_lt0 i
  have hi1 : (i 1).val < 64 := idx2_lt1 i
  refine ⟨⟨(i 0).val / 10000, by rw [hN]; omega⟩, flush3_4 _, ?_⟩
  rw [mem_blk]
  obtain ⟨-, -, -, -, -, -, -, -, e40, e41⟩ := blk_index ⟨(i 0).val / 10000, by rw [hN]; omega⟩
  intro a
  match a with
  | ⟨0, _⟩ =>
    show win3_4.index _ (0 : Fin 2) * 10000 ≤ (i 0).val ∧ (i 0).val < win3_4.index _ (0 : Fin 2) * 10000 + 10000
    rw [e40]; show (i 0).val / 10000 * 10000 ≤ (i 0).val ∧ (i 0).val < (i 0).val / 10000 * 10000 + 10000; omega
  | ⟨1, _⟩ =>
    show win3_4.index _ (1 : Fin 2) * 64 ≤ (i 1).val ∧ (i 1).val < win3_4.index _ (1 : Fin 2) * 64 + 64
    rw [e41]; omega

/-- THE OUTPUT ARRAY after the region: entry (r, l) is
    max (outRaw[r,l] · scale[0,l] + shift[0,l], 0) + feat[r,l]. -/
theorem arr_out (c : Dev nD) :
    (dat3 (F := Ideal) V c).arrAt 4 cfg3.N
      = fun i => max (outRaw V c i * scale V c (ix2 0 (i 1)) + shift V c (ix2 0 (i 1))) 0 + feat V c i :=
  (dat3 (F := Ideal) V c).arrAt_eq_of_cover 4 (res (outRaw V c) (feat V c) (scale V c) (shift V c))
    (fun t _ => flushed_eq V c t) covered

end Cert.KernelIdeal.Reg3
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.RealGather.lean ====
/-
  Real entries stay real through the segment sums and the row gathers. A segment sum adds, into a zero table, the rows
  of an array whose segment id names the table's row: each entry of the table is zero plus a finite sum of entries of the
  array. A row gather reads, for each row, one row of the table (the wrapped id clamped into the table). So if every
  entry of the array is a real number, so is every entry of the gathered segment sums.
-/
import proofs.«430596_j44092134261327_3_alg».proof.Proof.RefStages
import proofs.«430596_j44092134261327_3_alg».proof.Proof.LibGatherRows
import proofs.«430596_j44092134261327_3_alg».proof.Proof.LibScatterRows
import Idealize.ShloMosaic.PureOps.Ideal.Laws

noncomputable section

namespace Cert.ReferenceIdeal.RealGather

open Cert.ReferenceIdeal Cert.ReferenceIdeal.Gen Idealize.ShloMosaic Idealize.ShloMosaic.ValueIdx

/-- A finite sum of real numbers is a real number. -/
theorem sum_real {ι : Type*} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- A real number plus a finite sum of real numbers is a real number. -/
theorem add_sum_real {ι : Type*} (z : EReal) (hz : ∃ r : ℝ, z = (r : EReal)) (s : Finset ι) (f : ι → EReal)
    (h : ∀ i, ∃ r : ℝ, f i = (r : EReal)) : ∃ r : ℝ, z + ∑ i ∈ s, f i = (r : EReal) := by
  obtain ⟨q, hq⟩ := hz
  obtain ⟨r, hr⟩ := sum_real s f h
  exact ⟨q + r, by rw [hq, hr, EReal.coe_add]⟩

/-- Every entry of a row gather of a real table is real: it is an entry of the table. -/
theorem rowsAt_real (tbl : FVec Ideal S100000x64 .f32) (a2 : IVec S1000000 32) (h : ∀ i, ∃ r : ℝ, tbl i = (r : EReal)) :
    ∀ i, ∃ r : ℝ, RefValue.rowsAt tbl a2 i = (r : EReal) := by
  intro i
  obtain ⟨e, j, rfl⟩ : ∃ (e : Fin 1000000) (j : Fin 64), i = ix2 e j := ⟨i 0, i 1, eq_ix2 i⟩
  unfold RefValue.rowsAt
  rw [show gather_S100000x64_S1000000x1_S1000000x64_1_0_n_n_0_1_164
      = rowsDims 100000 1000000 64 gather_S100000x64_S1000000x1_S1000000x64_1_0_n_n_0_1_164_wf from rfl]
  rw [gather_rows_apply (by decide)]
  exact h _

/-- Every entry of the segment sums of a real array is real: zero plus a finite sum of the array's entries. -/
theorem segSum_real (a2 : IVec S1000000 32) (u : FVec Ideal S1000000x64 .f32) (h : ∀ i, ∃ r : ℝ, u i = (r : EReal)) :
    ∀ i, ∃ r : ℝ, RefValue.segSum a2 u i = (r : EReal) := by
  intro i
  obtain ⟨n, j, rfl⟩ : ∃ (n : Fin 100000) (j : Fin 64), i = ix2 n j := ⟨i 0, i 1, eq_ix2 i⟩
  unfold RefValue.segSum
  rw [show scatter_S100000x64_S1000000x1_S1000000x64_1_0_0_1
      = rowsScatterDims 100000 1000000 64 scatter_S100000x64_S1000000x1_S1000000x64_1_0_0_1_wf from rfl]
  rw [scatterAdd_rows_apply]
  refine add_sum_real _ ⟨0, ?_⟩ _ _ (fun e => h _)
  show Ideal.ofBits .f32 0x00000000#32 = ((0 : ℝ) : EReal)
  rw [Ideal.ofBits_zero_f32]; rfl

end Cert.ReferenceIdeal.RealGather

end
-- ==== Proof.RefFinal.lean ====
/-
  The reference's result, entry by entry, in scale-and-shift form. Under the precondition every input entry is a real
  number, the segment ids are in range and the denominator is nowhere zero; so every stage of the reference is real:
  the two linear layers (finite sums of products of reals), the batch normalisation of the first layer, the product of
  the positional layer with it, the two gathered segment sums (zero plus finite sums of reals, read at a row), and the
  quotient (a real over a nonzero real). The result is the maximum with zero of the normalised quotient, plus the
  normalised first layer; on real columns each normalisation equals x · (g · inv) + (b − mean · (g · inv)) with the
  column's one-pass mean and reciprocal standard deviation.
-/
import proofs.«430596_j44092134261327_3_alg».proof.Proof.PreDecode
import proofs.«430596_j44092134261327_3_alg».proof.Proof.BnAlgebra
import proofs.«430596_j44092134261327_3_alg».proof.Proof.RealGather
import proofs.«430596_j44092134261327_3_alg».proof.Proof.RefReadDot
import proofs.«430596_j44092134261327_3_alg».proof.Proof.BnBridge

noncomputable section

namespace Cert.ReferenceIdeal.RefFinal

open Cert.ReferenceIdeal Cert.ReferenceIdeal.Gen Idealize.ShloMosaic Idealize.ShloMosaic.ValueIdx
open Cert.ReferenceIdeal.RefValue Cert.ReferenceIdeal.BnBridge

/-! ### The last two stages read at an entry (over any arrays) -/

/-- The quotient stage at an entry: pw · (−fa) over tw plus the word 0x38D1B717 (1e-4). -/
theorem outRaw_apply (pw fa tw : FVec Ideal S1000000x64 .f32) (i : S1000000x64.Idx) :
    outRaw pw fa tw i = Ideal.div (pw i * -(fa i)) (tw i + Ideal.ofBits .f32 0x38D1B717#32) := rfl

/-- The rectified sum at an entry, the zero still spelt as its word. -/
theorem relu_add_word (q f : FVec Ideal S1000000x64 .f32) (i : S1000000x64.Idx) :
    addf (maximumf q (broadcastInDim S1000000x64 ![] bcast_S_S1000000x64 (constant S_ .f32 0x00000000#32))) f i
      = max (q i) (Ideal.ofBits .f32 0x00000000#32) + f i := rfl

/-- The rectified sum at an entry: max(q, 0) + f. -/
theorem relu_add_apply (q f : FVec Ideal S1000000x64 .f32) (i : S1000000x64.Idx) :
    addf (maximumf q (broadcastInDim S1000000x64 ![] bcast_S_S1000000x64 (constant S_ .f32 0x00000000#32))) f i
      = max (q i) 0 + f i := by
  rw [relu_add_word, Ideal.ofBits_zero_f32]

/-- The word 0x38D1B717 denotes a real number: a normal pattern (exponent field neither all ones nor zero). -/
theorem tiny_real : ∃ d : ℝ, Ideal.ofBits .f32 0x38D1B717#32 = (d : EReal) := by
  unfold Ideal.ofBits Ideal.ieee
  dsimp only
  rw [if_neg (by decide), if_neg (by decide)]
  exact ⟨_, rfl⟩

section Stages

variable {a0 : FVec Ideal S1000000x3 .f32} {a1 : FVec Ideal S1000000x64 .f32} {a2 : IVec S1000000 32}
  {a3 : FVec Ideal S64x64 .f32} {a4 a5 a6 : FVec Ideal S64 .f32} {a7 : FVec Ideal S3x64 .f32}
  {a8 a9 a10 : FVec Ideal S64 .f32}
  (h : Cert.Pre_finite_inputs.fn (F := Ideal) a0 a1 a2 a3 a4 a5 a6 a7 a8 a9 a10 = (fun _ => 1#1))

include h

/-- The first linear layer is real. -/
theorem raw_real : ∀ i, ∃ r : ℝ, raw a1 a3 a4 i = (r : EReal) := by
  apply RefReadDot.raw_real
  exacts [Cert.PreDecode.finite_a1 h, Cert.PreDecode.finite_a3 h, Cert.PreDecode.finite_a4 h]

/-- The positional layer is real. -/
theorem posW_real : ∀ i, ∃ r : ℝ, posW a0 a7 a8 i = (r : EReal) := by
  apply RefReadDot.posW_real
  exacts [Cert.PreDecode.finite_a0 h, Cert.PreDecode.finite_a7 h, Cert.PreDecode.finite_a8 h]

/-- The normalised first layer is real. -/
theorem feat_real : ∀ i, ∃ r : ℝ, feat a1 a3 a4 a5 a6 i = (r : EReal) :=
  bn_real (raw a1 a3 a4) a5 a6 (raw_real h) (Cert.PreDecode.finite_a5 h) (Cert.PreDecode.finite_a6 h)

/-- The positional layer times the normalised first layer is real. -/
theorem mul_real : ∀ i, ∃ r : ℝ, mulf (posW a0 a7 a8) (feat a1 a3 a4 a5 a6) i = (r : EReal) := by
  intro i
  obtain ⟨p, hp⟩ := posW_real h i
  obtain ⟨f, hf⟩ := feat_real h i
  exact ⟨p * f, by rw [mulf_apply, hp, hf, EReal.coe_mul]⟩

/-- The gathered segment sums of the product are real. -/
theorem num_real : ∀ i, ∃ r : ℝ,
    rowsAt (segSum a2 (mulf (posW a0 a7 a8) (feat a1 a3 a4 a5 a6))) a2 i = (r : EReal) :=
  RealGather.rowsAt_real _ a2 (RealGather.segSum_real a2 _ (mul_real h))

/-- The gathered segment sums of the positional layer are real. -/
theorem den_real : ∀ i, ∃ r : ℝ, rowsAt (segSum a2 (posW a0 a7 a8)) a2 i = (r : EReal) :=
  RealGather.rowsAt_real _ a2 (RealGather.segSum_real a2 _ (posW_real h))

/-- The quotient is real: a real over a nonzero real. -/
theorem quot_real : ∀ i, ∃ r : ℝ, quot a0 a1 a2 a3 a4 a5 a6 a7 a8 i = (r : EReal) := by
  intro i
  obtain ⟨p, hp⟩ := posW_real h i
  obtain ⟨u, hu⟩ := num_real h i
  obtain ⟨d, hd⟩ := den_real h i
  obtain ⟨c, hc⟩ := tiny_real
  have hne := Cert.PreDecode.den_ne h i
  rw [hd, hc, ← EReal.coe_add] at hne
  have hne' : d + c ≠ 0 := fun hz => hne (by rw [hz]; rfl)
  unfold quot
  rw [outRaw_apply, hp, hu, hd, hc, ← EReal.coe_neg, ← EReal.coe_mul, ← EReal.coe_add]
  exact Cert.BnAlgebra.div_real_exists _ _ hne'

/-- The result at an entry: the rectified normalised quotient plus the normalised first layer. -/
theorem result_apply (i : S1000000x64.Idx) :
    result a0 a1 a2 a3 a4 a5 a6 a7 a8 a9 a10 i
      = max (bn (quot a0 a1 a2 a3 a4 a5 a6 a7 a8) a9 a10 i) 0 + feat a1 a3 a4 a5 a6 i := by
  unfold result
  exact relu_add_apply _ _ i

/-- The result at row n, column j, both normalisations in scale-and-shift form over their columns' one-pass mean and
    reciprocal standard deviation. -/
theorem result_form (n : Fin 1000000) (j : Fin 64) :
    result a0 a1 a2 a3 a4 a5 a6 a7 a8 a9 a10 (ix2 n j)
      = max (quot a0 a1 a2 a3 a4 a5 a6 a7 a8 (ix2 n j) * (a9 (ix1 j) * kinv (quot a0 a1 a2 a3 a4 a5 a6 a7 a8) j)
              + (a10 (ix1 j) - kmean (quot a0 a1 a2 a3 a4 a5 a6 a7 a8) j
                  * (a9 (ix1 j) * kinv (quot a0 a1 a2 a3 a4 a5 a6 a7 a8) j))) 0
          + (raw a1 a3 a4 (ix2 n j) * (a5 (ix1 j) * kinv (raw a1 a3 a4) j)
              + (a6 (ix1 j) - kmean (raw a1 a3 a4) j * (a5 (ix1 j) * kinv (raw a1 a3 a4) j))) := by
  rw [result_apply h,
    bn_bridge (quot a0 a1 a2 a3 a4 a5 a6 a7 a8) a9 a10 (quot_real h) (Cert.PreDecode.finite_a9 h)
      (Cert.PreDecode.finite_a10 h) n j,
    bn_bridge (raw a1 a3 a4) a5 a6 (raw_real h) (Cert.PreDecode.finite_a5 h) (Cert.PreDecode.finite_a6 h) n j]
  rfl

end Stages

end Cert.ReferenceIdeal.RefFinal

end
-- ==== Proof.KChainC.lean ====
/-
  The last pass. The kernel's result array is, row by row, the rectified scale-and-shift of the quotient plus the
  normalised first layer; the scale and the shift are the second batch normalisation's, folded from the quotient's
  column sums. The reference's result has the same form once its two-pass normalisation is rewritten in the one-pass
  form (every entry of the quotient being a real number), so the two arrays agree index by index.
-/
import proofs.«430596_j44092134261327_3_alg».proof.Proof.KReg3
import proofs.«430596_j44092134261327_3_alg».proof.Proof.KHostB
import proofs.«430596_j44092134261327_3_alg».proof.Proof.KArgs
import proofs.«430596_j44092134261327_3_alg».proof.Proof.RefFinal

set_option maxRecDepth 16384

noncomputable section

namespace Cert.KernelIdeal.ChainC

open Cert.KernelIdeal Cert.KernelIdeal.Gen Cert.KernelIdeal.KArgs
open Idealize.ShloMosaic Idealize.ShloMosaic.TcCoe Idealize.ShloMosaic.ValueIdx Idealize.SL.Sem
open Cert.ReferenceIdeal (RefValue.quot RefValue.feat RefValue.raw RefValue.result)
open Cert.ReferenceIdeal.BnBridge (colS colQ kmean kinv)

variable (m : (ℓ : Loc nD τ sig) → Buf (Elt Ideal) ℓ) (ρ : Dev nD → PrngReg)

/-- The kernel's folded statistics of the second normalisation are the one-pass statistics of the quotient. -/
theorem stats2 (c : Dev nD) (j : Fin 64) (Q : FVec Ideal Cert.ReferenceIdeal.S1000000x64 .f32)
    (hs : (V8 m ρ c main_v29_1 : FVec Ideal S1x64 .f32) (ix2 0 j) = colS Q j)
    (hq : (V8 m ρ c main_v29_2 : FVec Ideal S1x64 .f32) (ix2 0 j) = colQ Q j) :
    HostB.mean2 m ρ c j = kmean Q j ∧ HostB.inv2 m ρ c j = kinv Q j := by
  have hm : HostB.mean2 m ρ c j = kmean Q j := by
    unfold HostB.mean2 kmean
    rw [hs]
  refine ⟨hm, ?_⟩
  unfold HostB.inv2 kinv
  rw [hm, hq, Ideal.ofBits_zero_f32]

/-- The reference's result is the kernel's result array, given the chain up to the quotient. -/
theorem result_eq_of (c : Dev nD) (hpre : KArgs.Pre m c)
    (hfeat : V4 m ρ c main_v20_0 = RefValue.feat (F := Ideal) (a1 m c) (a3 m c) (a4 m c) (a5 m c) (a6 m c))
    (horaw : V8 m ρ c main_v29_0 = RefValue.quot (F := Ideal) (a0 m c) (a1 m c) (a2 m c) (a3 m c) (a4 m c) (a5 m c) (a6 m c) (a7 m c) (a8 m c))
    (hs : ∀ j : Fin 64, (V8 m ρ c main_v29_1 : FVec Ideal S1x64 .f32) (ix2 0 j) = colS (RefValue.quot (F := Ideal) (a0 m c) (a1 m c) (a2 m c) (a3 m c) (a4 m c) (a5 m c) (a6 m c) (a7 m c) (a8 m c)) j)
    (hq : ∀ j : Fin 64, (V8 m ρ c main_v29_2 : FVec Ideal S1x64 .f32) (ix2 0 j) = colQ (RefValue.quot (F := Ideal) (a0 m c) (a1 m c) (a2 m c) (a3 m c) (a4 m c) (a5 m c) (a6 m c) (a7 m c) (a8 m c)) j) :
    RefValue.result (F := Ideal) (a0 m c) (a1 m c) (a2 m c) (a3 m c) (a4 m c) (a5 m c) (a6 m c) (a7 m c) (a8 m c) (a9 m c) (a10 m c) = W10 m ρ c (Proc.devRef .tc main_v46) := by
  rw [show W10 m ρ c (Proc.devRef .tc main_v46) = _ from (W10_arr m ρ c 4).trans (Reg3.arr_out (V9 m ρ) c)]
  funext i
  obtain ⟨n, j, rfl⟩ : ∃ (n : Fin 1000000) (j : Fin 64), i = ix2 n j := ⟨i 0, i 1, eq_ix2 i⟩
  rw [Cert.ReferenceIdeal.RefFinal.result_form hpre n j]
  show _ = max (Reg3.outRaw (V9 m ρ) c (ix2 n j) * Reg3.scale (V9 m ρ) c (ix2 0 j) + Reg3.shift (V9 m ρ) c (ix2 0 j)) 0
      + Reg3.feat (V9 m ρ) c (ix2 n j)
  have e1 : Reg3.outRaw (V9 m ρ) c = RefValue.quot (F := Ideal) (a0 m c) (a1 m c) (a2 m c) (a3 m c) (a4 m c) (a5 m c) (a6 m c) (a7 m c) (a8 m c) := (HostB.V9_main_v29_0 m ρ c).trans horaw
  have e2 : Reg3.feat (V9 m ρ) c = RefValue.feat (F := Ideal) (a1 m c) (a3 m c) (a4 m c) (a5 m c) (a6 m c) :=
    (HostB.V9_main_v20_0 m ρ c).trans hfeat
  obtain ⟨hmean, hinv⟩ := stats2 m ρ c j _ (hs j) (hq j)
  have e3 : Reg3.scale (V9 m ρ) c (ix2 0 j) = a9 m c (ix1 j) * kinv (RefValue.quot (F := Ideal) (a0 m c) (a1 m c) (a2 m c) (a3 m c) (a4 m c) (a5 m c) (a6 m c) (a7 m c) (a8 m c)) j :=
    (HostB.V9_main_v42_apply m ρ c j).trans (by rw [hinv])
  have e4 : Reg3.shift (V9 m ρ) c (ix2 0 j)
      = a10 m c (ix1 j) - kmean (RefValue.quot (F := Ideal) (a0 m c) (a1 m c) (a2 m c) (a3 m c) (a4 m c) (a5 m c) (a6 m c) (a7 m c) (a8 m c)) j * (a9 m c (ix1 j) * kinv (RefValue.quot (F := Ideal) (a0 m c) (a1 m c) (a2 m c) (a3 m c) (a4 m c) (a5 m c) (a6 m c) (a7 m c) (a8 m c)) j) :=
    (HostB.V9_main_v45_apply m ρ c j).trans (by rw [hinv, hmean])
  rw [e1, e2, e3, e4]
  congr 1
  exact Cert.ReferenceIdeal.BnBridge.bn_bridge (RefValue.raw (F := Ideal) (a1 m c) (a3 m c) (a4 m c)) (a5 m c) (a6 m c)
    (Cert.ReferenceIdeal.RefFinal.raw_real hpre) (Cert.PreDecode.finite_a5 hpre) (Cert.PreDecode.finite_a6 hpre) n j

end Cert.KernelIdeal.ChainC

end
-- ==== Proof.KTakeRead.lean ====
/-
  What the three host stretches between the first two kernel regions leave in their result buffers, for any contents
  of the buffers before them. The first stretch builds two segment-sum tables: each adds the rows of an update array
  into a zero [100000, 64] table at the rows the segment ids name. The second and third are the two row gathers
  (`take` with the fill mode): the ids are wrapped (a negative id taken up by 100000) and laid as a [1000000, 1]
  column, a row is gathered from the table at each wrapped id, and a row whose wrapped id lies outside [0, 99999] is
  replaced by the not-a-number word. Every other buffer the later regions read is left as it was.
-/
import proofs.«430596_j44092134261327_3_alg».proof.Proof.Gen.KernelIdeal.Launch
import Idealize.ShloMosaic.Lib.StableHlo.Run

noncomputable section

namespace Cert.KernelIdeal.TakeRead

open Cert.KernelIdeal Cert.KernelIdeal.Gen Idealize.ShloMosaic Idealize.ShloMosaic.TcCoe Idealize.SL.Sem Idealize.ShloMosaic.StableHlo

variable {F : FTy → Type} [FloatOps F]

/-- The segment ids as gather indices: a negative id taken up by 100000, as a [1000000, 1] column. -/
def wrapCol (I : IVec S1000000 32) : IVec S1000000x1 32 :=
  broadcastInDim S1000000x1 ![0] bcast_S1000000_S1000000x1_0
    (select (cmpi .slt I (broadcastInDim S1000000 ![] bcast_S_S1000000 (constantI S_ 32 0#32)))
      (addi I (broadcastInDim S1000000 ![] bcast_S_S1000000 (constantI S_ 32 100000#32))) I)

/-- Which rows the gather keeps: row n of every column is 1 when the wrapped id of n lies in [0, 99999] (the
    conjunction over the one index coordinate of the two bound tests), laid along the 64 columns. -/
def maskOf (I : IVec S1000000 32) : IVec S1000000x64 1 :=
  broadcastInDim S1000000x64 ![0] bcast_S1000000_S1000000x64_0
    (Host.reduce IntOp.andi
      (andi (cmpi .sge (wrapCol I) (broadcastInDim S1000000x1 ![] bcast_S_S1000000x1 (constantI S_ 32 0#32)))
        (cmpi .sle (wrapCol I)
          (broadcastInDim S1000000x1 ![0, 1] bcast_S1x1_S1000000x1_0_1 (broadcastInDim S1x1 ![1] bcast_S1_S1x1_1 (constantI S1 32 99999#32)))))
      (constantI S_ 1 1#1) reducesTo_S1000000x1_S1000000_d1 h_S_)

/-! ## The segment-sum tables -/

set_option maxRecDepth 8192 in
set_option maxHeartbeats 4000000 in
/-- The first table: the rows of the second region-1 result added into a zero table at the segment ids. -/
theorem v23_eq (V : Valuation τ sig (Elt F)) :
    StableHlo.after hostOps2 V (Proc.devRef .tc main_v23)
      = Host.scatterAdd scatter_S100000x64_S1000000x1_S1000000x64_1_0_0_1
        (broadcastInDim S100000x64 ![] bcast_S_S100000x64 (constant S_ .f32 0x00000000#32))
        (broadcastInDim S1000000x1 ![0] bcast_S1000000_S1000000x1_0 (V (Proc.devRef .tc main_arg2))) (V (Proc.devRef .tc main_v20_1)) := by
  after_results_simp

set_option maxRecDepth 8192 in
set_option maxHeartbeats 4000000 in
/-- The second table: the rows of the first region-0 result added into a zero table at the segment ids. -/
theorem v26_eq (V : Valuation τ sig (Elt F)) :
    StableHlo.after hostOps2 V (Proc.devRef .tc main_v26)
      = Host.scatterAdd scatter_S100000x64_S1000000x1_S1000000x64_1_0_0_1
        (broadcastInDim S100000x64 ![] bcast_S_S100000x64 (constant S_ .f32 0x00000000#32))
        (broadcastInDim S1000000x1 ![0] bcast_S1000000_S1000000x1_0 (V (Proc.devRef .tc main_arg2))) (V (Proc.devRef .tc main_v2_0)) := by
  after_results_simp

/-! ## The two gathers

The gathers are inlined calls: their operations carry each buffer's contents through the identity between the tensor
value's type and the buffer's type. Over the literal buffers that identity is no change, so each list of operations is
the same list over the plain operations; the reads below are taken over that list. -/

/-- The first gather's 23 operations over the plain operations. -/
abbrev ops1 : List (HloOp τ sig (Elt F)) :=
  [ StableHlo.nullary main_call0_c (constantI S_ 32 0#32),
    StableHlo.unary main_call0_c main_call0_v0 (broadcastInDim S1000000 ![] bcast_S_S1000000 : (⟨S_, .i32⟩ : BufTy).Contents (Elt F) → (⟨S1000000, .i32⟩ : BufTy).Contents (Elt F)),
    StableHlo.binary main_arg2 main_call0_v0 main_call0_v1 (cmpi .slt : (⟨S1000000, .i32⟩ : BufTy).Contents (Elt F) → (⟨S1000000, .i32⟩ : BufTy).Contents (Elt F) → (⟨S1000000, .i1⟩ : BufTy).Contents (Elt F)),
    StableHlo.nullary main_call0_c_0 (constantI S_ 32 100000#32),
    StableHlo.unary main_call0_c_0 main_call0_v2 (broadcastInDim S1000000 ![] bcast_S_S1000000 : (⟨S_, .i32⟩ : BufTy).Contents (Elt F) → (⟨S1000000, .i32⟩ : BufTy).Contents (Elt F)),
    StableHlo.binary main_arg2 main_call0_v2 main_call0_v3 (addi : (⟨S1000000, .i32⟩ : BufTy).Contents (Elt F) → (⟨S1000000, .i32⟩ : BufTy).Contents (Elt F) → (⟨S1000000, .i32⟩ : BufTy).Contents (Elt F)),
    StableHlo.ternary main_call0_v1 main_call0_v3 main_arg2 main_call0_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_call0_v4 main_call0_v5 (broadcastInDim S1000000x1 ![0] bcast_S1000000_S1000000x1_0 : (⟨S1000000, .i32⟩ : BufTy).Contents (Elt F) → (⟨S1000000x1, .i32⟩ : BufTy).Contents (Elt F)),
    StableHlo.nullary main_call0_c_1 (constantI S1 32 99999#32),
    StableHlo.nullary main_call0_c_2 (constantI S_ 32 0#32),
    StableHlo.unary main_call0_c_2 main_call0_v6 (broadcastInDim S1000000x1 ![] bcast_S_S1000000x1 : (⟨S_, .i32⟩ : BufTy).Contents (Elt F) → (⟨S1000000x1, .i32⟩ : BufTy).Contents (Elt F)),
    StableHlo.binary main_call0_v5 main_call0_v6 main_call0_v7 (cmpi .sge : (⟨S1000000x1, .i32⟩ : BufTy).Contents (Elt F) → (⟨S1000000x1, .i32⟩ : BufTy).Contents (Elt F) → (⟨S1000000x1, .i1⟩ : BufTy).Contents (Elt F)),
    StableHlo.unary main_call0_c_1 main_call0_v8 (broadcastInDim S1x1 ![1] bcast_S1_S1x1_1 : (⟨S1, .i32⟩ : BufTy).Contents (Elt F) → (⟨S1x1, .i32⟩ : BufTy).Contents (Elt F)),
    StableHlo.unary main_call0_v8 main_call0_v9 (broadcastInDim S1000000x1 ![0, 1] bcast_S1x1_S1000000x1_0_1 : (⟨S1x1, .i32⟩ : BufTy).Contents (Elt F) → (⟨S1000000x1, .i32⟩ : BufTy).Contents (Elt F)),
    StableHlo.binary main_call0_v5 main_call0_v9 main_call0_v10 (cmpi .sle : (⟨S1000000x1, .i32⟩ : BufTy).Contents (Elt F) → (⟨S1000000x1, .i32⟩ : BufTy).Contents (Elt F) → (⟨S1000000x1, .i1⟩ : BufTy).Contents (Elt F)),
    StableHlo.binary main_call0_v7 main_call0_v10 main_call0_v11 (andi : (⟨S1000000x1, .i1⟩ : BufTy).Contents (Elt F) → (⟨S1000000x1, .i1⟩ : BufTy).Contents (Elt F) → (⟨S1000000x1, .i1⟩ : BufTy).Contents (Elt F)),
    StableHlo.nullary main_call0_c_3 (constantI S_ 1 1#1),
    StableHlo.binary main_call0_v11 main_call0_c_3 main_call0_v12 ((fun x v => Host.reduce IntOp.andi x v reducesTo_S1000000x1_S1000000_d1 h_S_) : (⟨S1000000x1, .i1⟩ : BufTy).Contents (Elt F) → (⟨S_, .i1⟩ : BufTy).Contents (Elt F) → (⟨S1000000, .i1⟩ : BufTy).Contents (Elt F)),
    StableHlo.binary main_v23 main_call0_v5 main_call0_v13 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_call0_v12 main_call0_v14 (broadcastInDim S1000000x64 ![0] bcast_S1000000_S1000000x64_0 : (⟨S1000000, .i1⟩ : BufTy).Contents (Elt F) → (⟨S1000000x64, .i1⟩ : BufTy).Contents (Elt F)),
    StableHlo.nullary main_call0_cst (constant S_ .f32 0x7FC00000#32),
    StableHlo.unary main_call0_cst main_call0_v15 (broadcastInDim S1000000x64 ![] bcast_S_S1000000x64 : (⟨S_, .f32⟩ : BufTy).Contents (Elt F) → (⟨S1000000x64, .f32⟩ : BufTy).Contents (Elt F)),
    StableHlo.ternary main_call0_v14 main_call0_v13 main_call0_v15 main_v27 (select : (⟨S1000000x64, .i1⟩ : BufTy).Contents (Elt F) → (⟨S1000000x64, .f32⟩ : BufTy).Contents (Elt F) → (⟨S1000000x64, .f32⟩ : BufTy).Contents (Elt F) → (⟨S1000000x64, .f32⟩ : BufTy).Contents (Elt F)) ]

set_option maxRecDepth 100000 in
/-- The one operation of the first gather whose function is a reduction, over the plain builder, for any function. -/
theorem red1 (f : (⟨S1000000x1, .i1⟩ : BufTy).Contents (Elt F) → (⟨S_, .i1⟩ : BufTy).Contents (Elt F) → (⟨S1000000, .i1⟩ : BufTy).Contents (Elt F)) :
    StableHlo.TRef.binary (τ := τ) (.of main_call0_v11 : StableHlo.TRef sig ⟨S1000000x1, .i1⟩) (.of main_call0_c_3 : StableHlo.TRef sig ⟨S_, .i1⟩) (.of main_call0_v12 : StableHlo.TRef sig ⟨S1000000, .i1⟩) f
      = StableHlo.binary main_call0_v11 main_call0_c_3 main_call0_v12 f := rfl

set_option maxRecDepth 100000 in
theorem ops1_eq : (hostOps2_1 (F := F)) = ops1 := by
  show _ = (ops1 (F := F))
  unfold hostOps2_1
  rw [red1]
  rfl

/-- The second gather's 23 operations over the plain operations. -/
abbrev ops2 : List (HloOp τ sig (Elt F)) :=
  [ StableHlo.nullary main_call1_c (constantI S_ 32 0#32),
    StableHlo.unary main_call1_c main_call1_v0 (broadcastInDim S1000000 ![] bcast_S_S1000000 : (⟨S_, .i32⟩ : BufTy).Contents (Elt F) → (⟨S1000000, .i32⟩ : BufTy).Contents (Elt F)),
    StableHlo.binary main_arg2 main_call1_v0 main_call1_v1 (cmpi .slt : (⟨S1000000, .i32⟩ : BufTy).Contents (Elt F) → (⟨S1000000, .i32⟩ : BufTy).Contents (Elt F) → (⟨S1000000, .i1⟩ : BufTy).Contents (Elt F)),
    StableHlo.nullary main_call1_c_0 (constantI S_ 32 100000#32),
    StableHlo.unary main_call1_c_0 main_call1_v2 (broadcastInDim S1000000 ![] bcast_S_S1000000 : (⟨S_, .i32⟩ : BufTy).Contents (Elt F) → (⟨S1000000, .i32⟩ : BufTy).Contents (Elt F)),
    StableHlo.binary main_arg2 main_call1_v2 main_call1_v3 (addi : (⟨S1000000, .i32⟩ : BufTy).Contents (Elt F) → (⟨S1000000, .i32⟩ : BufTy).Contents (Elt F) → (⟨S1000000, .i32⟩ : BufTy).Contents (Elt F)),
    StableHlo.ternary main_call1_v1 main_call1_v3 main_arg2 main_call1_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_call1_v4 main_call1_v5 (broadcastInDim S1000000x1 ![0] bcast_S1000000_S1000000x1_0 : (⟨S1000000, .i32⟩ : BufTy).Contents (Elt F) → (⟨S1000000x1, .i32⟩ : BufTy).Contents (Elt F)),
    StableHlo.nullary main_call1_c_1 (constantI S1 32 99999#32),
    StableHlo.nullary main_call1_c_2 (constantI S_ 32 0#32),
    StableHlo.unary main_call1_c_2 main_call1_v6 (broadcastInDim S1000000x1 ![] bcast_S_S1000000x1 : (⟨S_, .i32⟩ : BufTy).Contents (Elt F) → (⟨S1000000x1, .i32⟩ : BufTy).Contents (Elt F)),
    StableHlo.binary main_call1_v5 main_call1_v6 main_call1_v7 (cmpi .sge : (⟨S1000000x1, .i32⟩ : BufTy).Contents (Elt F) → (⟨S1000000x1, .i32⟩ : BufTy).Contents (Elt F) → (⟨S1000000x1, .i1⟩ : BufTy).Contents (Elt F)),
    StableHlo.unary main_call1_c_1 main_call1_v8 (broadcastInDim S1x1 ![1] bcast_S1_S1x1_1 : (⟨S1, .i32⟩ : BufTy).Contents (Elt F) → (⟨S1x1, .i32⟩ : BufTy).Contents (Elt F)),
    StableHlo.unary main_call1_v8 main_call1_v9 (broadcastInDim S1000000x1 ![0, 1] bcast_S1x1_S1000000x1_0_1 : (⟨S1x1, .i32⟩ : BufTy).Contents (Elt F) → (⟨S1000000x1, .i32⟩ : BufTy).Contents (Elt F)),
    StableHlo.binary main_call1_v5 main_call1_v9 main_call1_v10 (cmpi .sle : (⟨S1000000x1, .i32⟩ : BufTy).Contents (Elt F) → (⟨S1000000x1, .i32⟩ : BufTy).Contents (Elt F) → (⟨S1000000x1, .i1⟩ : BufTy).Contents (Elt F)),
    StableHlo.binary main_call1_v7 main_call1_v10 main_call1_v11 (andi : (⟨S1000000x1, .i1⟩ : BufTy).Contents (Elt F) → (⟨S1000000x1, .i1⟩ : BufTy).Contents (Elt F) → (⟨S1000000x1, .i1⟩ : BufTy).Contents (Elt F)),
    StableHlo.nullary main_call1_c_3 (constantI S_ 1 1#1),
    StableHlo.binary main_call1_v11 main_call1_c_3 main_call1_v12 ((fun x v => Host.reduce IntOp.andi x v reducesTo_S1000000x1_S1000000_d1 h_S_) : (⟨S1000000x1, .i1⟩ : BufTy).Contents (Elt F) → (⟨S_, .i1⟩ : BufTy).Contents (Elt F) → (⟨S1000000, .i1⟩ : BufTy).Contents (Elt F)),
    StableHlo.binary main_v26 main_call1_v5 main_call1_v13 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_call1_v12 main_call1_v14 (broadcastInDim S1000000x64 ![0] bcast_S1000000_S1000000x64_0 : (⟨S1000000, .i1⟩ : BufTy).Contents (Elt F) → (⟨S1000000x64, .i1⟩ : BufTy).Contents (Elt F)),
    StableHlo.nullary main_call1_cst (constant S_ .f32 0x7FC00000#32),
    StableHlo.unary main_call1_cst main_call1_v15 (broadcastInDim S1000000x64 ![] bcast_S_S1000000x64 : (⟨S_, .f32⟩ : BufTy).Contents (Elt F) → (⟨S1000000x64, .f32⟩ : BufTy).Contents (Elt F)),
    StableHlo.ternary main_call1_v14 main_call1_v13 main_call1_v15 main_v28 (select : (⟨S1000000x64, .i1⟩ : BufTy).Contents (Elt F) → (⟨S1000000x64, .f32⟩ : BufTy).Contents (Elt F) → (⟨S1000000x64, .f32⟩ : BufTy).Contents (Elt F) → (⟨S1000000x64, .f32⟩ : BufTy).Contents (Elt F)) ]

set_option maxRecDepth 100000 in
/-- The one operation of the second gather whose function is a reduction, over the plain builder, for any function. -/
theorem red2 (f : (⟨S1000000x1, .i1⟩ : BufTy).Contents (Elt F) → (⟨S_, .i1⟩ : BufTy).Contents (Elt F) → (⟨S1000000, .i1⟩ : BufTy).Contents (Elt F)) :
    StableHlo.TRef.binary (τ := τ) (.of main_call1_v11 : StableHlo.TRef sig ⟨S1000000x1, .i1⟩) (.of main_call1_c_3 : StableHlo.TRef sig ⟨S_, .i1⟩) (.of main_call1_v12 : StableHlo.TRef sig ⟨S1000000, .i1⟩) f
      = StableHlo.binary main_call1_v11 main_call1_c_3 main_call1_v12 f := rfl

set_option maxRecDepth 100000 in
theorem ops2_eq : (hostOps2_2 (F := F)) = ops2 := by
  show _ = (ops2 (F := F))
  unfold hostOps2_2
  rw [red2]
  rfl

set_option maxRecDepth 100000 in
set_option maxHeartbeats 4000000 in
/-- The first gather: row n is the first table's row at the wrapped id of n where that id is in range, else
    not-a-number. -/
theorem v27_eq (V : Valuation τ sig (Elt F)) :
    StableHlo.after hostOps2_1 V (Proc.devRef .tc main_v27)
      = select (maskOf (V (Proc.devRef .tc main_arg2)))
        (Host.gather gather_S100000x64_S1000000x1_S1000000x64_1_0_n_n_0_1_164 (V (Proc.devRef .tc main_v23)) (wrapCol (V (Proc.devRef .tc main_arg2))))
        (broadcastInDim S1000000x64 ![] bcast_S_S1000000x64 (constant S_ .f32 0x7FC00000#32)) := by
  rw [ops1_eq]
  after_results_simp
  rfl

set_option maxRecDepth 100000 in
set_option maxHeartbeats 4000000 in
/-- The second gather: the same over the second table. -/
theorem v28_eq (V : Valuation τ sig (Elt F)) :
    StableHlo.after hostOps2_2 V (Proc.devRef .tc main_v28)
      = select (maskOf (V (Proc.devRef .tc main_arg2)))
        (Host.gather gather_S100000x64_S1000000x1_S1000000x64_1_0_n_n_0_1_164 (V (Proc.devRef .tc main_v26)) (wrapCol (V (Proc.devRef .tc main_arg2))))
        (broadcastInDim S1000000x64 ![] bcast_S_S1000000x64 (constant S_ .f32 0x7FC00000#32)) := by
  rw [ops2_eq]
  after_results_simp
  rfl

/-! The buffers the first stretch does not write keep their contents. -/

set_option maxRecDepth 100000 in
set_option maxHeartbeats 4000000 in
theorem keep2_arg2 (V : Valuation τ sig (Elt F)) :
    StableHlo.after hostOps2 V (Proc.devRef .tc main_arg2) = V (Proc.devRef .tc main_arg2) := by
  after_results_simp

set_option maxRecDepth 100000 in
set_option maxHeartbeats 4000000 in
theorem keep2_v2_0 (V : Valuation τ sig (Elt F)) :
    StableHlo.after hostOps2 V (Proc.devRef .tc main_v2_0) = V (Proc.devRef .tc main_v2_0) := by
  after_results_simp

set_option maxRecDepth 100000 in
set_option maxHeartbeats 4000000 in
theorem keep2_v20_0 (V : Valuation τ sig (Elt F)) :
    StableHlo.after hostOps2 V (Proc.devRef .tc main_v20_0) = V (Proc.devRef .tc main_v20_0) := by
  after_results_simp

set_option maxRecDepth 100000 in
set_option maxHeartbeats 4000000 in
theorem keep2_v20_1 (V : Valuation τ sig (Elt F)) :
    StableHlo.after hostOps2 V (Proc.devRef .tc main_v20_1) = V (Proc.devRef .tc main_v20_1) := by
  after_results_simp

set_option maxRecDepth 100000 in
set_option maxHeartbeats 4000000 in
theorem keep2_v27 (V : Valuation τ sig (Elt F)) :
    StableHlo.after hostOps2 V (Proc.devRef .tc main_v27) = V (Proc.devRef .tc main_v27) := by
  after_results_simp

set_option maxRecDepth 100000 in
set_option maxHeartbeats 4000000 in
theorem keep2_v28 (V : Valuation τ sig (Elt F)) :
    StableHlo.after hostOps2 V (Proc.devRef .tc main_v28) = V (Proc.devRef .tc main_v28) := by
  after_results_simp

/-! The buffers the first gather does not write keep their contents. -/

set_option maxRecDepth 100000 in
set_option maxHeartbeats 4000000 in
theorem keep2_1_arg2 (V : Valuation τ sig (Elt F)) :
    StableHlo.after hostOps2_1 V (Proc.devRef .tc main_arg2) = V (Proc.devRef .tc main_arg2) := by
  rw [ops1_eq]
  after_results_simp

set_option maxRecDepth 100000 in
set_option maxHeartbeats 4000000 in
theorem keep2_1_v2_0 (V : Valuation τ sig (Elt F)) :
    StableHlo.after hostOps2_1 V (Proc.devRef .tc main_v2_0) = V (Proc.devRef .tc main_v2_0) := by
  rw [ops1_eq]
  after_results_simp

set_option maxRecDepth 100000 in
set_option maxHeartbeats 4000000 in
theorem keep2_1_v20_0 (V : Valuation τ sig (Elt F)) :
    StableHlo.after hostOps2_1 V (Proc.devRef .tc main_v20_0) = V (Proc.devRef .tc main_v20_0) := by
  rw [ops1_eq]
  after_results_simp

set_option maxRecDepth 100000 in
set_option maxHeartbeats 4000000 in
theorem keep2_1_v20_1 (V : Valuation τ sig (Elt F)) :
    StableHlo.after hostOps2_1 V (Proc.devRef .tc main_v20_1) = V (Proc.devRef .tc main_v20_1) := by
  rw [ops1_eq]
  after_results_simp

set_option maxRecDepth 100000 in
set_option maxHeartbeats 4000000 in
theorem keep2_1_v23 (V : Valuation τ sig (Elt F)) :
    StableHlo.after hostOps2_1 V (Proc.devRef .tc main_v23) = V (Proc.devRef .tc main_v23) := by
  rw [ops1_eq]
  after_results_simp

set_option maxRecDepth 100000 in
set_option maxHeartbeats 4000000 in
theorem keep2_1_v26 (V : Valuation τ sig (Elt F)) :
    StableHlo.after hostOps2_1 V (Proc.devRef .tc main_v26) = V (Proc.devRef .tc main_v26) := by
  rw [ops1_eq]
  after_results_simp

set_option maxRecDepth 100000 in
set_option maxHeartbeats 4000000 in
theorem keep2_1_v28 (V : Valuation τ sig (Elt F)) :
    StableHlo.after hostOps2_1 V (Proc.devRef .tc main_v28) = V (Proc.devRef .tc main_v28) := by
  rw [ops1_eq]
  after_results_simp

/-! The buffers the second gather does not write keep their contents. -/

set_option maxRecDepth 100000 in
set_option maxHeartbeats 4000000 in
theorem keep2_2_arg2 (V : Valuation τ sig (Elt F)) :
    StableHlo.after hostOps2_2 V (Proc.devRef .tc main_arg2) = V (Proc.devRef .tc main_arg2) := by
  rw [ops2_eq]
  after_results_simp

set_option maxRecDepth 100000 in
set_option maxHeartbeats 4000000 in
theorem keep2_2_v2_0 (V : Valuation τ sig (Elt F)) :
    StableHlo.after hostOps2_2 V (Proc.devRef .tc main_v2_0) = V (Proc.devRef .tc main_v2_0) := by
  rw [ops2_eq]
  after_results_simp

set_option maxRecDepth 100000 in
set_option maxHeartbeats 4000000 in
theorem keep2_2_v20_0 (V : Valuation τ sig (Elt F)) :
    StableHlo.after hostOps2_2 V (Proc.devRef .tc main_v20_0) = V (Proc.devRef .tc main_v20_0) := by
  rw [ops2_eq]
  after_results_simp

set_option maxRecDepth 100000 in
set_option maxHeartbeats 4000000 in
theorem keep2_2_v20_1 (V : Valuation τ sig (Elt F)) :
    StableHlo.after hostOps2_2 V (Proc.devRef .tc main_v20_1) = V (Proc.devRef .tc main_v20_1) := by
  rw [ops2_eq]
  after_results_simp

set_option maxRecDepth 100000 in
set_option maxHeartbeats 4000000 in
theorem keep2_2_v23 (V : Valuation τ sig (Elt F)) :
    StableHlo.after hostOps2_2 V (Proc.devRef .tc main_v23) = V (Proc.devRef .tc main_v23) := by
  rw [ops2_eq]
  after_results_simp

set_option maxRecDepth 100000 in
set_option maxHeartbeats 4000000 in
theorem keep2_2_v26 (V : Valuation τ sig (Elt F)) :
    StableHlo.after hostOps2_2 V (Proc.devRef .tc main_v26) = V (Proc.devRef .tc main_v26) := by
  rw [ops2_eq]
  after_results_simp

set_option maxRecDepth 100000 in
set_option maxHeartbeats 4000000 in
theorem keep2_2_v27 (V : Valuation τ sig (Elt F)) :
    StableHlo.after hostOps2_2 V (Proc.devRef .tc main_v27) = V (Proc.devRef .tc main_v27) := by
  rw [ops2_eq]
  after_results_simp

end Cert.KernelIdeal.TakeRead

end
-- ==== Proof.KTakeMask.lean ====
import proofs.«430596_j44092134261327_3_alg».proof.Proof.Gen.KernelIdeal
import Idealize.ShloMosaic.Lib.ValueIdx
import Idealize.ShloMosaic.Lib.ReduceAll

set_option maxRecDepth 16384

noncomputable section

namespace Cert.KernelIdeal.TakeMask

open Cert.KernelIdeal Cert.KernelIdeal.Gen
open Idealize.ShloMosaic Idealize.ShloMosaic.ValueIdx

/-! ## The take's in-range mask is all ones when every segment id is a row of the table

A take of rows from a table of 100000 rows first wraps each id once from the negative side (an id below
zero is moved up by 100000), then keeps a row only where the wrapped id w satisfies 0 ≤ w ≤ 99999 (the two
comparisons joined by and, reduced by and over a unit axis, and spread over the 64 lanes). When every id already
satisfies 0 ≤ id < 100000 (read as signed words), wrapping changes nothing and both comparisons hold in every
row, so the mask is one everywhere and the select under it returns its first operand. -/

/-- An id below zero is moved up by the table's height; any other is kept. -/
abbrev wrapRow (I : IVec S1000000 32) : IVec S1000000 32 :=
  select (cmpi .slt I (broadcastInDim S1000000 ![] bcast_S_S1000000 (constantI S_ 32 0#32)))
    (addi I (broadcastInDim S1000000 ![] bcast_S_S1000000 (constantI S_ 32 100000#32))) I

/-- The wrapped ids as a one-column array. -/
abbrev wrapCol (I : IVec S1000000 32) : IVec S1000000x1 32 :=
  broadcastInDim S1000000x1 ![0] bcast_S1000000_S1000000x1_0
    (select (cmpi .slt I (broadcastInDim S1000000 ![] bcast_S_S1000000 (constantI S_ 32 0#32)))
      (addi I (broadcastInDim S1000000 ![] bcast_S_S1000000 (constantI S_ 32 100000#32))) I)

/-- Row by row: 0 ≤ wrapped id and wrapped id ≤ 99999, as a one-column array of bits. -/
abbrev inRangeCol (I : IVec S1000000 32) : IVec S1000000x1 1 :=
  andi (cmpi .sge (wrapCol I) (broadcastInDim S1000000x1 ![] bcast_S_S1000000x1 (constantI S_ 32 0#32)))
    (cmpi .sle (wrapCol I)
      (broadcastInDim S1000000x1 ![0, 1] bcast_S1x1_S1000000x1_0_1
        (broadcastInDim S1x1 ![1] bcast_S1_S1x1_1 (constantI S1 32 99999#32))))

/-- The mask: the column reduced by and over its unit axis, the same in every lane. -/
abbrev maskOf (I : IVec S1000000 32) : IVec S1000000x64 1 :=
  broadcastInDim S1000000x64 ![0] bcast_S1000000_S1000000x64_0
    (Host.reduce IntOp.andi
      (andi (cmpi .sge (wrapCol I) (broadcastInDim S1000000x1 ![] bcast_S_S1000000x1 (constantI S_ 32 0#32)))
        (cmpi .sle (wrapCol I)
          (broadcastInDim S1000000x1 ![0, 1] bcast_S1x1_S1000000x1_0_1
            (broadcastInDim S1x1 ![1] bcast_S1_S1x1_1 (constantI S1 32 99999#32)))))
      (constantI S_ 1 1#1) reducesTo_S1000000x1_S1000000_d1 h_S_)

/-- A left fold by and from the bit 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by and, from an initial value of ones, of an array of ones is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

section

variable (I : IVec S1000000 32)
  (hidx : ∀ n : Fin 1000000, IntOp.cmpi .sge (I (ix1 n)) 0#32 = 1#1 ∧ IntOp.cmpi .slt (I (ix1 n)) 100000#32 = 1#1)

include hidx

/-- Every id, read as a signed word, lies in [0, 100000). -/
theorem id_range (j : S1000000.Idx) : 0 ≤ (I j).toInt ∧ (I j).toInt < 100000 := by
  rw [eq_ix1 j]
  obtain ⟨h0, h1⟩ := hidx (j 0)
  have h0' := IntOp.cmpi_sge.mp h0
  have h1' := IntOp.cmpi_slt.mp h1
  rw [show (0#32 : BitVec 32).toInt = 0 from by decide] at h0'
  rw [show (100000#32 : BitVec 32).toInt = 100000 from by decide] at h1'
  exact ⟨h0', h1'⟩

/-- Wrapping leaves every id as it is: none is below zero. -/
theorem wrapRow_apply (j : S1000000.Idx) : wrapRow I j = I j := by
  show Scalar.select (IntOp.cmpi .slt (I j) 0#32) (IntOp.addi (I j) 100000#32) (I j) = I j
  have hn : IntOp.cmpi .slt (I j) 0#32 = 0#1 := by
    refine eq_zero_of_ne_one fun h => ?_
    have := IntOp.cmpi_slt.mp h
    rw [show (0#32 : BitVec 32).toInt = 0 from by decide] at this
    have := (id_range I hidx j).1
    omega
  rw [hn, select_zero]

/-- Both comparisons hold in every row of the column. -/
theorem inRangeCol_apply (i : S1000000x1.Idx) : inRangeCol I i = 1#1 := by
  show IntOp.andi (IntOp.cmpi .sge (wrapRow I _) 0#32) (IntOp.cmpi .sle (wrapRow I _) 99999#32) = 1#1
  rw [wrapRow_apply I hidx]
  obtain ⟨h0, h1⟩ := id_range I hidx _
  refine IntOp.andi_eq_one.mpr ⟨IntOp.cmpi_sge.mpr ?_, IntOp.cmpi_sle.mpr ?_⟩
  · rw [show (0#32 : BitVec 32).toInt = 0 from by decide]; exact h0
  · rw [show (99999#32 : BitVec 32).toInt = 99999 from by decide]; omega

/-- (1) Every entry of the mask is one. -/
theorem maskOf_apply (i : S1000000x64.Idx) : maskOf I i = 1#1 := by
  show Host.reduce IntOp.andi (inRangeCol I) (constantI S_ 1 1#1) reducesTo_S1000000x1_S1000000_d1 h_S_ _ = 1#1
  exact reduce_andi_ones _ _ _ _ (inRangeCol_apply I hidx) (fun _ => rfl) _

/-- The same, as an equation of arrays. -/
theorem maskOf_eq : maskOf I = fun _ => 1#1 := funext (maskOf_apply I hidx)

/-- (2) A select under the mask returns its first operand. -/
theorem select_maskOf {α : Type} (a b : S1000000x64.Idx → α) : select (maskOf I) a b = a := by
  funext i
  rw [select_apply, maskOf_apply I hidx i, select_one]

end

end Cert.KernelIdeal.TakeMask
-- ==== Proof.KHostTake.lean ====
import proofs.«430596_j44092134261327_3_alg».proof.Proof.KHostB
import proofs.«430596_j44092134261327_3_alg».proof.Proof.KTakeRead
import proofs.«430596_j44092134261327_3_alg».proof.Proof.KTakeMask

set_option maxRecDepth 16384

noncomputable section

namespace Cert.KernelIdeal.HostTake

open Cert.KernelIdeal Cert.KernelIdeal.Gen Cert.KernelIdeal.HostB
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The two takes' results and the tables they read, carried to the third region's entry

The first take's result is written in the second of the three stretches before the third region and not touched by
the last; the second segment-sum table is written in the first stretch and not touched by the second. -/

/-- A stretch of host operations (the named list) writes none of its results to the buffer at hand. -/
local macro "untouched_by " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The second take does not write the first take's result. -/
theorem W7_main_v27 (c : Dev nD) :
    W7 m ρ c (Proc.devRef .tc main_v27) = W6 m ρ c (Proc.devRef .tc main_v27) := by untouched_by hostOps2_2

/-- The first take does not write the second segment-sum table. -/
theorem W6_main_v26 (c : Dev nD) :
    W6 m ρ c (Proc.devRef .tc main_v26) = W5 m ρ c (Proc.devRef .tc main_v26) := by untouched_by hostOps2_1

/-! ## The two row gathers at the third region's entry

Each of the two segment-sum tables is a zero [100000, 64] table with the rows of an update array added in at the rows
the segment ids name; each take then gathers, for every one of the 10⁶ rows, the table's row at that row's (wrapped)
segment id, and would replace a row whose id is out of range by not-a-number. When every id lies in [0, 100000) no row
is replaced. The ids are the launch's throughout: no operation writes them. -/

/-- The first take, as its operations compose: over the first table (the second region's second output summed by
    segment), the ids being the launch's. -/
theorem W7_main_v27_ops (c : Dev nD) :
    (W7 m ρ c (Proc.devRef .tc main_v27) : FVec Ideal S1000000x64 .f32)
      = select (TakeRead.maskOf (m ((c : Thread nD τ).loc main_arg2)))
        (Host.gather gather_S100000x64_S1000000x1_S1000000x64_1_0_n_n_0_1_164
          (Host.scatterAdd scatter_S100000x64_S1000000x1_S1000000x64_1_0_0_1
            (broadcastInDim S100000x64 ![] bcast_S_S100000x64 (constant (F := Ideal) S_ .f32 0x00000000#32))
            (broadcastInDim S1000000x1 ![0] bcast_S1000000_S1000000x1_0 (m ((c : Thread nD τ).loc main_arg2)))
            (W4 m ρ c (Proc.devRef .tc main_v20_1) : FVec Ideal S1000000x64 .f32))
          (TakeRead.wrapCol (m ((c : Thread nD τ).loc main_arg2))))
        (broadcastInDim S1000000x64 ![] bcast_S_S1000000x64 (constant (F := Ideal) S_ .f32 0x7FC00000#32)) := by
  rw [W7_main_v27 m ρ c]
  rw [show W6 m ρ c (Proc.devRef .tc main_v27) = _ from TakeRead.v27_eq (W5 m ρ c)]
  rw [W5_main_arg2 m ρ c]
  rw [show W5 m ρ c (Proc.devRef .tc main_v23) = _ from TakeRead.v23_eq (W4 m ρ c)]
  rw [W4_main_arg2 m ρ c]

/-- The second take, as its operations compose: over the second table (the first region's first output summed by
    segment). -/
theorem W7_main_v28_ops (c : Dev nD) :
    (W7 m ρ c (Proc.devRef .tc main_v28) : FVec Ideal S1000000x64 .f32)
      = select (TakeRead.maskOf (m ((c : Thread nD τ).loc main_arg2)))
        (Host.gather gather_S100000x64_S1000000x1_S1000000x64_1_0_n_n_0_1_164
          (Host.scatterAdd scatter_S100000x64_S1000000x1_S1000000x64_1_0_0_1
            (broadcastInDim S100000x64 ![] bcast_S_S100000x64 (constant (F := Ideal) S_ .f32 0x00000000#32))
            (broadcastInDim S1000000x1 ![0] bcast_S1000000_S1000000x1_0 (m ((c : Thread nD τ).loc main_arg2)))
            (W4 m ρ c (Proc.devRef .tc main_v2_0) : FVec Ideal S1000000x64 .f32))
          (TakeRead.wrapCol (m ((c : Thread nD τ).loc main_arg2))))
        (broadcastInDim S1000000x64 ![] bcast_S_S1000000x64 (constant (F := Ideal) S_ .f32 0x7FC00000#32)) := by
  rw [show W7 m ρ c (Proc.devRef .tc main_v28) = _ from TakeRead.v28_eq (W6 m ρ c)]
  rw [W6_main_arg2 m ρ c, W6_main_v26 m ρ c]
  rw [show W5 m ρ c (Proc.devRef .tc main_v26) = _ from TakeRead.v26_eq (W4 m ρ c)]
  rw [W4_main_arg2 m ρ c]

section InRange

variable (c : Dev nD)
  (hidx : ∀ n : Fin 1000000,
    IntOp.cmpi .sge ((m ((c : Thread nD τ).loc main_arg2) : IVec S1000000 32) (ix1 n)) 0#32 = 1#1
      ∧ IntOp.cmpi .slt ((m ((c : Thread nD τ).loc main_arg2) : IVec S1000000 32) (ix1 n)) 100000#32 = 1#1)

include hidx

/-- With every segment id in [0, 100000): the first take's result is the plain gather from the first table. -/
theorem taken_v27 :
    (V7 m ρ c main_v27 : FVec Ideal S1000000x64 .f32)
      = Host.gather gather_S100000x64_S1000000x1_S1000000x64_1_0_n_n_0_1_164
          (Host.scatterAdd scatter_S100000x64_S1000000x1_S1000000x64_1_0_0_1
            (broadcastInDim S100000x64 ![] bcast_S_S100000x64 (constant (F := Ideal) S_ .f32 0x00000000#32))
            (broadcastInDim S1000000x1 ![0] bcast_S1000000_S1000000x1_0 (m ((c : Thread nD τ).loc main_arg2)))
            (V4 m ρ c main_v20_1 : FVec Ideal S1000000x64 .f32))
          (broadcastInDim S1000000x1 ![0] bcast_S1000000_S1000000x1_0
            (select (cmpi .slt (m ((c : Thread nD τ).loc main_arg2) : IVec S1000000 32)
                (broadcastInDim S1000000 ![] bcast_S_S1000000 (constantI S_ 32 0#32)))
              (addi (m ((c : Thread nD τ).loc main_arg2) : IVec S1000000 32)
                (broadcastInDim S1000000 ![] bcast_S_S1000000 (constantI S_ 32 100000#32)))
              (m ((c : Thread nD τ).loc main_arg2) : IVec S1000000 32))) := by
  refine (W7_main_v27_ops m ρ c).trans ?_
  unfold TakeRead.maskOf TakeRead.wrapCol
  exact TakeMask.select_maskOf (m ((c : Thread nD τ).loc main_arg2)) hidx _ _

/-- With every segment id in [0, 100000): the second take's result is the plain gather from the second table. -/
theorem taken_v28 :
    (V7 m ρ c main_v28 : FVec Ideal S1000000x64 .f32)
      = Host.gather gather_S100000x64_S1000000x1_S1000000x64_1_0_n_n_0_1_164
          (Host.scatterAdd scatter_S100000x64_S1000000x1_S1000000x64_1_0_0_1
            (broadcastInDim S100000x64 ![] bcast_S_S100000x64 (constant (F := Ideal) S_ .f32 0x00000000#32))
            (broadcastInDim S1000000x1 ![0] bcast_S1000000_S1000000x1_0 (m ((c : Thread nD τ).loc main_arg2)))
            (V4 m ρ c main_v2_0 : FVec Ideal S1000000x64 .f32))
          (broadcastInDim S1000000x1 ![0] bcast_S1000000_S1000000x1_0
            (select (cmpi .slt (m ((c : Thread nD τ).loc main_arg2) : IVec S1000000 32)
                (broadcastInDim S1000000 ![] bcast_S_S1000000 (constantI S_ 32 0#32)))
              (addi (m ((c : Thread nD τ).loc main_arg2) : IVec S1000000 32)
                (broadcastInDim S1000000 ![] bcast_S_S1000000 (constantI S_ 32 100000#32)))
              (m ((c : Thread nD τ).loc main_arg2) : IVec S1000000 32))) := by
  refine (W7_main_v28_ops m ρ c).trans ?_
  unfold TakeRead.maskOf TakeRead.wrapCol
  exact TakeMask.select_maskOf (m ((c : Thread nD τ).loc main_arg2)) hidx _ _

end InRange

end Cert.KernelIdeal.HostTake
-- ==== Proof.KValue.lean ====
/-
  The kernel's result array is the reference's result, under the precondition: the chain through the first two passes
  (the positional layer, the normalised first layer and their product), through the segment sums, the gathers (whose
  fill mask is all ones, the segment ids being in range) and the quotient, and through the last pass.
-/
import proofs.«430596_j44092134261327_3_alg».proof.Proof.KChainA
import proofs.«430596_j44092134261327_3_alg».proof.Proof.KChainB
import proofs.«430596_j44092134261327_3_alg».proof.Proof.KChainC
import proofs.«430596_j44092134261327_3_alg».proof.Proof.KHostTake

set_option maxRecDepth 16384

noncomputable section

namespace Cert.KernelIdeal.KValue

open Cert.KernelIdeal Cert.KernelIdeal.Gen Cert.KernelIdeal.KArgs
open Idealize.ShloMosaic Idealize.ShloMosaic.TcCoe Idealize.SL.Sem

variable (m : (ℓ : Loc nD τ sig) → Buf (Elt Ideal) ℓ) (ρ : Dev nD → PrngReg)

/-- On every device on which the precondition holds of the launch memory, the reference's result at the kernel's
    argument arrays is the array the kernel's run leaves in its result buffer. -/
theorem result_eq (c : Dev nD) (hpre : KArgs.Pre m c) :
    Cert.ReferenceIdeal.RefValue.result (F := Ideal) (a0 m c) (a1 m c) (a2 m c) (a3 m c) (a4 m c) (a5 m c) (a6 m c) (a7 m c)
        (a8 m c) (a9 m c) (a10 m c)
      = W10 m ρ c (Proc.devRef .tc main_v46) :=
  have hFa := HostTake.taken_v27 m ρ c (Cert.PreDecode.idx_range hpre)
  have hTw := HostTake.taken_v28 m ρ c (Cert.PreDecode.idx_range hpre)
  ChainC.result_eq_of m ρ c hpre (ChainA.feat_eq m ρ c hpre) (ChainB.oraw_eq m ρ c hpre hFa hTw)
    (ChainB.sum2_eq m ρ c hpre hFa hTw) (ChainB.sumsq2_eq m ρ c hpre hFa hTw)

end Cert.KernelIdeal.KValue

end
-- ==== Proof.lean ====
/-
  The certificate's proof. The kernel computes a point-cloud block in four tiled passes around segment sums and row
  gathers: a positional linear layer and the column sums of a first linear layer; that layer normalised by its batch
  statistics (folded into a scale and a shift) and multiplied by the positional weights; a quotient of gathered segment
  sums with its own column sums; and the quotient normalised the same way, rectified, and added to the normalised
  first layer. The reference computes the same with two-pass batch statistics (mean, then the mean of the squared
  centred array). Over the real numbers the mean of the squared centred array is the mean of the squares less the
  squared mean, and is not negative, so the kernel's one-pass variance with its guard at zero is the reference's; the
  two normalised arrays agree by the distributive law. Both need every entry to be a real number: the inputs are finite
  by the precondition, the segment ids index the segment tables, and the quotient's divisor is nowhere zero.
  The three frames are the generated frame certificates (the reference's is its run with the result dropped); nothing
  was rewritten by the idealisation, so the preservation claim is trivial.
-/
import proofs.«430596_j44092134261327_3_alg».proof.Defs
import proofs.«430596_j44092134261327_3_alg».proof.Proof.Gen.Kernel
import proofs.«430596_j44092134261327_3_alg».proof.Proof.Gen.Kernel.Frame
import proofs.«430596_j44092134261327_3_alg».proof.Proof.Gen.KernelIdeal
import proofs.«430596_j44092134261327_3_alg».proof.Proof.Gen.KernelIdeal.Frame
import proofs.«430596_j44092134261327_3_alg».proof.Proof.Gen.ReferenceIdeal
import proofs.«430596_j44092134261327_3_alg».proof.Proof.Gen.Pre_finite_inputs
import proofs.«430596_j44092134261327_3_alg».proof.Proof.KRun
import proofs.«430596_j44092134261327_3_alg».proof.Proof.RefRun
import proofs.«430596_j44092134261327_3_alg».proof.Proof.KValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both idealised programs run; the kernel's result array is named by its run, and the reference's result is that
    array under the precondition. -/
theorem algebraic : Cert.algebraic_KernelIdeal_ReferenceIdeal := by
  intro m ρ m' ρ' hpre hagree
  refine ⟨fun c => Cert.KernelIdeal.Gen.W10 m ρ c (Proc.devRef .tc Cert.KernelIdeal.main_v46),
    Cert.KernelIdeal.GenRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]
  exact Cert.KernelIdeal.KValue.result_eq m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
